-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x1152 : Shape := ⟨3, ![1024, 64, 1152]⟩
abbrev S1024 : Shape := ⟨1, ![1024]⟩
abbrev S1000x1152x128 : Shape := ⟨3, ![1000, 1152, 128]⟩
abbrev S1000x128 : Shape := ⟨2, ![1000, 128]⟩
abbrev S_ : Shape := ⟨0, ![]⟩

class Facts : Prop where
  bcast_S_S1024x64x1152 : S_.BroadcastsInDim S1024x64x1152 (![] : Fin 0 → Fin S1024x64x1152.rank)
  reducesTo_S1024x64x1152_S_d0_1_2 : S1024x64x1152.ReducesTo [0, 1, 2] S_
  h_S_ : 0 < S_.numel
  bcast_S_S1000x1152x128 : S_.BroadcastsInDim S1000x1152x128 (![] : Fin 0 → Fin S1000x1152x128.rank)
  reducesTo_S1000x1152x128_S_d0_1_2 : S1000x1152x128.ReducesTo [0, 1, 2] S_
  bcast_S_S1000x128 : S_.BroadcastsInDim S1000x128 (![] : Fin 0 → Fin S1000x128.rank)
  reducesTo_S1000x128_S_d0_1 : S1000x128.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S1024 32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  let main_c_6 : IVec S_ 32 := constantI S_ 32 1000#32
  let main_v18 : IVec S1024 32 := broadcastInDim S1024 ![] bcast_S_S1024 main_c_6
  let main_v19 : IVec S1024 1 := cmpi .slt main_arg1 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v17 main_v20
  main_v21

def fn {F : FTy → Type} [FloatOps F] (main_arg0 : FVec F S1024x64x1152 .f32) (main_arg1 : IVec S1024 32) (main_arg2 : FVec F S1000x1152x128 .f32) (main_arg3 : FVec F S1000x128 .f32) : IVec S_ 1 :=
  let main_v0 : FVec F S1024x64x1152 .f32 := Host.absf main_arg0
  let main_cst : FVec F S_ .f32 := constant S_ .f32 0x7F800000#32
  let main_v1 : FVec F S1024x64x1152 .f32 := broadcastInDim S1024x64x1152 ![] bcast_S_S1024x64x1152 main_cst
  let main_v2 : IVec S1024x64x1152 1 := cmpf .olt main_v0 main_v1
  let main_c : IVec S_ 1 := constantI S_ 1 1#1
  let main_v3 : IVec S_ 1 := (fun x v => Host.reduce IntOp.andi x v reducesTo_S1024x64x1152_S_d0_1_2 h_S_) main_v2 main_c
  let main_v4 : FVec F S1000x1152x128 .f32 := Host.absf main_arg2
  let main_cst_0 : FVec F S_ .f32 := constant S_ .f32 0x7F800000#32
  let main_v5 : FVec F S1000x1152x128 .f32 := broadcastInDim S1000x1152x128 ![] bcast_S_S1000x1152x128 main_cst_0
  let main_v6 : IVec S1000x1152x128 1 := cmpf .olt main_v4 main_v5
  let main_c_1 : IVec S_ 1 := constantI S_ 1 1#1
  let main_v7 : IVec S_ 1 := (fun x v => Host.reduce IntOp.andi x v reducesTo_S1000x1152x128_S_d0_1_2 h_S_) main_v6 main_c_1
  let main_v8 : IVec S_ 1 := andi main_v3 main_v7
  let main_v9 : FVec F S1000x128 .f32 := Host.absf main_arg3
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg1 main_v14
  let main_c_5 : IVec S_ 1 := constantI S_ 1 1#1
  fn_part1 (F := F) main_arg1 main_v13 main_v15 main_c_5
-- ==== Kernel.lean ====
abbrev S1024x64x1152 : Shape := ⟨3, ![1024, 64, 1152]⟩
abbrev S1024 : Shape := ⟨1, ![1024]⟩
abbrev S1000x1152x128 : Shape := ⟨3, ![1000, 1152, 128]⟩
abbrev S1000x128 : Shape := ⟨2, ![1000, 128]⟩
abbrev S1024x64x128 : Shape := ⟨3, ![1024, 64, 128]⟩
abbrev S16x64x1152 : Shape := ⟨3, ![16, 64, 1152]⟩
abbrev S16x64x128 : Shape := ⟨3, ![16, 64, 128]⟩
abbrev S16x1152x128 : Shape := ⟨3, ![16, 1152, 128]⟩
abbrev S16 : Shape := ⟨1, ![16]⟩
abbrev S1 : Shape := ⟨1, ![1]⟩
abbrev S_ : Shape := ⟨0, ![]⟩
abbrev S1x1152x128 : Shape := ⟨3, ![1, 1152, 128]⟩
abbrev S1152x128 : Shape := ⟨2, ![1152, 128]⟩
abbrev S1024x1 : Shape := ⟨2, ![1024, 1]⟩
abbrev S1024x128 : Shape := ⟨2, ![1024, 128]⟩
abbrev S1024x1x128 : Shape := ⟨3, ![1024, 1, 128]⟩

abbrev nBuf : Space → Nat
  | .hbm => 16
  | .vmem => 5
  | .smem => 1
  | _ => 0

abbrev bufTy : (tb : Table) → Fin (tcTables nBuf tb) → BufTy
  | .hbm, ⟨0, _⟩ => ⟨S1024x64x1152, .f32⟩
  | .hbm, ⟨1, _⟩ => ⟨S1000x1152x128, .f32⟩
  | .hbm, ⟨2, _⟩ => ⟨S1000x128, .f32⟩
  | .hbm, ⟨3, _⟩ => ⟨S1024x64x128, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x128, .f32⟩
  | .hbm, ⟨13, _⟩ => ⟨S1024x1x128, .f32⟩
  | .hbm, ⟨14, _⟩ => ⟨S1024x64x128, .f32⟩
  | .hbm, ⟨15, _⟩ => ⟨S1024x64x128, .f32⟩
  | .local _ .vmem, ⟨0, _⟩ => ⟨S16x64x1152, .f32⟩
  | .local _ .vmem, ⟨1, _⟩ => ⟨S16x64x1152, .f32⟩
  | .local _ .vmem, ⟨2, _⟩ => ⟨S16x64x128, .f32⟩
  | .local _ .vmem, ⟨3, _⟩ => ⟨S16x64x128, .f32⟩
  | .local _ .vmem, ⟨4, _⟩ => ⟨S16x1152x128, .f32⟩
  | .local _ .smem, ⟨0, _⟩ => ⟨S1024, .i32⟩
  | _, _ => ⟨S1024x64x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_2 : BitVec 32 := 0#32
  let c0_i32_3 : BitVec 32 := 0#32
  ![v3.toNat, 0, 0]

def k0_chk1 (v3 : BitVec 32) : Prop :=
  (∀ a, (k0_off2 v3) a + S1x1152x128.size a ≤ S1000x1152x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1152x128.size a ≤ S1000x1152x128.size a := fun v3 k0_hw1 => k0_hw1

def k0_off3 (i : grid0.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k0_off4 (v12 : BitVec 32) : Fin 3 → Nat :=
  let c0_i32_6 : BitVec 32 := 0#32
  let c0_i32_7 : BitVec 32 := 0#32
  ![v12.toNat, 0, 0]

def k0_chk2 (v12 : BitVec 32) : Prop :=
  (∀ a, (k0_off4 v12) a + S1x1152x128.size a ≤ S1000x1152x128.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1152x128.size a ≤ S1000x1152x128.size a := fun v12 k0_hw2 => k0_hw2

def k0_off5 (i : grid0.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k0_off6 (v21 : BitVec 32) : Fin 3 → Nat :=
  let c0_i32_10 : BitVec 32 := 0#32
  let c0_i32_11 : BitVec 32 := 0#32
  ![v21.toNat, 0, 0]

def k0_chk3 (v21 : BitVec 32) : Prop :=
  (∀ a, (k0_off6 v21) a + S1x1152x128.size a ≤ S1000x1152x128.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1152x128.size a ≤ S1000x1152x128.size a := fun v21 k0_hw3 => k0_hw3

def k0_off7 (i : grid0.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k0_off8 (v30 : BitVec 32) : Fin 3 → Nat :=
  let c0_i32_14 : BitVec 32 := 0#32
  let c0_i32_15 : BitVec 32 := 0#32
  ![v30.toNat, 0, 0]

def k0_chk4 (v30 : BitVec 32) : Prop :=
  (∀ a, (k0_off8 v30) a + S1x1152x128.size a ≤ S1000x1152x128.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1152x128.size a ≤ S1000x1152x128.size a := fun v30 k0_hw4 => k0_hw4

def k0_off9 (i : grid0.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k0_off10 (v39 : BitVec 32) : Fin 3 → Nat :=
  let c0_i32_18 : BitVec 32 := 0#32
  let c0_i32_19 : BitVec 32 := 0#32
  ![v39.toNat, 0, 0]

def k0_chk5 (v39 : BitVec 32) : Prop :=
  (∀ a, (k0_off10 v39) a + S1x1152x128.size a ≤ S1000x1152x128.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1152x128.size a ≤ S1000x1152x128.size a := fun v39 k0_hw5 => k0_hw5

def k0_off11 (i : grid0.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k0_off12 (v48 : BitVec 32) : Fin 3 → Nat :=
  let c0_i32_22 : BitVec 32 := 0#32
  let c0_i32_23 : BitVec 32 := 0#32
  ![v48.toNat, 0, 0]

def k0_chk6 (v48 : BitVec 32) : Prop :=
  (∀ a, (k0_off12 v48) a + S1x1152x128.size a ≤ S1000x1152x128.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1152x128.size a ≤ S1000x1152x128.size a := fun v48 k0_hw6 => k0_hw6

def k0_off13 (i : grid0.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k0_off14 (v57 : BitVec 32) : Fin 3 → Nat :=
  let c0_i32_26 : BitVec 32 := 0#32
  let c0_i32_27 : BitVec 32 := 0#32
  ![v57.toNat, 0, 0]

def k0_chk7 (v57 : BitVec 32) : Prop :=
  (∀ a, (k0_off14 v57) a + S1x1152x128.size a ≤ S1000x1152x128.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1152x128.size a ≤ S1000x1152x128.size a := fun v57 k0_hw7 => k0_hw7

def k0_off15 (i : grid0.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k0_off16 (v66 : BitVec 32) : Fin 3 → Nat :=
  let c0_i32_30 : BitVec 32 := 0#32
  let c0_i32_31 : BitVec 32 := 0#32
  ![v66.toNat, 0, 0]

def k0_chk8 (v66 : BitVec 32) : Prop :=
  (∀ a, (k0_off16 v66) a + S1x1152x128.size a ≤ S1000x1152x128.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1152x128.size a ≤ S1000x1152x128.size a := fun v66 k0_hw8 => k0_hw8

def k0_off17 (i : grid0.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k0_off18 (v75 : BitVec 32) : Fin 3 → Nat :=
  let c0_i32_34 : BitVec 32 := 0#32
  let c0_i32_35 : BitVec 32 := 0#32
  ![v75.toNat, 0, 0]

def k0_chk9 (v75 : BitVec 32) : Prop :=
  (∀ a, (k0_off18 v75) a + S1x1152x128.size a ≤ S1000x1152x128.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1152x128.size a ≤ S1000x1152x128.size a := fun v75 k0_hw9 => k0_hw9

def k0_off19 (i : grid0.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k0_off20 (v84 : BitVec 32) : Fin 3 → Nat :=
  let c0_i32_38 : BitVec 32 := 0#32
  let c0_i32_39 : BitVec 32 := 0#32
  ![v84.toNat, 0, 0]

def k0_chk10 (v84 : BitVec 32) : Prop :=
  (∀ a, (k0_off20 v84) a + S1x1152x128.size a ≤ S1000x1152x128.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x1152x128.size a ≤ S1000x1152x128.size a := fun v84 k0_hw10 => k0_hw10

def k0_off21 (i : grid0.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k0_off22 (v93 : BitVec 32) : Fin 3 → Nat :=
  let c0_i32_42 : BitVec 32 := 0#32
  let c0_i32_43 : BitVec 32 := 0#32
  ![v93.toNat, 0, 0]

def k0_chk11 (v93 : BitVec 32) : Prop :=
  (∀ a, (k0_off22 v93) a + S1x1152x128.size a ≤ S1000x1152x128.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x1152x128.size a ≤ S1000x1152x128.size a := fun v93 k0_hw11 => k0_hw11

def k0_off23 (i : grid0.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k0_off24 (v102 : BitVec 32) : Fin 3 → Nat :=
  let c0_i32_46 : BitVec 32 := 0#32
  let c0_i32_47 : BitVec 32 := 0#32
  ![v102.toNat, 0, 0]

def k0_chk12 (v102 : BitVec 32) : Prop :=
  (∀ a, (k0_off24 v102) a + S1x1152x128.size a ≤ S1000x1152x128.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x1152x128.size a ≤ S1000x1152x128.size a := fun v102 k0_hw12 => k0_hw12

def k0_off25 (i : grid0.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k0_off26 (v111 : BitVec 32) : Fin 3 → Nat :=
  let c0_i32_50 : BitVec 32 := 0#32
  let c0_i32_51 : BitVec 32 := 0#32
  ![v111.toNat, 0, 0]

def k0_chk13 (v111 : BitVec 32) : Prop :=
  (∀ a, (k0_off26 v111) a + S1x1152x128.size a ≤ S1000x1152x128.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x1152x128.size a ≤ S1000x1152x128.size a := fun v111 k0_hw13 => k0_hw13

def k0_off27 (i : grid0.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k0_off28 (v120 : BitVec 32) : Fin 3 → Nat :=
  let c0_i32_54 : BitVec 32 := 0#32
  let c0_i32_55 : BitVec 32 := 0#32
  ![v120.toNat, 0, 0]

def k0_chk14 (v120 : BitVec 32) : Prop :=
  (∀ a, (k0_off28 v120) a + S1x1152x128.size a ≤ S1000x1152x128.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x1152x128.size a ≤ S1000x1152x128.size a := fun v120 k0_hw14 => k0_hw14

def k0_off29 (i : grid0.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k0_off30 (v129 : BitVec 32) : Fin 3 → Nat :=
  let c0_i32_58 : BitVec 32 := 0#32
  let c0_i32_59 : BitVec 32 := 0#32
  ![v129.toNat, 0, 0]

def k0_chk15 (v129 : BitVec 32) : Prop :=
  (∀ a, (k0_off30 v129) a + S1x1152x128.size a ≤ S1000x1152x128.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x1152x128.size a ≤ S1000x1152x128.size a := fun v129 k0_hw15 => k0_hw15

def k0_off31 (i : grid0.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k0_off32 (v138 : BitVec 32) : Fin 3 → Nat :=
  let c0_i32_62 : BitVec 32 := 0#32
  let c0_i32_63 : BitVec 32 := 0#32
  ![v138.toNat, 0, 0]

def k0_chk16 (v138 : BitVec 32) : Prop :=
  (∀ a, (k0_off32 v138) a + S1x1152x128.size a ≤ S1000x1152x128.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x1152x128.size a ≤ S1000x1152x128.size a := fun v138 k0_hw16 => k0_hw16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  numel1_S1 : S1.numel = 1
  inb_S16_S1_0 : ∀ a, (![0] : Fin 1 → Nat) a + S1.size a ≤ S16.size a
  squeezes_S1_S_ : S1.Squeezes S_
  inb_S16x1152x128_S1x1152x128_0_0_0 : ∀ a, (![0, 0, 0] : Fin 3 → Nat) a + S1x1152x128.size a ≤ S16x1152x128.size a
  squeezes_S1x1152x128_S1152x128 : S1x1152x128.Squeezes S1152x128
  inb_S16_S1_1 : ∀ a, (![1] : Fin 1 → Nat) a + S1.size a ≤ S16.size a
  inb_S16x1152x128_S1x1152x128_1_0_0 : ∀ a, (![1, 0, 0] : Fin 3 → Nat) a + S1x1152x128.size a ≤ S16x1152x128.size a
  inb_S16_S1_2 : ∀ a, (![2] : Fin 1 → Nat) a + S1.size a ≤ S16.size a
  inb_S16x1152x128_S1x1152x128_2_0_0 : ∀ a, (![2, 0, 0] : Fin 3 → Nat) a + S1x1152x128.size a ≤ S16x1152x128.size a
  inb_S16_S1_3 : ∀ a, (![3] : Fin 1 → Nat) a + S1.size a ≤ S16.size a
  inb_S16x1152x128_S1x1152x128_3_0_0 : ∀ a, (![3, 0, 0] : Fin 3 → Nat) a + S1x1152x128.size a ≤ S16x1152x128.size a
  inb_S16_S1_4 : ∀ a, (![4] : Fin 1 → Nat) a + S1.size a ≤ S16.size a
  inb_S16x1152x128_S1x1152x128_4_0_0 : ∀ a, (![4, 0, 0] : Fin 3 → Nat) a + S1x1152x128.size a ≤ S16x1152x128.size a
  inb_S16_S1_5 : ∀ a, (![5] : Fin 1 → Nat) a + S1.size a ≤ S16.size a
  inb_S16x1152x128_S1x1152x128_5_0_0 : ∀ a, (![5, 0, 0] : Fin 3 → Nat) a + S1x1152x128.size a ≤ S16x1152x128.size a
  inb_S16_S1_6 : ∀ a, (![6] : Fin 1 → Nat) a + S1.size a ≤ S16.size a
  inb_S16x1152x128_S1x1152x128_6_0_0 : ∀ a, (![6, 0, 0] : Fin 3 → Nat) a + S1x1152x128.size a ≤ S16x1152x128.size a
  inb_S16_S1_7 : ∀ a, (![7] : Fin 1 → Nat) a + S1.size a ≤ S16.size a
  inb_S16x1152x128_S1x1152x128_7_0_0 : ∀ a, (![7, 0, 0] : Fin 3 → Nat) a + S1x1152x128.size a ≤ S16x1152x128.size a
  inb_S16_S1_8 : ∀ a, (![8] : Fin 1 → Nat) a + S1.size a ≤ S16.size a
  inb_S16x1152x128_S1x1152x128_8_0_0 : ∀ a, (![8, 0, 0] : Fin 3 → Nat) a + S1x1152x128.size a ≤ S16x1152x128.size a
  inb_S16_S1_9 : ∀ a, (![9] : Fin 1 → Nat) a + S1.size a ≤ S16.size a
  inb_S16x1152x128_S1x1152x128_9_0_0 : ∀ a, (![9, 0, 0] : Fin 3 → Nat) a + S1x1152x128.size a ≤ S16x1152x128.size a
  inb_S16_S1_10 : ∀ a, (![10] : Fin 1 → Nat) a + S1.size a ≤ S16.size a
  inb_S16x1152x128_S1x1152x128_10_0_0 : ∀ a, (![10, 0, 0] : Fin 3 → Nat) a + S1x1152x128.size a ≤ S16x1152x128.size a
  inb_S16_S1_11 : ∀ a, (![11] : Fin 1 → Nat) a + S1.size a ≤ S16.size a
  inb_S16x1152x128_S1x1152x128_11_0_0 : ∀ a, (![11, 0, 0] : Fin 3 → Nat) a + S1x1152x128.size a ≤ S16x1152x128.size a
  inb_S16_S1_12 : ∀ a, (![12] : Fin 1 → Nat) a + S1.size a ≤ S16.size a
  inb_S16x1152x128_S1x1152x128_12_0_0 : ∀ a, (![12, 0, 0] : Fin 3 → Nat) a + S1x1152x128.size a ≤ S16x1152x128.size a
  inb_S16_S1_13 : ∀ a, (![13] : Fin 1 → Nat) a + S1.size a ≤ S16.size a
  inb_S16x1152x128_S1x1152x128_13_0_0 : ∀ a, (![13, 0, 0] : Fin 3 → Nat) a + S1x1152x128.size a ≤ S16x1152x128.size a
  inb_S16_S1_14 : ∀ a, (![14] : Fin 1 → Nat) a + S1.size a ≤ S16.size a
  inb_S16x1152x128_S1x1152x128_14_0_0 : ∀ a, (![14, 0, 0] : Fin 3 → Nat) a + S1x1152x128.size a ≤ S16x1152x128.size a
  inb_S16_S1_15 : ∀ a, (![15] : Fin 1 → Nat) a + S1.size a ≤ S16.size a
  inb_S16x1152x128_S1x1152x128_15_0_0 : ∀ a, (![15, 0, 0] : Fin 3 → Nat) a + S1x1152x128.size a ≤ S16x1152x128.size a
  inb_S1000x1152x128_S1x1152x128_0_0_0 : ∀ a, (![0, 0, 0] : Fin 3 → Nat) a + S1x1152x128.size a ≤ S1000x1152x128.size a
  inb_S16x64x1152_S16x64x1152_0_0_0 : ∀ a, (![0, 0, 0] : Fin 3 → Nat) a + S16x64x1152.size a ≤ S16x64x1152.size a
  h_S16x64x1152 : 0 < S16x64x1152.numel
  bitsLt_bf16_f32 : FTy.bits .bf16 < FTy.bits .f32
  inb_S16x1152x128_S16x1152x128_0_0_0 : ∀ a, (![0, 0, 0] : Fin 3 → Nat) a + S16x1152x128.size a ≤ S16x1152x128.size a
  h_S16x1152x128 : 0 < S16x1152x128.numel
  inb_S16x64x128_S16x64x128_0_0_0 : ∀ a, (![0, 0, 0] : Fin 3 → Nat) a + S16x64x128.size a ≤ S16x64x128.size a
  h_S16x64x128 : 0 < S16x64x128.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x128_S1024x1x128_0_2 : S1024x128.BroadcastsInDim S1024x1x128 (![0, 2] : Fin 2 → Fin S1024x1x128.rank)
  bcast_S1024x1x128_S1024x64x128_0_1_2 : S1024x1x128.BroadcastsInDim S1024x64x128 (![0, 1, 2] : Fin 3 → Fin S1024x64x128.rank)
  dot_S16x64x1152_S16x1152x128_S16x64x128_2_1_1_2_0_0_wf : DotDims.WF S16x64x1152 S16x1152x128 S16x64x128 [2] [1] [1] [2] [0] [0]
  gather_S1000x128_S1024x1_S1024x128_1_0_n_n_0_1_1128_wf : GatherDims.WF S1000x128 S1024x1 S1024x128 [1] [0] [] [0] [] 1 ![1, 128]
  hcc0_scratch1 : 4 + S16.numel ≤ 20
  hrank0 : 0 < grid0.rank
  k0_off1_inb : ∀ i : grid0.Coords, ∀ a, (k0_off1 i) a + S1.size a ≤ S1024.size a
  k0_off3_inb : ∀ i : grid0.Coords, ∀ a, (k0_off3 i) a + S1.size a ≤ S1024.size a
  k0_off5_inb : ∀ i : grid0.Coords, ∀ a, (k0_off5 i) a + S1.size a ≤ S1024.size a
  k0_off7_inb : ∀ i : grid0.Coords, ∀ a, (k0_off7 i) a + S1.size a ≤ S1024.size a
  k0_off9_inb : ∀ i : grid0.Coords, ∀ a, (k0_off9 i) a + S1.size a ≤ S1024.size a
  k0_off11_inb : ∀ i : grid0.Coords, ∀ a, (k0_off11 i) a + S1.size a ≤ S1024.size a
  k0_off13_inb : ∀ i : grid0.Coords, ∀ a, (k0_off13 i) a + S1.size a ≤ S1024.size a
  k0_off15_inb : ∀ i : grid0.Coords, ∀ a, (k0_off15 i) a + S1.size a ≤ S1024.size a
  k0_off17_inb : ∀ i : grid0.Coords, ∀ a, (k0_off17 i) a + S1.size a ≤ S1024.size a
  k0_off19_inb : ∀ i : grid0.Coords, ∀ a, (k0_off19 i) a + S1.size a ≤ S1024.size a
  k0_off21_inb : ∀ i : grid0.Coords, ∀ a, (k0_off21 i) a + S1.size a ≤ S1024.size a
  k0_off23_inb : ∀ i : grid0.Coords, ∀ a, (k0_off23 i) a + S1.size a ≤ S1024.size a
  k0_off25_inb : ∀ i : grid0.Coords, ∀ a, (k0_off25 i) a + S1.size a ≤ S1024.size a
  k0_off27_inb : ∀ i : grid0.Coords, ∀ a, (k0_off27 i) a + S1.size a ≤ S1024.size a
  k0_off29_inb : ∀ i : grid0.Coords, ∀ a, (k0_off29 i) a + S1.size a ≤ S1024.size a
  k0_off31_inb : ∀ i : grid0.Coords, ∀ a, (k0_off31 i) a + S1.size a ≤ S1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1152.size a ≤ S1024x64x1152.size a
  hwx0_0 : ∀ i : grid0.Coords, EltTy.bits .f32 = 32 ∨ (Rect.block (s := S1024x64x1152) S16x64x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S16x64x128.size a ≤ S1024x64x128.size a
  hwx0_1 : ∀ i : grid0.Coords, EltTy.bits .f32 = 32 ∨ (Rect.block (s := S1024x64x128) S16x64x128.size (cc0_transform_2 i) (hinb0_1 i)).WholeWords (EltTy.packing .f32)

variable [Facts₀]

abbrev cc0_scratch1 : DmaSems sig S16 := SemArray.consecutive 4 S16 hcc0_scratch1
def dot_S16x64x1152_S16x1152x128_S16x64x128_2_1_1_2_0_0 : DotDims S16x64x1152 S16x1152x128 S16x64x128 where
  lhsContracting := [2]
  rhsContracting := [1]
  lhsNonContracting := [1]
  rhsNonContracting := [2]
  lhsBatch := [0]
  rhsBatch := [0]
  wf := dot_S16x64x1152_S16x1152x128_S16x64x128_2_1_1_2_0_0_wf
def gather_S1000x128_S1024x1_S1024x128_1_0_n_n_0_1_1128 : GatherDims S1000x128 S1024x1 S1024x128 where
  offsetDims := [1]
  collapsedSliceDims := [0]
  operandBatchingDims := []
  startIndicesBatchingDims := []
  startIndexMap := [0]
  indexVectorDim := 1
  sliceSizes := ![1, 128]
  wf := gather_S1000x128_S1024x1_S1024x128_1_0_n_n_0_1_1128_wf

abbrev spec0_0 : Pipeline.WinSpec sig grid0.rank :=
  Pipeline.WinSpec.ofSpec (Memref.whole main_arg0) S16x64x1152.size reads0_0 false false 2 stage0_0 sem0_0 nbuf0_0 hstage0_0

abbrev spec0_1 : Pipeline.WinSpec sig grid0.rank :=
  Pipeline.WinSpec.ofSpec (Memref.whole main_v0) S16x64x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S1024x64x1152 : Shape := ⟨3, ![1024, 64, 1152]⟩
abbrev S1024 : Shape := ⟨1, ![1024]⟩
abbrev S1000x1152x128 : Shape := ⟨3, ![1000, 1152, 128]⟩
abbrev S1000x128 : Shape := ⟨2, ![1000, 128]⟩
abbrev S_ : Shape := ⟨0, ![]⟩
abbrev S1024x1 : Shape := ⟨2, ![1024, 1]⟩
abbrev S1024x1152x128 : Shape := ⟨3, ![1024, 1152, 128]⟩
abbrev S1024x128 : Shape := ⟨2, ![1024, 128]⟩
abbrev S1024x1x128 : Shape := ⟨3, ![1024, 1, 128]⟩
abbrev S1024x64x128 : Shape := ⟨3, ![1024, 64, 128]⟩

abbrev nBuf : Space → Nat
  | .hbm => 26
  | .vmem => 0
  | .smem => 0
  | _ => 0

abbrev bufTy : (tb : Table) → Fin (tcTables nBuf tb) → BufTy
  | .hbm, ⟨0, _⟩ => ⟨S1024x64x1152, .f32⟩
  | .hbm, ⟨1, _⟩ => ⟨S1024, .i32⟩
  | .hbm, ⟨2, _⟩ => ⟨S1000x1152x128, .f32⟩
  | .hbm, ⟨3, _⟩ => ⟨S1000x128, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x1152x128, .f32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x128, .f32⟩
  | .hbm, ⟨22, _⟩ => ⟨S1024x1x128, .f32⟩
  | .hbm, ⟨23, _⟩ => ⟨S1024x64x128, .f32⟩
  | .hbm, ⟨24, _⟩ => ⟨S1024x64x128, .f32⟩
  | .hbm, ⟨25, _⟩ => ⟨S1024x64x128, .f32⟩
  | _, _ => ⟨S1024x64x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024x128_S1024x1x128_0_2 : S1024x128.BroadcastsInDim S1024x1x128 (![0, 2] : Fin 2 → Fin S1024x1x128.rank)
  bcast_S1024x1x128_S1024x64x128_0_1_2 : S1024x1x128.BroadcastsInDim S1024x64x128 (![0, 1, 2] : Fin 3 → Fin S1024x64x128.rank)
  gather_S1000x1152x128_S1024x1_S1024x1152x128_12_0_n_n_0_1_11152128_wf : GatherDims.WF S1000x1152x128 S1024x1 S1024x1152x128 [1, 2] [0] [] [0] [] 1 ![1, 1152, 128]
  gather_S1000x128_S1024x1_S1024x128_1_0_n_n_0_1_1128_wf : GatherDims.WF S1000x128 S1024x1 S1024x128 [1] [0] [] [0] [] 1 ![1, 128]
  dot_S1024x64x1152_S1024x1152x128_S1024x64x128_2_1_1_2_0_0_wf : DotDims.WF S1024x64x1152 S1024x1152x128 S1024x64x128 [2] [1] [1] [2] [0] [0]

variable [Facts₀]

def gather_S1000x1152x128_S1024x1_S1024x1152x128_12_0_n_n_0_1_11152128 : GatherDims S1000x1152x128 S1024x1 S1024x1152x128 where
  offsetDims := [1, 2]
  collapsedSliceDims := [0]
  operandBatchingDims := []
  startIndicesBatchingDims := []
  startIndexMap := [0]
  indexVectorDim := 1
  sliceSizes := ![1, 1152, 128]
  wf := gather_S1000x1152x128_S1024x1_S1024x1152x128_12_0_n_n_0_1_11152128_wf
def gather_S1000x128_S1024x1_S1024x128_1_0_n_n_0_1_1128 : GatherDims S1000x128 S1024x1 S1024x128 where
  offsetDims := [1]
  collapsedSliceDims := [0]
  operandBatchingDims := []
  startIndicesBatchingDims := []
  startIndexMap := [0]
  indexVectorDim := 1
  sliceSizes := ![1, 128]
  wf := gather_S1000x128_S1024x1_S1024x128_1_0_n_n_0_1_1128_wf
def dot_S1024x64x1152_S1024x1152x128_S1024x64x128_2_1_1_2_0_0 : DotDims S1024x64x1152 S1024x1152x128 S1024x64x128 where
  lhsContracting := [2]
  rhsContracting := [1]
  lhsNonContracting := [1]
  rhsNonContracting := [2]
  lhsBatch := [0]
  rhsBatch := [0]
  wf := dot_S1024x64x1152_S1024x1152x128_S1024x64x128_2_1_1_2_0_0_wf

class Facts : Prop extends Facts₀ where

variable [Facts]
-- ==== Proof.KernelRows.lean ====
/-
  The kernel's scratch, a 16 x 1152 x 128 array, as its sixteen rows.

  Row r is the unit rectangle at offset (r, 0, 0) of extent (1, 1152, 128), seen as a 1152 x 128 matrix by dropping the
  unit axis. The sixteen rows are pairwise disjoint (two of them differ on the leading axis) and cover the array
  (16 · 1 is the leading extent). So the scratch held whole is the sixteen rows held apart at the same contents; and
  sixteen rows, each holding a matrix written whole over whatever was there, join to the scratch held whole at the
  array whose row r is the r-th matrix.
-/
import proofs.«417661_j25847113187694_2_alg».proof.Proof.Gen.Kernel.Launch
import Idealize.ShloMosaic.Lib.Ring
import Idealize.ShloMosaic.Lib.Pipeline.Frame
import Idealize.ShloMosaic.Lib.ValueIdx

noncomputable section

namespace Cert.Proof.KernelRows

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

private theorem entails_of_eq {P Q : sProp 𝕄} (e : P = Q) : P ⊢ Q := e ▸ .rfl

private theorem sep_congr {P P' Q Q' : sProp 𝕄} (h1 : P = P') (h2 : Q = Q') : (iprop(P ∗ Q) : sProp 𝕄) = iprop(P' ∗ Q') := by
  rw [h1, h2]

/-! ## The rows as element sets -/

/-- Row r lies inside the array. -/
theorem inb_row (r : Fin 16) (a : Fin 3) : (![r.val, 0, 0] : Fin 3 → Nat) a + S1x1152x128.size a ≤ S16x1152x128.size a := by
  have := r.isLt
  match a with
  | ⟨0, _⟩ => show r.val + 1 ≤ 16; omega
  | ⟨1, _⟩ => show 0 + 1152 ≤ 1152; omega
  | ⟨2, _⟩ => show 0 + 128 ≤ 128; omega

/-- The elements of row r. -/
abbrev rowSet (r : Fin 16) : Finset S16x1152x128.Idx := (Rect.unit (s := S16x1152x128) ![r.val, 0, 0] S1x1152x128.size (inb_row r)).set

/-- Two different rows share no element. -/
theorem rows_disjoint (r r' : Fin 16) (h : r ≠ r') : Disjoint (rowSet r) (rowSet r') :=
  Ring.lead_disjoint (s := S16x1152x128) (0 : Fin 3) 1 (fun r : Fin 16 => (![r.val, 0, 0] : Fin 3 → Nat)) S1x1152x128.size inb_row (fun r => by simp) rfl r r' h

/-- Every element of the array is in some row. -/
theorem rows_cover : Finset.univ.biUnion rowSet = Finset.univ :=
  Ring.lead_cover (s := S16x1152x128) (0 : Fin 3) 1 (fun r : Fin 16 => (![r.val, 0, 0] : Fin 3 → Nat)) S1x1152x128.size inb_row (fun r => by simp)
    (fun r a ha => by fin_cases a <;> first | exact absurd rfl ha | rfl) rfl (fun a ha => by fin_cases a <;> first | exact absurd rfl ha | rfl) rfl

/-! ## The rows as memrefs -/

abbrev rowM0 : Memref sig .tc .vmem S1152x128 .f32 := ((Memref.whole cc0_scratch0).slice (Rect.unit (s := S16x1152x128) ![0, 0, 0] S1x1152x128.size Facts₀.inb_S16x1152x128_S1x1152x128_0_0_0) (fun _ => rfl)).squeeze S1152x128 Facts₀.squeezes_S1x1152x128_S1152x128
abbrev rowM1 : Memref sig .tc .vmem S1152x128 .f32 := ((Memref.whole cc0_scratch0).slice (Rect.unit (s := S16x1152x128) ![1, 0, 0] S1x1152x128.size Facts₀.inb_S16x1152x128_S1x1152x128_1_0_0) (fun _ => rfl)).squeeze S1152x128 Facts₀.squeezes_S1x1152x128_S1152x128
abbrev rowM2 : Memref sig .tc .vmem S1152x128 .f32 := ((Memref.whole cc0_scratch0).slice (Rect.unit (s := S16x1152x128) ![2, 0, 0] S1x1152x128.size Facts₀.inb_S16x1152x128_S1x1152x128_2_0_0) (fun _ => rfl)).squeeze S1152x128 Facts₀.squeezes_S1x1152x128_S1152x128
abbrev rowM3 : Memref sig .tc .vmem S1152x128 .f32 := ((Memref.whole cc0_scratch0).slice (Rect.unit (s := S16x1152x128) ![3, 0, 0] S1x1152x128.size Facts₀.inb_S16x1152x128_S1x1152x128_3_0_0) (fun _ => rfl)).squeeze S1152x128 Facts₀.squeezes_S1x1152x128_S1152x128
abbrev rowM4 : Memref sig .tc .vmem S1152x128 .f32 := ((Memref.whole cc0_scratch0).slice (Rect.unit (s := S16x1152x128) ![4, 0, 0] S1x1152x128.size Facts₀.inb_S16x1152x128_S1x1152x128_4_0_0) (fun _ => rfl)).squeeze S1152x128 Facts₀.squeezes_S1x1152x128_S1152x128
abbrev rowM5 : Memref sig .tc .vmem S1152x128 .f32 := ((Memref.whole cc0_scratch0).slice (Rect.unit (s := S16x1152x128) ![5, 0, 0] S1x1152x128.size Facts₀.inb_S16x1152x128_S1x1152x128_5_0_0) (fun _ => rfl)).squeeze S1152x128 Facts₀.squeezes_S1x1152x128_S1152x128
abbrev rowM6 : Memref sig .tc .vmem S1152x128 .f32 := ((Memref.whole cc0_scratch0).slice (Rect.unit (s := S16x1152x128) ![6, 0, 0] S1x1152x128.size Facts₀.inb_S16x1152x128_S1x1152x128_6_0_0) (fun _ => rfl)).squeeze S1152x128 Facts₀.squeezes_S1x1152x128_S1152x128
abbrev rowM7 : Memref sig .tc .vmem S1152x128 .f32 := ((Memref.whole cc0_scratch0).slice (Rect.unit (s := S16x1152x128) ![7, 0, 0] S1x1152x128.size Facts₀.inb_S16x1152x128_S1x1152x128_7_0_0) (fun _ => rfl)).squeeze S1152x128 Facts₀.squeezes_S1x1152x128_S1152x128
abbrev rowM8 : Memref sig .tc .vmem S1152x128 .f32 := ((Memref.whole cc0_scratch0).slice (Rect.unit (s := S16x1152x128) ![8, 0, 0] S1x1152x128.size Facts₀.inb_S16x1152x128_S1x1152x128_8_0_0) (fun _ => rfl)).squeeze S1152x128 Facts₀.squeezes_S1x1152x128_S1152x128
abbrev rowM9 : Memref sig .tc .vmem S1152x128 .f32 := ((Memref.whole cc0_scratch0).slice (Rect.unit (s := S16x1152x128) ![9, 0, 0] S1x1152x128.size Facts₀.inb_S16x1152x128_S1x1152x128_9_0_0) (fun _ => rfl)).squeeze S1152x128 Facts₀.squeezes_S1x1152x128_S1152x128
abbrev rowM10 : Memref sig .tc .vmem S1152x128 .f32 := ((Memref.whole cc0_scratch0).slice (Rect.unit (s := S16x1152x128) ![10, 0, 0] S1x1152x128.size Facts₀.inb_S16x1152x128_S1x1152x128_10_0_0) (fun _ => rfl)).squeeze S1152x128 Facts₀.squeezes_S1x1152x128_S1152x128
abbrev rowM11 : Memref sig .tc .vmem S1152x128 .f32 := ((Memref.whole cc0_scratch0).slice (Rect.unit (s := S16x1152x128) ![11, 0, 0] S1x1152x128.size Facts₀.inb_S16x1152x128_S1x1152x128_11_0_0) (fun _ => rfl)).squeeze S1152x128 Facts₀.squeezes_S1x1152x128_S1152x128
abbrev rowM12 : Memref sig .tc .vmem S1152x128 .f32 := ((Memref.whole cc0_scratch0).slice (Rect.unit (s := S16x1152x128) ![12, 0, 0] S1x1152x128.size Facts₀.inb_S16x1152x128_S1x1152x128_12_0_0) (fun _ => rfl)).squeeze S1152x128 Facts₀.squeezes_S1x1152x128_S1152x128
abbrev rowM13 : Memref sig .tc .vmem S1152x128 .f32 := ((Memref.whole cc0_scratch0).slice (Rect.unit (s := S16x1152x128) ![13, 0, 0] S1x1152x128.size Facts₀.inb_S16x1152x128_S1x1152x128_13_0_0) (fun _ => rfl)).squeeze S1152x128 Facts₀.squeezes_S1x1152x128_S1152x128
abbrev rowM14 : Memref sig .tc .vmem S1152x128 .f32 := ((Memref.whole cc0_scratch0).slice (Rect.unit (s := S16x1152x128) ![14, 0, 0] S1x1152x128.size Facts₀.inb_S16x1152x128_S1x1152x128_14_0_0) (fun _ => rfl)).squeeze S1152x128 Facts₀.squeezes_S1x1152x128_S1152x128
abbrev rowM15 : Memref sig .tc .vmem S1152x128 .f32 := ((Memref.whole cc0_scratch0).slice (Rect.unit (s := S16x1152x128) ![15, 0, 0] S1x1152x128.size Facts₀.inb_S16x1152x128_S1x1152x128_15_0_0) (fun _ => rfl)).squeeze S1152x128 Facts₀.squeezes_S1x1152x128_S1152x128

theorem row_set_eq0 : rowM0.view.set = rowSet 0 := by
  simp only [Memref.view_squeeze, View.set_reshape]; exact View.set_slice_whole _ _
theorem row_set_eq1 : rowM1.view.set = rowSet 1 := by
  simp only [Memref.view_squeeze, View.set_reshape]; exact View.set_slice_whole _ _
theorem row_set_eq2 : rowM2.view.set = rowSet 2 := by
  simp only [Memref.view_squeeze, View.set_reshape]; exact View.set_slice_whole _ _
theorem row_set_eq3 : rowM3.view.set = rowSet 3 := by
  simp only [Memref.view_squeeze, View.set_reshape]; exact View.set_slice_whole _ _
theorem row_set_eq4 : rowM4.view.set = rowSet 4 := by
  simp only [Memref.view_squeeze, View.set_reshape]; exact View.set_slice_whole _ _
theorem row_set_eq5 : rowM5.view.set = rowSet 5 := by
  simp only [Memref.view_squeeze, View.set_reshape]; exact View.set_slice_whole _ _
theorem row_set_eq6 : rowM6.view.set = rowSet 6 := by
  simp only [Memref.view_squeeze, View.set_reshape]; exact View.set_slice_whole _ _
theorem row_set_eq7 : rowM7.view.set = rowSet 7 := by
  simp only [Memref.view_squeeze, View.set_reshape]; exact View.set_slice_whole _ _
theorem row_set_eq8 : rowM8.view.set = rowSet 8 := by
  simp only [Memref.view_squeeze, View.set_reshape]; exact View.set_slice_whole _ _
theorem row_set_eq9 : rowM9.view.set = rowSet 9 := by
  simp only [Memref.view_squeeze, View.set_reshape]; exact View.set_slice_whole _ _
theorem row_set_eq10 : rowM10.view.set = rowSet 10 := by
  simp only [Memref.view_squeeze, View.set_reshape]; exact View.set_slice_whole _ _
theorem row_set_eq11 : rowM11.view.set = rowSet 11 := by
  simp only [Memref.view_squeeze, View.set_reshape]; exact View.set_slice_whole _ _
theorem row_set_eq12 : rowM12.view.set = rowSet 12 := by
  simp only [Memref.view_squeeze, View.set_reshape]; exact View.set_slice_whole _ _
theorem row_set_eq13 : rowM13.view.set = rowSet 13 := by
  simp only [Memref.view_squeeze, View.set_reshape]; exact View.set_slice_whole _ _
theorem row_set_eq14 : rowM14.view.set = rowSet 14 := by
  simp only [Memref.view_squeeze, View.set_reshape]; exact View.set_slice_whole _ _
theorem row_set_eq15 : rowM15.view.set = rowSet 15 := by
  simp only [Memref.view_squeeze, View.set_reshape]; exact View.set_slice_whole _ _

/-- The scratch's buffer on core c. -/
abbrev ℓ (c : Dev nD) : Loc nD τ sig := (Memref.whole cc0_scratch0).view.loc (c : Thread nD τ)

/-- A row's matrix held by exactly its own elements, at contents f of the scratch. -/
abbrev sPt (c : Dev nD) (M : Memref sig .tc .vmem S1152x128 .f32) (f : Buf (Elt F) (M.view.loc (c : Thread nD τ))) : sProp 𝕄 :=
  M.view.loc (c : Thread nD τ) ↦[M.view.set]{fullShare} f

theorem sPt_eq0 (c : Dev nD) (f : Buf (Elt F) (ℓ c)) : sPt c rowM0 f = (ℓ c ↦[rowSet 0]{fullShare} f : sProp 𝕄) := by
  show (ℓ c ↦[rowM0.view.set]{fullShare} f : sProp 𝕄) = _; rw [row_set_eq0]
theorem sPt_eq1 (c : Dev nD) (f : Buf (Elt F) (ℓ c)) : sPt c rowM1 f = (ℓ c ↦[rowSet 1]{fullShare} f : sProp 𝕄) := by
  show (ℓ c ↦[rowM1.view.set]{fullShare} f : sProp 𝕄) = _; rw [row_set_eq1]
theorem sPt_eq2 (c : Dev nD) (f : Buf (Elt F) (ℓ c)) : sPt c rowM2 f = (ℓ c ↦[rowSet 2]{fullShare} f : sProp 𝕄) := by
  show (ℓ c ↦[rowM2.view.set]{fullShare} f : sProp 𝕄) = _; rw [row_set_eq2]
theorem sPt_eq3 (c : Dev nD) (f : Buf (Elt F) (ℓ c)) : sPt c rowM3 f = (ℓ c ↦[rowSet 3]{fullShare} f : sProp 𝕄) := by
  show (ℓ c ↦[rowM3.view.set]{fullShare} f : sProp 𝕄) = _; rw [row_set_eq3]
theorem sPt_eq4 (c : Dev nD) (f : Buf (Elt F) (ℓ c)) : sPt c rowM4 f = (ℓ c ↦[rowSet 4]{fullShare} f : sProp 𝕄) := by
  show (ℓ c ↦[rowM4.view.set]{fullShare} f : sProp 𝕄) = _; rw [row_set_eq4]
theorem sPt_eq5 (c : Dev nD) (f : Buf (Elt F) (ℓ c)) : sPt c rowM5 f = (ℓ c ↦[rowSet 5]{fullShare} f : sProp 𝕄) := by
  show (ℓ c ↦[rowM5.view.set]{fullShare} f : sProp 𝕄) = _; rw [row_set_eq5]
theorem sPt_eq6 (c : Dev nD) (f : Buf (Elt F) (ℓ c)) : sPt c rowM6 f = (ℓ c ↦[rowSet 6]{fullShare} f : sProp 𝕄) := by
  show (ℓ c ↦[rowM6.view.set]{fullShare} f : sProp 𝕄) = _; rw [row_set_eq6]
theorem sPt_eq7 (c : Dev nD) (f : Buf (Elt F) (ℓ c)) : sPt c rowM7 f = (ℓ c ↦[rowSet 7]{fullShare} f : sProp 𝕄) := by
  show (ℓ c ↦[rowM7.view.set]{fullShare} f : sProp 𝕄) = _; rw [row_set_eq7]
theorem sPt_eq8 (c : Dev nD) (f : Buf (Elt F) (ℓ c)) : sPt c rowM8 f = (ℓ c ↦[rowSet 8]{fullShare} f : sProp 𝕄) := by
  show (ℓ c ↦[rowM8.view.set]{fullShare} f : sProp 𝕄) = _; rw [row_set_eq8]
theorem sPt_eq9 (c : Dev nD) (f : Buf (Elt F) (ℓ c)) : sPt c rowM9 f = (ℓ c ↦[rowSet 9]{fullShare} f : sProp 𝕄) := by
  show (ℓ c ↦[rowM9.view.set]{fullShare} f : sProp 𝕄) = _; rw [row_set_eq9]
theorem sPt_eq10 (c : Dev nD) (f : Buf (Elt F) (ℓ c)) : sPt c rowM10 f = (ℓ c ↦[rowSet 10]{fullShare} f : sProp 𝕄) := by
  show (ℓ c ↦[rowM10.view.set]{fullShare} f : sProp 𝕄) = _; rw [row_set_eq10]
theorem sPt_eq11 (c : Dev nD) (f : Buf (Elt F) (ℓ c)) : sPt c rowM11 f = (ℓ c ↦[rowSet 11]{fullShare} f : sProp 𝕄) := by
  show (ℓ c ↦[rowM11.view.set]{fullShare} f : sProp 𝕄) = _; rw [row_set_eq11]
theorem sPt_eq12 (c : Dev nD) (f : Buf (Elt F) (ℓ c)) : sPt c rowM12 f = (ℓ c ↦[rowSet 12]{fullShare} f : sProp 𝕄) := by
  show (ℓ c ↦[rowM12.view.set]{fullShare} f : sProp 𝕄) = _; rw [row_set_eq12]
theorem sPt_eq13 (c : Dev nD) (f : Buf (Elt F) (ℓ c)) : sPt c rowM13 f = (ℓ c ↦[rowSet 13]{fullShare} f : sProp 𝕄) := by
  show (ℓ c ↦[rowM13.view.set]{fullShare} f : sProp 𝕄) = _; rw [row_set_eq13]
theorem sPt_eq14 (c : Dev nD) (f : Buf (Elt F) (ℓ c)) : sPt c rowM14 f = (ℓ c ↦[rowSet 14]{fullShare} f : sProp 𝕄) := by
  show (ℓ c ↦[rowM14.view.set]{fullShare} f : sProp 𝕄) = _; rw [row_set_eq14]
theorem sPt_eq15 (c : Dev nD) (f : Buf (Elt F) (ℓ c)) : sPt c rowM15 f = (ℓ c ↦[rowSet 15]{fullShare} f : sProp 𝕄) := by
  show (ℓ c ↦[rowM15.view.set]{fullShare} f : sProp 𝕄) = _; rw [row_set_eq15]

/-! ## Splitting the scratch into its rows -/

/-- The scratch held whole is its sixteen rows held apart, at the same contents. -/
theorem rows_split (c : Dev nD) (f : Buf (Elt F) ((Memref.whole cc0_scratch0).view.loc (c : Thread nD τ))) :
    ((Memref.whole cc0_scratch0).view.loc (c : Thread nD τ) ↦{fullShare} f : sProp 𝕄)
      ⊢ iprop(sPt c rowM0 f ∗ sPt c rowM1 f ∗ sPt c rowM2 f ∗ sPt c rowM3 f ∗ sPt c rowM4 f ∗ sPt c rowM5 f ∗ sPt c rowM6 f ∗ sPt c rowM7 f ∗ sPt c rowM8 f ∗ sPt c rowM9 f ∗ sPt c rowM10 f ∗ sPt c rowM11 f ∗ sPt c rowM12 f ∗ sPt c rowM13 f ∗ sPt c rowM14 f ∗ sPt c rowM15 f) := by
  have E1 : (ℓ c ↦{fullShare} f : sProp 𝕄) = iprop((ℓ c ↦[rowSet 0]{fullShare} f) ∗ (ℓ c ↦[rowSet 1]{fullShare} f) ∗ (ℓ c ↦[rowSet 2]{fullShare} f) ∗ (ℓ c ↦[rowSet 3]{fullShare} f) ∗ (ℓ c ↦[rowSet 4]{fullShare} f) ∗ (ℓ c ↦[rowSet 5]{fullShare} f) ∗ (ℓ c ↦[rowSet 6]{fullShare} f) ∗ (ℓ c ↦[rowSet 7]{fullShare} f) ∗ (ℓ c ↦[rowSet 8]{fullShare} f) ∗ (ℓ c ↦[rowSet 9]{fullShare} f) ∗ (ℓ c ↦[rowSet 10]{fullShare} f) ∗ (ℓ c ↦[rowSet 11]{fullShare} f) ∗ (ℓ c ↦[rowSet 12]{fullShare} f) ∗ (ℓ c ↦[rowSet 13]{fullShare} f) ∗ (ℓ c ↦[rowSet 14]{fullShare} f) ∗ (ℓ c ↦[rowSet 15]{fullShare} f)) :=
    (Ring.pointsTo_blocks (ℓ := ℓ c) rowSet rows_disjoint rows_cover f).trans
      (bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) _)
  have E2 : (iprop(sPt c rowM0 f ∗ sPt c rowM1 f ∗ sPt c rowM2 f ∗ sPt c rowM3 f ∗ sPt c rowM4 f ∗ sPt c rowM5 f ∗ sPt c rowM6 f ∗ sPt c rowM7 f ∗ sPt c rowM8 f ∗ sPt c rowM9 f ∗ sPt c rowM10 f ∗ sPt c rowM11 f ∗ sPt c rowM12 f ∗ sPt c rowM13 f ∗ sPt c rowM14 f ∗ sPt c rowM15 f) : sProp 𝕄) = iprop((ℓ c ↦[rowSet 0]{fullShare} f) ∗ (ℓ c ↦[rowSet 1]{fullShare} f) ∗ (ℓ c ↦[rowSet 2]{fullShare} f) ∗ (ℓ c ↦[rowSet 3]{fullShare} f) ∗ (ℓ c ↦[rowSet 4]{fullShare} f) ∗ (ℓ c ↦[rowSet 5]{fullShare} f) ∗ (ℓ c ↦[rowSet 6]{fullShare} f) ∗ (ℓ c ↦[rowSet 7]{fullShare} f) ∗ (ℓ c ↦[rowSet 8]{fullShare} f) ∗ (ℓ c ↦[rowSet 9]{fullShare} f) ∗ (ℓ c ↦[rowSet 10]{fullShare} f) ∗ (ℓ c ↦[rowSet 11]{fullShare} f) ∗ (ℓ c ↦[rowSet 12]{fullShare} f) ∗ (ℓ c ↦[rowSet 13]{fullShare} f) ∗ (ℓ c ↦[rowSet 14]{fullShare} f) ∗ (ℓ c ↦[rowSet 15]{fullShare} f)) :=
    sep_congr (sPt_eq0 c f) (sep_congr (sPt_eq1 c f) (sep_congr (sPt_eq2 c f) (sep_congr (sPt_eq3 c f) (sep_congr (sPt_eq4 c f) (sep_congr (sPt_eq5 c f) (sep_congr (sPt_eq6 c f) (sep_congr (sPt_eq7 c f) (sep_congr (sPt_eq8 c f) (sep_congr (sPt_eq9 c f) (sep_congr (sPt_eq10 c f) (sep_congr (sPt_eq11 c f) (sep_congr (sPt_eq12 c f) (sep_congr (sPt_eq13 c f) (sep_congr (sPt_eq14 c f) (sPt_eq15 c f)))))))))))))))
  exact entails_of_eq (E1.trans E2.symm)

/-! ## The array whose rows are sixteen given matrices -/

/-- The contents of the scratch whose row r is the matrix p_r: at (b, k, o) it is p_b at (k, o). -/
def rowsBuf (c : Dev nD) (p0 p1 p2 p3 p4 p5 p6 p7 p8 p9 p10 p11 p12 p13 p14 p15 : S1152x128.Idx → Elt F .f32) : Buf (Elt F) ((Memref.whole cc0_scratch0).view.loc (c : Thread nD τ)) :=
  fun j : S16x1152x128.Idx =>
    let x : S1152x128.Idx := ix2 (⟨(j 1).val, (j 1).isLt⟩ : Fin 1152) (⟨(j 2).val, (j 2).isLt⟩ : Fin 128)
    match (⟨(j 0).val, (j 0).isLt⟩ : Fin 16) with
    | ⟨0, _⟩ => p0 x
    | ⟨1, _⟩ => p1 x
    | ⟨2, _⟩ => p2 x
    | ⟨3, _⟩ => p3 x
    | ⟨4, _⟩ => p4 x
    | ⟨5, _⟩ => p5 x
    | ⟨6, _⟩ => p6 x
    | ⟨7, _⟩ => p7 x
    | ⟨8, _⟩ => p8 x
    | ⟨9, _⟩ => p9 x
    | ⟨10, _⟩ => p10 x
    | ⟨11, _⟩ => p11 x
    | ⟨12, _⟩ => p12 x
    | ⟨13, _⟩ => p13 x
    | ⟨14, _⟩ => p14 x
    | ⟨15, _⟩ => p15 x
    | ⟨_ + 16, h⟩ => absurd h (Nat.not_lt.2 (Nat.le_add_left _ _))

theorem rowsBuf_apply0 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (0 : Fin 16) k o) = p0 (ix2 k o) := rfl
theorem rowsBuf_apply1 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (1 : Fin 16) k o) = p1 (ix2 k o) := rfl
theorem rowsBuf_apply2 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (2 : Fin 16) k o) = p2 (ix2 k o) := rfl
theorem rowsBuf_apply3 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (3 : Fin 16) k o) = p3 (ix2 k o) := rfl
theorem rowsBuf_apply4 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (4 : Fin 16) k o) = p4 (ix2 k o) := rfl
theorem rowsBuf_apply5 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (5 : Fin 16) k o) = p5 (ix2 k o) := rfl
theorem rowsBuf_apply6 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (6 : Fin 16) k o) = p6 (ix2 k o) := rfl
theorem rowsBuf_apply7 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (7 : Fin 16) k o) = p7 (ix2 k o) := rfl
theorem rowsBuf_apply8 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (8 : Fin 16) k o) = p8 (ix2 k o) := rfl
theorem rowsBuf_apply9 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (9 : Fin 16) k o) = p9 (ix2 k o) := rfl
theorem rowsBuf_apply10 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (10 : Fin 16) k o) = p10 (ix2 k o) := rfl
theorem rowsBuf_apply11 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (11 : Fin 16) k o) = p11 (ix2 k o) := rfl
theorem rowsBuf_apply12 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (12 : Fin 16) k o) = p12 (ix2 k o) := rfl
theorem rowsBuf_apply13 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (13 : Fin 16) k o) = p13 (ix2 k o) := rfl
theorem rowsBuf_apply14 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (14 : Fin 16) k o) = p14 (ix2 k o) := rfl
theorem rowsBuf_apply15 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (15 : Fin 16) k o) = p15 (ix2 k o) := rfl

/-! ## Where a row's matrix sits in the array -/

/-- Entry (k, o) of row r's matrix is entry (r, k, o) of the array: the dropped unit axis reads 0, the slice adds r. -/
theorem row_emb (r : Nat) (inb : ∀ a, (![r, 0, 0] : Fin 3 → Nat) a + S1x1152x128.size a ≤ S16x1152x128.size a) (hr : r < 16)
    (z : S1152x128.Idx) :
    (((Memref.whole cc0_scratch0 : Memref sig .tc .vmem S16x1152x128 .f32).slice (Rect.unit (s := S16x1152x128) ![r, 0, 0] S1x1152x128.size inb) (fun _ => rfl)).squeeze S1152x128 Facts₀.squeezes_S1x1152x128_S1152x128).view.emb z
      = (ix3 (⟨r, hr⟩ : Fin 16) ⟨(z 0).val, (z 0).isLt⟩ ⟨(z 1).val, (z 1).isLt⟩ : S16x1152x128.Idx) := by
  show (Rect.unit (s := S16x1152x128) ![r, 0, 0] S1x1152x128.size inb).emb (Shape.reshapeEquiv Facts₀.squeezes_S1x1152x128_S1152x128.numel_eq z) = _
  rw [Shape.reshapeEquiv_cons_one]
  funext a
  refine Fin.ext ?_
  match a with
  | ⟨0, _⟩ => show r + 1 * 0 = r; omega
  | ⟨1, _⟩ => show 0 + 1 * (z 0).val = (z 0).val; omega
  | ⟨2, _⟩ => show 0 + 1 * (z 1).val = (z 1).val; omega

theorem row_emb0 (z : S1152x128.Idx) :
    rowM0.view.emb z = (ix3 (0 : Fin 16) ⟨(z 0).val, (z 0).isLt⟩ ⟨(z 1).val, (z 1).isLt⟩ : S16x1152x128.Idx) :=
  row_emb 0 Facts₀.inb_S16x1152x128_S1x1152x128_0_0_0 (by decide) z
theorem row_emb1 (z : S1152x128.Idx) :
    rowM1.view.emb z = (ix3 (1 : Fin 16) ⟨(z 0).val, (z 0).isLt⟩ ⟨(z 1).val, (z 1).isLt⟩ : S16x1152x128.Idx) :=
  row_emb 1 Facts₀.inb_S16x1152x128_S1x1152x128_1_0_0 (by decide) z
theorem row_emb2 (z : S1152x128.Idx) :
    rowM2.view.emb z = (ix3 (2 : Fin 16) ⟨(z 0).val, (z 0).isLt⟩ ⟨(z 1).val, (z 1).isLt⟩ : S16x1152x128.Idx) :=
  row_emb 2 Facts₀.inb_S16x1152x128_S1x1152x128_2_0_0 (by decide) z
theorem row_emb3 (z : S1152x128.Idx) :
    rowM3.view.emb z = (ix3 (3 : Fin 16) ⟨(z 0).val, (z 0).isLt⟩ ⟨(z 1).val, (z 1).isLt⟩ : S16x1152x128.Idx) :=
  row_emb 3 Facts₀.inb_S16x1152x128_S1x1152x128_3_0_0 (by decide) z
theorem row_emb4 (z : S1152x128.Idx) :
    rowM4.view.emb z = (ix3 (4 : Fin 16) ⟨(z 0).val, (z 0).isLt⟩ ⟨(z 1).val, (z 1).isLt⟩ : S16x1152x128.Idx) :=
  row_emb 4 Facts₀.inb_S16x1152x128_S1x1152x128_4_0_0 (by decide) z
theorem row_emb5 (z : S1152x128.Idx) :
    rowM5.view.emb z = (ix3 (5 : Fin 16) ⟨(z 0).val, (z 0).isLt⟩ ⟨(z 1).val, (z 1).isLt⟩ : S16x1152x128.Idx) :=
  row_emb 5 Facts₀.inb_S16x1152x128_S1x1152x128_5_0_0 (by decide) z
theorem row_emb6 (z : S1152x128.Idx) :
    rowM6.view.emb z = (ix3 (6 : Fin 16) ⟨(z 0).val, (z 0).isLt⟩ ⟨(z 1).val, (z 1).isLt⟩ : S16x1152x128.Idx) :=
  row_emb 6 Facts₀.inb_S16x1152x128_S1x1152x128_6_0_0 (by decide) z
theorem row_emb7 (z : S1152x128.Idx) :
    rowM7.view.emb z = (ix3 (7 : Fin 16) ⟨(z 0).val, (z 0).isLt⟩ ⟨(z 1).val, (z 1).isLt⟩ : S16x1152x128.Idx) :=
  row_emb 7 Facts₀.inb_S16x1152x128_S1x1152x128_7_0_0 (by decide) z
theorem row_emb8 (z : S1152x128.Idx) :
    rowM8.view.emb z = (ix3 (8 : Fin 16) ⟨(z 0).val, (z 0).isLt⟩ ⟨(z 1).val, (z 1).isLt⟩ : S16x1152x128.Idx) :=
  row_emb 8 Facts₀.inb_S16x1152x128_S1x1152x128_8_0_0 (by decide) z
theorem row_emb9 (z : S1152x128.Idx) :
    rowM9.view.emb z = (ix3 (9 : Fin 16) ⟨(z 0).val, (z 0).isLt⟩ ⟨(z 1).val, (z 1).isLt⟩ : S16x1152x128.Idx) :=
  row_emb 9 Facts₀.inb_S16x1152x128_S1x1152x128_9_0_0 (by decide) z
theorem row_emb10 (z : S1152x128.Idx) :
    rowM10.view.emb z = (ix3 (10 : Fin 16) ⟨(z 0).val, (z 0).isLt⟩ ⟨(z 1).val, (z 1).isLt⟩ : S16x1152x128.Idx) :=
  row_emb 10 Facts₀.inb_S16x1152x128_S1x1152x128_10_0_0 (by decide) z
theorem row_emb11 (z : S1152x128.Idx) :
    rowM11.view.emb z = (ix3 (11 : Fin 16) ⟨(z 0).val, (z 0).isLt⟩ ⟨(z 1).val, (z 1).isLt⟩ : S16x1152x128.Idx) :=
  row_emb 11 Facts₀.inb_S16x1152x128_S1x1152x128_11_0_0 (by decide) z
theorem row_emb12 (z : S1152x128.Idx) :
    rowM12.view.emb z = (ix3 (12 : Fin 16) ⟨(z 0).val, (z 0).isLt⟩ ⟨(z 1).val, (z 1).isLt⟩ : S16x1152x128.Idx) :=
  row_emb 12 Facts₀.inb_S16x1152x128_S1x1152x128_12_0_0 (by decide) z
theorem row_emb13 (z : S1152x128.Idx) :
    rowM13.view.emb z = (ix3 (13 : Fin 16) ⟨(z 0).val, (z 0).isLt⟩ ⟨(z 1).val, (z 1).isLt⟩ : S16x1152x128.Idx) :=
  row_emb 13 Facts₀.inb_S16x1152x128_S1x1152x128_13_0_0 (by decide) z
theorem row_emb14 (z : S1152x128.Idx) :
    rowM14.view.emb z = (ix3 (14 : Fin 16) ⟨(z 0).val, (z 0).isLt⟩ ⟨(z 1).val, (z 1).isLt⟩ : S16x1152x128.Idx) :=
  row_emb 14 Facts₀.inb_S16x1152x128_S1x1152x128_14_0_0 (by decide) z
theorem row_emb15 (z : S1152x128.Idx) :
    rowM15.view.emb z = (ix3 (15 : Fin 16) ⟨(z 0).val, (z 0).isLt⟩ ⟨(z 1).val, (z 1).isLt⟩ : S16x1152x128.Idx) :=
  row_emb 15 Facts₀.inb_S16x1152x128_S1x1152x128_15_0_0 (by decide) z

/-! ## Joining sixteen landed rows -/

/-- A row holding a matrix written whole over anything is the row held at any contents that read that matrix there. -/
theorem sPt_landed (c : Dev nD) (M : Memref sig .tc .vmem S1152x128 .f32) (fs g : Buf (Elt F) (M.view.loc (c : Thread nD τ)))
    (p : S1152x128.Idx → Elt F .f32)
    (hg : ∀ z : S1152x128.Idx, g (M.view.emb z) = _root_.cast (congrArg (Elt F) M.view.elt_eq.symm) (p z)) :
    sPt c M (M.view.writes (Elt F) fs [⟨Rect.whole S1152x128, p⟩]) = sPt c M g := by
  refine pointsTo_congr fun i hi => ?_
  obtain ⟨z, -, rfl⟩ := Finset.mem_map.mp hi
  rw [← View.write_univ_eq_writes_whole, View.writes_nil, View.write_emb_of_mem _ _ (Finset.mem_univ _), hg]

theorem landed0 (c : Dev nD) (fs : Buf (Elt F) (ℓ c)) (p0 p1 p2 p3 p4 p5 p6 p7 p8 p9 p10 p11 p12 p13 p14 p15 : S1152x128.Idx → Elt F .f32) :
    sPt c rowM0 (rowM0.view.writes (Elt F) fs [⟨Rect.whole S1152x128, p0⟩])
      = (ℓ c ↦[rowSet 0]{fullShare} rowsBuf c p0 p1 p2 p3 p4 p5 p6 p7 p8 p9 p10 p11 p12 p13 p14 p15 : sProp 𝕄) := by
  rw [sPt_landed c rowM0 fs (rowsBuf c p0 p1 p2 p3 p4 p5 p6 p7 p8 p9 p10 p11 p12 p13 p14 p15) p0 (fun z => by
    show rowsBuf c p0 p1 p2 p3 p4 p5 p6 p7 p8 p9 p10 p11 p12 p13 p14 p15 (rowM0.view.emb z) = p0 z
    rw [row_emb0 z]; exact (rowsBuf_apply0 c p0 p1 p2 p3 p4 p5 p6 p7 p8 p9 p10 p11 p12 p13 p14 p15 _ _).trans (congrArg p0 (eq_ix2 z).symm))]
  exact sPt_eq0 c _
theorem landed1 (c : Dev nD) (fs : Buf (Elt F) (ℓ c)) (p0 p1 p2 p3 p4 p5 p6 p7 p8 p9 p10 p11 p12 p13 p14 p15 : S1152x128.Idx → Elt F .f32) :
    sPt c rowM1 (rowM1.view.writes (Elt F) fs [⟨Rect.whole S1152x128, p1⟩])
      = (ℓ c ↦[rowSet 1]{fullShare} rowsBuf c p0 p1 p2 p3 p4 p5 p6 p7 p8 p9 p10 p11 p12 p13 p14 p15 : sProp 𝕄) := by
  rw [sPt_landed c rowM1 fs (rowsBuf c p0 p1 p2 p3 p4 p5 p6 p7 p8 p9 p10 p11 p12 p13 p14 p15) p1 (fun z => by
    show rowsBuf c p0 p1 p2 p3 p4 p5 p6 p7 p8 p9 p10 p11 p12 p13 p14 p15 (rowM1.view.emb z) = p1 z
    rw [row_emb1 z]; exact (rowsBuf_apply1 c p0 p1 p2 p3 p4 p5 p6 p7 p8 p9 p10 p11 p12 p13 p14 p15 _ _).trans (congrArg p1 (eq_ix2 z).symm))]
  exact sPt_eq1 c _
theorem landed2 (c : Dev nD) (fs : Buf (Elt F) (ℓ c)) (p0 p1 p2 p3 p4 p5 p6 p7 p8 p9 p10 p11 p12 p13 p14 p15 : S1152x128.Idx → Elt F .f32) :
    sPt c rowM2 (rowM2.view.writes (Elt F) fs [⟨Rect.whole S1152x128, p2⟩])
      = (ℓ c ↦[rowSet 2]{fullShare} rowsBuf c p0 p1 p2 p3 p4 p5 p6 p7 p8 p9 p10 p11 p12 p13 p14 p15 : sProp 𝕄) := by
  rw [sPt_landed c rowM2 fs (rowsBuf c p0 p1 p2 p3 p4 p5 p6 p7 p8 p9 p10 p11 p12 p13 p14 p15) p2 (fun z => by
    show rowsBuf c p0 p1 p2 p3 p4 p5 p6 p7 p8 p9 p10 p11 p12 p13 p14 p15 (rowM2.view.emb z) = p2 z
    rw [row_emb2 z]; exact (rowsBuf_apply2 c p0 p1 p2 p3 p4 p5 p6 p7 p8 p9 p10 p11 p12 p13 p14 p15 _ _).trans (congrArg p2 (eq_ix2 z).symm))]
  exact sPt_eq2 c _
theorem landed3 (c : Dev nD) (fs : Buf (Elt F) (ℓ c)) (p0 p1 p2 p3 p4 p5 p6 p7 p8 p9 p10 p11 p12 p13 p14 p15 : S1152x128.Idx → Elt F .f32) :
    sPt c rowM3 (rowM3.view.writes (Elt F) fs [⟨Rect.whole S1152x128, p3⟩])
      = (ℓ c ↦[rowSet 3]{fullShare} rowsBuf c p0 p1 p2 p3 p4 p5 p6 p7 p8 p9 p10 p11 p12 p13 p14 p15 : sProp 𝕄) := by
  rw [sPt_landed c rowM3 fs (rowsBuf c p0 p1 p2 p3 p4 p5 p6 p7 p8 p9 p10 p11 p12 p13 p14 p15) p3 (fun z => by
    show rowsBuf c p0 p1 p2 p3 p4 p5 p6 p7 p8 p9 p10 p11 p12 p13 p14 p15 (rowM3.view.emb z) = p3 z
    rw [row_emb3 z]; exact (rowsBuf_apply3 c p0 p1 p2 p3 p4 p5 p6 p7 p8 p9 p10 p11 p12 p13 p14 p15 _ _).trans (congrArg p3 (eq_ix2 z).symm))]
  exact sPt_eq3 c _
theorem landed4 (c : Dev nD) (fs : Buf (Elt F) (ℓ c)) (p0 p1 p2 p3 p4 p5 p6 p7 p8 p9 p10 p11 p12 p13 p14 p15 : S1152x128.Idx → Elt F .f32) :
    sPt c rowM4 (rowM4.view.writes (Elt F) fs [⟨Rect.whole S1152x128, p4⟩])
      = (ℓ c ↦[rowSet 4]{fullShare} rowsBuf c p0 p1 p2 p3 p4 p5 p6 p7 p8 p9 p10 p11 p12 p13 p14 p15 : sProp 𝕄) := by
  rw [sPt_landed c rowM4 fs (rowsBuf c p0 p1 p2 p3 p4 p5 p6 p7 p8 p9 p10 p11 p12 p13 p14 p15) p4 (fun z => by
    show rowsBuf c p0 p1 p2 p3 p4 p5 p6 p7 p8 p9 p10 p11 p12 p13 p14 p15 (rowM4.view.emb z) = p4 z
    rw [row_emb4 z]; exact (rowsBuf_apply4 c p0 p1 p2 p3 p4 p5 p6 p7 p8 p9 p10 p11 p12 p13 p14 p15 _ _).trans (congrArg p4 (eq_ix2 z).symm))]
  exact sPt_eq4 c _
theorem landed5 (c : Dev nD) (fs : Buf (Elt F) (ℓ c)) (p0 p1 p2 p3 p4 p5 p6 p7 p8 p9 p10 p11 p12 p13 p14 p15 : S1152x128.Idx → Elt F .f32) :
    sPt c rowM5 (rowM5.view.writes (Elt F) fs [⟨Rect.whole S1152x128, p5⟩])
      = (ℓ c ↦[rowSet 5]{fullShare} rowsBuf c p0 p1 p2 p3 p4 p5 p6 p7 p8 p9 p10 p11 p12 p13 p14 p15 : sProp 𝕄) := by
  rw [sPt_landed c rowM5 fs (rowsBuf c p0 p1 p2 p3 p4 p5 p6 p7 p8 p9 p10 p11 p12 p13 p14 p15) p5 (fun z => by
    show rowsBuf c p0 p1 p2 p3 p4 p5 p6 p7 p8 p9 p10 p11 p12 p13 p14 p15 (rowM5.view.emb z) = p5 z
    rw [row_emb5 z]; exact (rowsBuf_apply5 c p0 p1 p2 p3 p4 p5 p6 p7 p8 p9 p10 p11 p12 p13 p14 p15 _ _).trans (congrArg p5 (eq_ix2 z).symm))]
  exact sPt_eq5 c _
theorem landed6 (c : Dev nD) (fs : Buf (Elt F) (ℓ c)) (p0 p1 p2 p3 p4 p5 p6 p7 p8 p9 p10 p11 p12 p13 p14 p15 : S1152x128.Idx → Elt F .f32) :
    sPt c rowM6 (rowM6.view.writes (Elt F) fs [⟨Rect.whole S1152x128, p6⟩])
      = (ℓ c ↦[rowSet 6]{fullShare} rowsBuf c p0 p1 p2 p3 p4 p5 p6 p7 p8 p9 p10 p11 p12 p13 p14 p15 : sProp 𝕄) := by
  rw [sPt_landed c rowM6 fs (rowsBuf c p0 p1 p2 p3 p4 p5 p6 p7 p8 p9 p10 p11 p12 p13 p14 p15) p6 (fun z => by
    show rowsBuf c p0 p1 p2 p3 p4 p5 p6 p7 p8 p9 p10 p11 p12 p13 p14 p15 (rowM6.view.emb z) = p6 z
    rw [row_emb6 z]; exact (rowsBuf_apply6 c p0 p1 p2 p3 p4 p5 p6 p7 p8 p9 p10 p11 p12 p13 p14 p15 _ _).trans (congrArg p6 (eq_ix2 z).symm))]
  exact sPt_eq6 c _
theorem landed7 (c : Dev nD) (fs : Buf (Elt F) (ℓ c)) (p0 p1 p2 p3 p4 p5 p6 p7 p8 p9 p10 p11 p12 p13 p14 p15 : S1152x128.Idx → Elt F .f32) :
    sPt c rowM7 (rowM7.view.writes (Elt F) fs [⟨Rect.whole S1152x128, p7⟩])
      = (ℓ c ↦[rowSet 7]{fullShare} rowsBuf c p0 p1 p2 p3 p4 p5 p6 p7 p8 p9 p10 p11 p12 p13 p14 p15 : sProp 𝕄) := by
  rw [sPt_landed c rowM7 fs (rowsBuf c p0 p1 p2 p3 p4 p5 p6 p7 p8 p9 p10 p11 p12 p13 p14 p15) p7 (fun z => by
    show rowsBuf c p0 p1 p2 p3 p4 p5 p6 p7 p8 p9 p10 p11 p12 p13 p14 p15 (rowM7.view.emb z) = p7 z
    rw [row_emb7 z]; exact (rowsBuf_apply7 c p0 p1 p2 p3 p4 p5 p6 p7 p8 p9 p10 p11 p12 p13 p14 p15 _ _).trans (congrArg p7 (eq_ix2 z).symm))]
  exact sPt_eq7 c _
theorem landed8 (c : Dev nD) (fs : Buf (Elt F) (ℓ c)) (p0 p1 p2 p3 p4 p5 p6 p7 p8 p9 p10 p11 p12 p13 p14 p15 : S1152x128.Idx → Elt F .f32) :
    sPt c rowM8 (rowM8.view.writes (Elt F) fs [⟨Rect.whole S1152x128, p8⟩])
      = (ℓ c ↦[rowSet 8]{fullShare} rowsBuf c p0 p1 p2 p3 p4 p5 p6 p7 p8 p9 p10 p11 p12 p13 p14 p15 : sProp 𝕄) := by
  rw [sPt_landed c rowM8 fs (rowsBuf c p0 p1 p2 p3 p4 p5 p6 p7 p8 p9 p10 p11 p12 p13 p14 p15) p8 (fun z => by
    show rowsBuf c p0 p1 p2 p3 p4 p5 p6 p7 p8 p9 p10 p11 p12 p13 p14 p15 (rowM8.view.emb z) = p8 z
    rw [row_emb8 z]; exact (rowsBuf_apply8 c p0 p1 p2 p3 p4 p5 p6 p7 p8 p9 p10 p11 p12 p13 p14 p15 _ _).trans (congrArg p8 (eq_ix2 z).symm))]
  exact sPt_eq8 c _
theorem landed9 (c : Dev nD) (fs : Buf (Elt F) (ℓ c)) (p0 p1 p2 p3 p4 p5 p6 p7 p8 p9 p10 p11 p12 p13 p14 p15 : S1152x128.Idx → Elt F .f32) :
    sPt c rowM9 (rowM9.view.writes (Elt F) fs [⟨Rect.whole S1152x128, p9⟩])
      = (ℓ c ↦[rowSet 9]{fullShare} rowsBuf c p0 p1 p2 p3 p4 p5 p6 p7 p8 p9 p10 p11 p12 p13 p14 p15 : sProp 𝕄) := by
  rw [sPt_landed c rowM9 fs (rowsBuf c p0 p1 p2 p3 p4 p5 p6 p7 p8 p9 p10 p11 p12 p13 p14 p15) p9 (fun z => by
    show rowsBuf c p0 p1 p2 p3 p4 p5 p6 p7 p8 p9 p10 p11 p12 p13 p14 p15 (rowM9.view.emb z) = p9 z
    rw [row_emb9 z]; exact (rowsBuf_apply9 c p0 p1 p2 p3 p4 p5 p6 p7 p8 p9 p10 p11 p12 p13 p14 p15 _ _).trans (congrArg p9 (eq_ix2 z).symm))]
  exact sPt_eq9 c _
theorem landed10 (c : Dev nD) (fs : Buf (Elt F) (ℓ c)) (p0 p1 p2 p3 p4 p5 p6 p7 p8 p9 p10 p11 p12 p13 p14 p15 : S1152x128.Idx → Elt F .f32) :
    sPt c rowM10 (rowM10.view.writes (Elt F) fs [⟨Rect.whole S1152x128, p10⟩])
      = (ℓ c ↦[rowSet 10]{fullShare} rowsBuf c p0 p1 p2 p3 p4 p5 p6 p7 p8 p9 p10 p11 p12 p13 p14 p15 : sProp 𝕄) := by
  rw [sPt_landed c rowM10 fs (rowsBuf c p0 p1 p2 p3 p4 p5 p6 p7 p8 p9 p10 p11 p12 p13 p14 p15) p10 (fun z => by
    show rowsBuf c p0 p1 p2 p3 p4 p5 p6 p7 p8 p9 p10 p11 p12 p13 p14 p15 (rowM10.view.emb z) = p10 z
    rw [row_emb10 z]; exact (rowsBuf_apply10 c p0 p1 p2 p3 p4 p5 p6 p7 p8 p9 p10 p11 p12 p13 p14 p15 _ _).trans (congrArg p10 (eq_ix2 z).symm))]
  exact sPt_eq10 c _
theorem landed11 (c : Dev nD) (fs : Buf (Elt F) (ℓ c)) (p0 p1 p2 p3 p4 p5 p6 p7 p8 p9 p10 p11 p12 p13 p14 p15 : S1152x128.Idx → Elt F .f32) :
    sPt c rowM11 (rowM11.view.writes (Elt F) fs [⟨Rect.whole S1152x128, p11⟩])
      = (ℓ c ↦[rowSet 11]{fullShare} rowsBuf c p0 p1 p2 p3 p4 p5 p6 p7 p8 p9 p10 p11 p12 p13 p14 p15 : sProp 𝕄) := by
  rw [sPt_landed c rowM11 fs (rowsBuf c p0 p1 p2 p3 p4 p5 p6 p7 p8 p9 p10 p11 p12 p13 p14 p15) p11 (fun z => by
    show rowsBuf c p0 p1 p2 p3 p4 p5 p6 p7 p8 p9 p10 p11 p12 p13 p14 p15 (rowM11.view.emb z) = p11 z
    rw [row_emb11 z]; exact (rowsBuf_apply11 c p0 p1 p2 p3 p4 p5 p6 p7 p8 p9 p10 p11 p12 p13 p14 p15 _ _).trans (congrArg p11 (eq_ix2 z).symm))]
  exact sPt_eq11 c _
theorem landed12 (c : Dev nD) (fs : Buf (Elt F) (ℓ c)) (p0 p1 p2 p3 p4 p5 p6 p7 p8 p9 p10 p11 p12 p13 p14 p15 : S1152x128.Idx → Elt F .f32) :
    sPt c rowM12 (rowM12.view.writes (Elt F) fs [⟨Rect.whole S1152x128, p12⟩])
      = (ℓ c ↦[rowSet 12]{fullShare} rowsBuf c p0 p1 p2 p3 p4 p5 p6 p7 p8 p9 p10 p11 p12 p13 p14 p15 : sProp 𝕄) := by
  rw [sPt_landed c rowM12 fs (rowsBuf c p0 p1 p2 p3 p4 p5 p6 p7 p8 p9 p10 p11 p12 p13 p14 p15) p12 (fun z => by
    show rowsBuf c p0 p1 p2 p3 p4 p5 p6 p7 p8 p9 p10 p11 p12 p13 p14 p15 (rowM12.view.emb z) = p12 z
    rw [row_emb12 z]; exact (rowsBuf_apply12 c p0 p1 p2 p3 p4 p5 p6 p7 p8 p9 p10 p11 p12 p13 p14 p15 _ _).trans (congrArg p12 (eq_ix2 z).symm))]
  exact sPt_eq12 c _
theorem landed13 (c : Dev nD) (fs : Buf (Elt F) (ℓ c)) (p0 p1 p2 p3 p4 p5 p6 p7 p8 p9 p10 p11 p12 p13 p14 p15 : S1152x128.Idx → Elt F .f32) :
    sPt c rowM13 (rowM13.view.writes (Elt F) fs [⟨Rect.whole S1152x128, p13⟩])
      = (ℓ c ↦[rowSet 13]{fullShare} rowsBuf c p0 p1 p2 p3 p4 p5 p6 p7 p8 p9 p10 p11 p12 p13 p14 p15 : sProp 𝕄) := by
  rw [sPt_landed c rowM13 fs (rowsBuf c p0 p1 p2 p3 p4 p5 p6 p7 p8 p9 p10 p11 p12 p13 p14 p15) p13 (fun z => by
    show rowsBuf c p0 p1 p2 p3 p4 p5 p6 p7 p8 p9 p10 p11 p12 p13 p14 p15 (rowM13.view.emb z) = p13 z
    rw [row_emb13 z]; exact (rowsBuf_apply13 c p0 p1 p2 p3 p4 p5 p6 p7 p8 p9 p10 p11 p12 p13 p14 p15 _ _).trans (congrArg p13 (eq_ix2 z).symm))]
  exact sPt_eq13 c _
theorem landed14 (c : Dev nD) (fs : Buf (Elt F) (ℓ c)) (p0 p1 p2 p3 p4 p5 p6 p7 p8 p9 p10 p11 p12 p13 p14 p15 : S1152x128.Idx → Elt F .f32) :
    sPt c rowM14 (rowM14.view.writes (Elt F) fs [⟨Rect.whole S1152x128, p14⟩])
      = (ℓ c ↦[rowSet 14]{fullShare} rowsBuf c p0 p1 p2 p3 p4 p5 p6 p7 p8 p9 p10 p11 p12 p13 p14 p15 : sProp 𝕄) := by
  rw [sPt_landed c rowM14 fs (rowsBuf c p0 p1 p2 p3 p4 p5 p6 p7 p8 p9 p10 p11 p12 p13 p14 p15) p14 (fun z => by
    show rowsBuf c p0 p1 p2 p3 p4 p5 p6 p7 p8 p9 p10 p11 p12 p13 p14 p15 (rowM14.view.emb z) = p14 z
    rw [row_emb14 z]; exact (rowsBuf_apply14 c p0 p1 p2 p3 p4 p5 p6 p7 p8 p9 p10 p11 p12 p13 p14 p15 _ _).trans (congrArg p14 (eq_ix2 z).symm))]
  exact sPt_eq14 c _
theorem landed15 (c : Dev nD) (fs : Buf (Elt F) (ℓ c)) (p0 p1 p2 p3 p4 p5 p6 p7 p8 p9 p10 p11 p12 p13 p14 p15 : S1152x128.Idx → Elt F .f32) :
    sPt c rowM15 (rowM15.view.writes (Elt F) fs [⟨Rect.whole S1152x128, p15⟩])
      = (ℓ c ↦[rowSet 15]{fullShare} rowsBuf c p0 p1 p2 p3 p4 p5 p6 p7 p8 p9 p10 p11 p12 p13 p14 p15 : sProp 𝕄) := by
  rw [sPt_landed c rowM15 fs (rowsBuf c p0 p1 p2 p3 p4 p5 p6 p7 p8 p9 p10 p11 p12 p13 p14 p15) p15 (fun z => by
    show rowsBuf c p0 p1 p2 p3 p4 p5 p6 p7 p8 p9 p10 p11 p12 p13 p14 p15 (rowM15.view.emb z) = p15 z
    rw [row_emb15 z]; exact (rowsBuf_apply15 c p0 p1 p2 p3 p4 p5 p6 p7 p8 p9 p10 p11 p12 p13 p14 p15 _ _).trans (congrArg p15 (eq_ix2 z).symm))]
  exact sPt_eq15 c _

/-- Sixteen rows, each holding its matrix written whole over the same earlier contents, are the scratch held whole at
    the array of those matrices. -/
theorem rows_landed_join (c : Dev nD) (fs : Buf (Elt F) ((Memref.whole cc0_scratch0).view.loc (c : Thread nD τ))) (p0 p1 p2 p3 p4 p5 p6 p7 p8 p9 p10 p11 p12 p13 p14 p15 : S1152x128.Idx → Elt F .f32) :
    iprop(sPt c rowM0 (rowM0.view.writes (Elt F) fs [⟨Rect.whole S1152x128, p0⟩]) ∗ sPt c rowM1 (rowM1.view.writes (Elt F) fs [⟨Rect.whole S1152x128, p1⟩]) ∗ sPt c rowM2 (rowM2.view.writes (Elt F) fs [⟨Rect.whole S1152x128, p2⟩]) ∗ sPt c rowM3 (rowM3.view.writes (Elt F) fs [⟨Rect.whole S1152x128, p3⟩]) ∗ sPt c rowM4 (rowM4.view.writes (Elt F) fs [⟨Rect.whole S1152x128, p4⟩]) ∗ sPt c rowM5 (rowM5.view.writes (Elt F) fs [⟨Rect.whole S1152x128, p5⟩]) ∗ sPt c rowM6 (rowM6.view.writes (Elt F) fs [⟨Rect.whole S1152x128, p6⟩]) ∗ sPt c rowM7 (rowM7.view.writes (Elt F) fs [⟨Rect.whole S1152x128, p7⟩]) ∗ sPt c rowM8 (rowM8.view.writes (Elt F) fs [⟨Rect.whole S1152x128, p8⟩]) ∗ sPt c rowM9 (rowM9.view.writes (Elt F) fs [⟨Rect.whole S1152x128, p9⟩]) ∗ sPt c rowM10 (rowM10.view.writes (Elt F) fs [⟨Rect.whole S1152x128, p10⟩]) ∗ sPt c rowM11 (rowM11.view.writes (Elt F) fs [⟨Rect.whole S1152x128, p11⟩]) ∗ sPt c rowM12 (rowM12.view.writes (Elt F) fs [⟨Rect.whole S1152x128, p12⟩]) ∗ sPt c rowM13 (rowM13.view.writes (Elt F) fs [⟨Rect.whole S1152x128, p13⟩]) ∗ sPt c rowM14 (rowM14.view.writes (Elt F) fs [⟨Rect.whole S1152x128, p14⟩]) ∗ sPt c rowM15 (rowM15.view.writes (Elt F) fs [⟨Rect.whole S1152x128, p15⟩]))
      ⊢ ((Memref.whole cc0_scratch0).view.loc (c : Thread nD τ) ↦{fullShare} rowsBuf c p0 p1 p2 p3 p4 p5 p6 p7 p8 p9 p10 p11 p12 p13 p14 p15 : sProp 𝕄) := by
  have E1 : (ℓ c ↦{fullShare} rowsBuf c p0 p1 p2 p3 p4 p5 p6 p7 p8 p9 p10 p11 p12 p13 p14 p15 : sProp 𝕄) = iprop((ℓ c ↦[rowSet 0]{fullShare} rowsBuf c p0 p1 p2 p3 p4 p5 p6 p7 p8 p9 p10 p11 p12 p13 p14 p15) ∗ (ℓ c ↦[rowSet 1]{fullShare} rowsBuf c p0 p1 p2 p3 p4 p5 p6 p7 p8 p9 p10 p11 p12 p13 p14 p15) ∗ (ℓ c ↦[rowSet 2]{fullShare} rowsBuf c p0 p1 p2 p3 p4 p5 p6 p7 p8 p9 p10 p11 p12 p13 p14 p15) ∗ (ℓ c ↦[rowSet 3]{fullShare} rowsBuf c p0 p1 p2 p3 p4 p5 p6 p7 p8 p9 p10 p11 p12 p13 p14 p15) ∗ (ℓ c ↦[rowSet 4]{fullShare} rowsBuf c p0 p1 p2 p3 p4 p5 p6 p7 p8 p9 p10 p11 p12 p13 p14 p15) ∗ (ℓ c ↦[rowSet 5]{fullShare} rowsBuf c p0 p1 p2 p3 p4 p5 p6 p7 p8 p9 p10 p11 p12 p13 p14 p15) ∗ (ℓ c ↦[rowSet 6]{fullShare} rowsBuf c p0 p1 p2 p3 p4 p5 p6 p7 p8 p9 p10 p11 p12 p13 p14 p15) ∗ (ℓ c ↦[rowSet 7]{fullShare} rowsBuf c p0 p1 p2 p3 p4 p5 p6 p7 p8 p9 p10 p11 p12 p13 p14 p15) ∗ (ℓ c ↦[rowSet 8]{fullShare} rowsBuf c p0 p1 p2 p3 p4 p5 p6 p7 p8 p9 p10 p11 p12 p13 p14 p15) ∗ (ℓ c ↦[rowSet 9]{fullShare} rowsBuf c p0 p1 p2 p3 p4 p5 p6 p7 p8 p9 p10 p11 p12 p13 p14 p15) ∗ (ℓ c ↦[rowSet 10]{fullShare} rowsBuf c p0 p1 p2 p3 p4 p5 p6 p7 p8 p9 p10 p11 p12 p13 p14 p15) ∗ (ℓ c ↦[rowSet 11]{fullShare} rowsBuf c p0 p1 p2 p3 p4 p5 p6 p7 p8 p9 p10 p11 p12 p13 p14 p15) ∗ (ℓ c ↦[rowSet 12]{fullShare} rowsBuf c p0 p1 p2 p3 p4 p5 p6 p7 p8 p9 p10 p11 p12 p13 p14 p15) ∗ (ℓ c ↦[rowSet 13]{fullShare} rowsBuf c p0 p1 p2 p3 p4 p5 p6 p7 p8 p9 p10 p11 p12 p13 p14 p15) ∗ (ℓ c ↦[rowSet 14]{fullShare} rowsBuf c p0 p1 p2 p3 p4 p5 p6 p7 p8 p9 p10 p11 p12 p13 p14 p15) ∗ (ℓ c ↦[rowSet 15]{fullShare} rowsBuf c p0 p1 p2 p3 p4 p5 p6 p7 p8 p9 p10 p11 p12 p13 p14 p15)) :=
    (Ring.pointsTo_blocks (ℓ := ℓ c) rowSet rows_disjoint rows_cover (rowsBuf c p0 p1 p2 p3 p4 p5 p6 p7 p8 p9 p10 p11 p12 p13 p14 p15)).trans
      (bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) _)
  have E2 : (iprop(sPt c rowM0 (rowM0.view.writes (Elt F) fs [⟨Rect.whole S1152x128, p0⟩]) ∗ sPt c rowM1 (rowM1.view.writes (Elt F) fs [⟨Rect.whole S1152x128, p1⟩]) ∗ sPt c rowM2 (rowM2.view.writes (Elt F) fs [⟨Rect.whole S1152x128, p2⟩]) ∗ sPt c rowM3 (rowM3.view.writes (Elt F) fs [⟨Rect.whole S1152x128, p3⟩]) ∗ sPt c rowM4 (rowM4.view.writes (Elt F) fs [⟨Rect.whole S1152x128, p4⟩]) ∗ sPt c rowM5 (rowM5.view.writes (Elt F) fs [⟨Rect.whole S1152x128, p5⟩]) ∗ sPt c rowM6 (rowM6.view.writes (Elt F) fs [⟨Rect.whole S1152x128, p6⟩]) ∗ sPt c rowM7 (rowM7.view.writes (Elt F) fs [⟨Rect.whole S1152x128, p7⟩]) ∗ sPt c rowM8 (rowM8.view.writes (Elt F) fs [⟨Rect.whole S1152x128, p8⟩]) ∗ sPt c rowM9 (rowM9.view.writes (Elt F) fs [⟨Rect.whole S1152x128, p9⟩]) ∗ sPt c rowM10 (rowM10.view.writes (Elt F) fs [⟨Rect.whole S1152x128, p10⟩]) ∗ sPt c rowM11 (rowM11.view.writes (Elt F) fs [⟨Rect.whole S1152x128, p11⟩]) ∗ sPt c rowM12 (rowM12.view.writes (Elt F) fs [⟨Rect.whole S1152x128, p12⟩]) ∗ sPt c rowM13 (rowM13.view.writes (Elt F) fs [⟨Rect.whole S1152x128, p13⟩]) ∗ sPt c rowM14 (rowM14.view.writes (Elt F) fs [⟨Rect.whole S1152x128, p14⟩]) ∗ sPt c rowM15 (rowM15.view.writes (Elt F) fs [⟨Rect.whole S1152x128, p15⟩])) : sProp 𝕄) = iprop((ℓ c ↦[rowSet 0]{fullShare} rowsBuf c p0 p1 p2 p3 p4 p5 p6 p7 p8 p9 p10 p11 p12 p13 p14 p15) ∗ (ℓ c ↦[rowSet 1]{fullShare} rowsBuf c p0 p1 p2 p3 p4 p5 p6 p7 p8 p9 p10 p11 p12 p13 p14 p15) ∗ (ℓ c ↦[rowSet 2]{fullShare} rowsBuf c p0 p1 p2 p3 p4 p5 p6 p7 p8 p9 p10 p11 p12 p13 p14 p15) ∗ (ℓ c ↦[rowSet 3]{fullShare} rowsBuf c p0 p1 p2 p3 p4 p5 p6 p7 p8 p9 p10 p11 p12 p13 p14 p15) ∗ (ℓ c ↦[rowSet 4]{fullShare} rowsBuf c p0 p1 p2 p3 p4 p5 p6 p7 p8 p9 p10 p11 p12 p13 p14 p15) ∗ (ℓ c ↦[rowSet 5]{fullShare} rowsBuf c p0 p1 p2 p3 p4 p5 p6 p7 p8 p9 p10 p11 p12 p13 p14 p15) ∗ (ℓ c ↦[rowSet 6]{fullShare} rowsBuf c p0 p1 p2 p3 p4 p5 p6 p7 p8 p9 p10 p11 p12 p13 p14 p15) ∗ (ℓ c ↦[rowSet 7]{fullShare} rowsBuf c p0 p1 p2 p3 p4 p5 p6 p7 p8 p9 p10 p11 p12 p13 p14 p15) ∗ (ℓ c ↦[rowSet 8]{fullShare} rowsBuf c p0 p1 p2 p3 p4 p5 p6 p7 p8 p9 p10 p11 p12 p13 p14 p15) ∗ (ℓ c ↦[rowSet 9]{fullShare} rowsBuf c p0 p1 p2 p3 p4 p5 p6 p7 p8 p9 p10 p11 p12 p13 p14 p15) ∗ (ℓ c ↦[rowSet 10]{fullShare} rowsBuf c p0 p1 p2 p3 p4 p5 p6 p7 p8 p9 p10 p11 p12 p13 p14 p15) ∗ (ℓ c ↦[rowSet 11]{fullShare} rowsBuf c p0 p1 p2 p3 p4 p5 p6 p7 p8 p9 p10 p11 p12 p13 p14 p15) ∗ (ℓ c ↦[rowSet 12]{fullShare} rowsBuf c p0 p1 p2 p3 p4 p5 p6 p7 p8 p9 p10 p11 p12 p13 p14 p15) ∗ (ℓ c ↦[rowSet 13]{fullShare} rowsBuf c p0 p1 p2 p3 p4 p5 p6 p7 p8 p9 p10 p11 p12 p13 p14 p15) ∗ (ℓ c ↦[rowSet 14]{fullShare} rowsBuf c p0 p1 p2 p3 p4 p5 p6 p7 p8 p9 p10 p11 p12 p13 p14 p15) ∗ (ℓ c ↦[rowSet 15]{fullShare} rowsBuf c p0 p1 p2 p3 p4 p5 p6 p7 p8 p9 p10 p11 p12 p13 p14 p15)) :=
    sep_congr (landed0 c fs p0 p1 p2 p3 p4 p5 p6 p7 p8 p9 p10 p11 p12 p13 p14 p15) (sep_congr (landed1 c fs p0 p1 p2 p3 p4 p5 p6 p7 p8 p9 p10 p11 p12 p13 p14 p15) (sep_congr (landed2 c fs p0 p1 p2 p3 p4 p5 p6 p7 p8 p9 p10 p11 p12 p13 p14 p15) (sep_congr (landed3 c fs p0 p1 p2 p3 p4 p5 p6 p7 p8 p9 p10 p11 p12 p13 p14 p15) (sep_congr (landed4 c fs p0 p1 p2 p3 p4 p5 p6 p7 p8 p9 p10 p11 p12 p13 p14 p15) (sep_congr (landed5 c fs p0 p1 p2 p3 p4 p5 p6 p7 p8 p9 p10 p11 p12 p13 p14 p15) (sep_congr (landed6 c fs p0 p1 p2 p3 p4 p5 p6 p7 p8 p9 p10 p11 p12 p13 p14 p15) (sep_congr (landed7 c fs p0 p1 p2 p3 p4 p5 p6 p7 p8 p9 p10 p11 p12 p13 p14 p15) (sep_congr (landed8 c fs p0 p1 p2 p3 p4 p5 p6 p7 p8 p9 p10 p11 p12 p13 p14 p15) (sep_congr (landed9 c fs p0 p1 p2 p3 p4 p5 p6 p7 p8 p9 p10 p11 p12 p13 p14 p15) (sep_congr (landed10 c fs p0 p1 p2 p3 p4 p5 p6 p7 p8 p9 p10 p11 p12 p13 p14 p15) (sep_congr (landed11 c fs p0 p1 p2 p3 p4 p5 p6 p7 p8 p9 p10 p11 p12 p13 p14 p15) (sep_congr (landed12 c fs p0 p1 p2 p3 p4 p5 p6 p7 p8 p9 p10 p11 p12 p13 p14 p15) (sep_congr (landed13 c fs p0 p1 p2 p3 p4 p5 p6 p7 p8 p9 p10 p11 p12 p13 p14 p15) (sep_congr (landed14 c fs p0 p1 p2 p3 p4 p5 p6 p7 p8 p9 p10 p11 p12 p13 p14 p15) (landed15 c fs p0 p1 p2 p3 p4 p5 p6 p7 p8 p9 p10 p11 p12 p13 p14 p15)))))))))))))))
  exact entails_of_eq (E2.trans E1.symm)

end Cert.Proof.KernelRows

end
-- ==== Proof.KernelBody.lean ====
/-
  The kernel body at one grid point, run once at symbolic operands.

  At point i the body reads the sixteen index words y[16 i + r] from the table, starts, for each r, a copy of row
  y[16 i + r] of the weight array (a 1152 x 128 matrix) into row r of its scratch, each copy on a cell of its own, then
  waits for the sixteen copies, loads the staged block of x (16 x 64 x 1152) and the whole scratch (16 x 1152 x 128),
  rounds both to bf16, multiplies them batch entry by batch entry, and stores the 16 x 64 x 128 product into the
  output's staging buffer. The copies read the weight array at rows the words choose, and two of the words may be
  equal: the array is therefore held as one read share per cell, each copy borrowing its row from its own cell's
  share. The scratch is held row by row while the copies fly — each copy takes the row it fills and its wait gives it
  back with the payload landed —, and the sixteen landed rows are put together again, as ONE contents function whose row
  r is copy r's payload, before the body loads the scratch whole. Every word is assumed to index a row of the weight
  array (`TblOK`): that is what makes each copy's source a slice of the array.
  `kernelRun` is the body's triple, the pieces the output's buffer ends with found by the run.
-/
import proofs.«417661_j25847113187694_2_alg».proof.Proof.KernelRows
import proofs.«417661_j25847113187694_2_alg».proof.Proof.Gen.Kernel.Skeleton
import Idealize.ShloMosaic.Lib.Transfers
import Idealize.ShloMosaic.Lib.Writes
import Idealize.ShloMosaic.Lib.Pipeline.FrameBody
import Idealize.ShloMosaic.Lib.Pipeline.Frame
import Idealize.ShloMosaic.Lib.Tactic

set_option maxRecDepth 16384

noncomputable section

namespace Cert.Proof.KernelBody

open Cert.Kernel Cert.Kernel.Gen Cert.Proof.KernelRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A memref's buffer on core `c`. -/
abbrev Bf (c : Dev nD) {sp : Space} {S : Shape} {e : EltTy} (M : Memref sig .tc sp S e) : Type := Buf (Elt F) (M.view.loc (c : Thread nD τ))
/-- The weight array at the read share of cell `k`. -/
abbrev wTok (c : Dev nD) (k : Fin 20) (f : Bf (F := F) c (Memref.whole main_arg2)) : sProp 𝕄 :=
  (Memref.whole main_arg2).view.loc (c : Thread nD τ) ↦{Transfers.shareTok fullShare 20 k} f
/-- The index table, whole. -/
abbrev tPt (c : Dev nD) (f : Bf (F := F) c (Memref.whole main_arg1)) : sProp 𝕄 :=
  (Memref.whole main_arg1).view.loc (c : Thread nD τ) ↦{fullShare} f

/-- Every word of the table, read unsigned, indexes a row of the weight array. -/
def TblOK (c : Dev nD) (tbl : Bf (F := F) c (Memref.whole main_arg1)) : Prop := ∀ j, BitVec.toNat (tbl j) < 1000

/-- A word below 1000 names a row of the weight array: the row's slice lies inside the array. -/
theorem chk_of (v : BitVec 32) (h : v.toNat < 1000) :
    ∀ a : Fin 3, (![v.toNat, 0, 0] : Fin 3 → Nat) a + S1x1152x128.size a ≤ S1000x1152x128.size a := fun a =>
  match a with
  | ⟨0, _⟩ => by show v.toNat + 1 ≤ 1000; omega
  | ⟨1, _⟩ => by show 0 + 1152 ≤ 1152; omega
  | ⟨2, _⟩ => by show 0 + 128 ≤ 128; omega

set_option maxHeartbeats 40000000 in
/-- The pieces the body's store leaves in the output's staging buffer, with the proof that from whole staging buffers —
    the input's at its block, the output's and the scratch at anything —, the sixteen cells at zero, the weight array's
    sixteen read shares, the table and the core's `owes`, the body runs to the continuation holding all of them again, the
    output's buffer with those pieces written. -/
noncomputable def kernelRun (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec F S16x64x1152 .f32) (fw : Bf (F := F) c (Memref.whole main_arg2)) (tbl : Bf (F := F) c (Memref.whole main_arg1))
    (hall : TblOK c tbl) :
    { L : List (View.Piece (Elt F) S16x64x128 .f32) //
      ∀ (W : Waits sig Unit) (K : PUnit → sProp 𝕄),
    iprop(owns (c : Thread nD τ) arg2 fullShare x0 ∗ (∃ d, owns (c : Thread nD τ) arg4 fullShare d)
        ∗ (∃ f, (Memref.whole cc0_scratch0).view.loc (c : Thread nD τ) ↦{fullShare} f)
        ∗ semVal ((c : Thread nD τ), SemLoc.dma ((4 : DmaSem sig))) 0 ∗ semVal ((c : Thread nD τ), SemLoc.dma ((5 : DmaSem sig))) 0 ∗ semVal ((c : Thread nD τ), SemLoc.dma ((6 : DmaSem sig))) 0 ∗ semVal ((c : Thread nD τ), SemLoc.dma ((7 : DmaSem sig))) 0 ∗ semVal ((c : Thread nD τ), SemLoc.dma ((8 : DmaSem sig))) 0 ∗ semVal ((c : Thread nD τ), SemLoc.dma ((9 : DmaSem sig))) 0 ∗ semVal ((c : Thread nD τ), SemLoc.dma ((10 : DmaSem sig))) 0 ∗ semVal ((c : Thread nD τ), SemLoc.dma ((11 : DmaSem sig))) 0 ∗ semVal ((c : Thread nD τ), SemLoc.dma ((12 : DmaSem sig))) 0 ∗ semVal ((c : Thread nD τ), SemLoc.dma ((13 : DmaSem sig))) 0 ∗ semVal ((c : Thread nD τ), SemLoc.dma ((14 : DmaSem sig))) 0 ∗ semVal ((c : Thread nD τ), SemLoc.dma ((15 : DmaSem sig))) 0 ∗ semVal ((c : Thread nD τ), SemLoc.dma ((16 : DmaSem sig))) 0 ∗ semVal ((c : Thread nD τ), SemLoc.dma ((17 : DmaSem sig))) 0 ∗ semVal ((c : Thread nD τ), SemLoc.dma ((18 : DmaSem sig))) 0 ∗ semVal ((c : Thread nD τ), SemLoc.dma ((19 : DmaSem sig))) 0
        ∗ wTok c (4 : Fin 20) fw ∗ wTok c (5 : Fin 20) fw ∗ wTok c (6 : Fin 20) fw ∗ wTok c (7 : Fin 20) fw ∗ wTok c (8 : Fin 20) fw ∗ wTok c (9 : Fin 20) fw ∗ wTok c (10 : Fin 20) fw ∗ wTok c (11 : Fin 20) fw ∗ wTok c (12 : Fin 20) fw ∗ wTok c (13 : Fin 20) fw ∗ wTok c (14 : Fin 20) fw ∗ wTok c (15 : Fin 20) fw ∗ wTok c (16 : Fin 20) fw ∗ wTok c (17 : Fin 20) fw ∗ wTok c (18 : Fin 20) fw ∗ wTok c (19 : Fin 20) fw
        ∗ tPt c tbl ∗ owes (c : Thread nD τ) 0 W
        ∗ (iprop(owns (c : Thread nD τ) arg2 fullShare x0 ∗ (∃ f, arg4.view.loc (c : Thread nD τ) ↦[arg4.view.set]{fullShare} arg4.view.writes (Elt F) f L)
            ∗ (∃ f, (Memref.whole cc0_scratch0).view.loc (c : Thread nD τ) ↦{fullShare} f)
            ∗ semVal ((c : Thread nD τ), SemLoc.dma ((4 : DmaSem sig))) 0 ∗ semVal ((c : Thread nD τ), SemLoc.dma ((5 : DmaSem sig))) 0 ∗ semVal ((c : Thread nD τ), SemLoc.dma ((6 : DmaSem sig))) 0 ∗ semVal ((c : Thread nD τ), SemLoc.dma ((7 : DmaSem sig))) 0 ∗ semVal ((c : Thread nD τ), SemLoc.dma ((8 : DmaSem sig))) 0 ∗ semVal ((c : Thread nD τ), SemLoc.dma ((9 : DmaSem sig))) 0 ∗ semVal ((c : Thread nD τ), SemLoc.dma ((10 : DmaSem sig))) 0 ∗ semVal ((c : Thread nD τ), SemLoc.dma ((11 : DmaSem sig))) 0 ∗ semVal ((c : Thread nD τ), SemLoc.dma ((12 : DmaSem sig))) 0 ∗ semVal ((c : Thread nD τ), SemLoc.dma ((13 : DmaSem sig))) 0 ∗ semVal ((c : Thread nD τ), SemLoc.dma ((14 : DmaSem sig))) 0 ∗ semVal ((c : Thread nD τ), SemLoc.dma ((15 : DmaSem sig))) 0 ∗ semVal ((c : Thread nD τ), SemLoc.dma ((16 : DmaSem sig))) 0 ∗ semVal ((c : Thread nD τ), SemLoc.dma ((17 : DmaSem sig))) 0 ∗ semVal ((c : Thread nD τ), SemLoc.dma ((18 : DmaSem sig))) 0 ∗ semVal ((c : Thread nD τ), SemLoc.dma ((19 : DmaSem sig))) 0
            ∗ wTok c (4 : Fin 20) fw ∗ wTok c (5 : Fin 20) fw ∗ wTok c (6 : Fin 20) fw ∗ wTok c (7 : Fin 20) fw ∗ wTok c (8 : Fin 20) fw ∗ wTok c (9 : Fin 20) fw ∗ wTok c (10 : Fin 20) fw ∗ wTok c (11 : Fin 20) fw ∗ wTok c (12 : Fin 20) fw ∗ wTok c (13 : Fin 20) fw ∗ wTok c (14 : Fin 20) fw ∗ wTok c (15 : Fin 20) fw ∗ wTok c (16 : Fin 20) fw ∗ wTok c (17 : Fin 20) fw ∗ wTok c (18 : Fin 20) fw ∗ wTok c (19 : Fin 20) fw
            ∗ tPt c tbl ∗ (∃ W', owes (c : Thread nD τ) 0 W')) -∗ K ⟨⟩))
      ⊢ wp frame (wpE (defs₀ (F := F)) Variants.none c none) Set.univ
          (cc0__moe_kernel i (Memref.whole main_arg1) (Memref.isWhole_whole _) arg2 harg2 (Memref.whole main_arg2) (Memref.isWhole_whole _) arg4 harg4 (Memref.whole cc0_scratch0) (Memref.isWhole_whole _) cc0_scratch1) K } := by
  refine ⟨?_, fun W K => ?run⟩
  case run =>
    simp only [cc0__moe_kernel_eq_skeleton]; unfold cc0__moe_kernel_skel
    unfold owns
    iintro ⟨⟨%f0, %hf0, H0⟩, ⟨%d1, %f1, -, H1⟩, ⟨%fs0, HS0⟩, Hq0, Hq1, Hq2, Hq3, Hq4, Hq5, Hq6, Hq7, Hq8, Hq9, Hq10, Hq11, Hq12, Hq13, Hq14, Hq15, Hw0, Hw1, Hw2, Hw3, Hw4, Hw5, Hw6, Hw7, Hw8, Hw9, Hw10, Hw11, Hw12, Hw13, Hw14, Hw15, Ht, HW, Hk⟩
    obtain rfl := harg2.eq_unread hf0
    ihave HR := (rows_split c fs0) $$ HS0
    icases HR with ⟨Hs0, Hs1, Hs2, Hs3, Hs4, Hs5, Hs6, Hs7, Hs8, Hs9, Hs10, Hs11, Hs12, Hs13, Hs14, Hs15⟩
    sl_exec (disch := exact chk_of _ (hall _))
    ihave HS0 := (rows_landed_join c fs0 _ _ _ _ _ _ _ _ _ _ _ _ _ _ _ _) $$ [Hs0 Hs1 Hs2 Hs3 Hs4 Hs5 Hs6 Hs7 Hs8 Hs9 Hs10 Hs11 Hs12 Hs13 Hs14 Hs15]
    ·
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      iexact Hs15
    sl_exec
    sl_step
    iapply Hk
    isplitl [H0]
    · iexists _; isplitr; · ipureintro; exact harg2.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Ht]; · iexact Ht
    iexists _; iexact HW

end Cert.Proof.KernelBody

end
-- ==== Proof.KernelBodyOut.lean ====
/-
  What the body leaves in the output's staging buffer: the pieces its run found tile the block, so the buffer reads
  them back whatever it held before.
-/
import proofs.«417661_j25847113187694_2_alg».proof.Proof.KernelBody

set_option maxRecDepth 16384

noncomputable section

namespace Cert.Proof.KernelBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One staging buffer of the output window, through which its contents are stated. -/
abbrev VO : View sig .tc .vmem S16x64x128 .f32 := (Memref.whole cc0_stg1_0 : Memref sig .tc .vmem S16x64x128 .f32).view

/-- The run's pieces tile the output block: every entry of the block is written. -/
theorem cover (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec F S16x64x1152 .f32) (fw : Bf (F := F) c (Memref.whole main_arg2)) (tbl : Bf (F := F) c (Memref.whole main_arg1))
    (hall : TblOK c tbl) (y : S16x64x128.Idx) :
    ∃ pc ∈ (kernelRun c i arg2 harg2 arg4 harg4 x0 fw tbl hall).1, y ∈ pc.1.set :=
  View.cover_of_tiledL (kernelRun c i arg2 harg2 arg4 harg4 x0 fw tbl hall).1 S16x64x128.size (by sl_kernel_rfl) y

/-- What the body leaves in the output's staging buffer: its pieces read back. -/
def outOf (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec F S16x64x1152 .f32) (fw : Bf (F := F) c (Memref.whole main_arg2)) (tbl : Bf (F := F) c (Memref.whole main_arg1))
    (hall : TblOK c tbl) : Vec F S16x64x128 .f32 :=
  VO.read (Elt F) (VO.writes (Elt F) VO.junk (kernelRun c i arg2 harg2 arg4 harg4 x0 fw tbl hall).1)

end Cert.Proof.KernelBody

end
-- ==== Proof.KernelRun.lean ====
/-
  @main of the kernel's program, run from launch to return.

  @main is ONE kernel region — a pipeline over a grid of 64 points with the index table y prefetched, the input x
  staged block by block (16 rows of x a point), the result staged back block by block, the weight array left where
  it is and copied row by row by the body — followed by twelve host lines that gather the bias rows by the same
  table, broadcast them over the middle axis and add them to the region's result. Here: the invariant the body keeps
  between points (its scratch, its sixteen cells at zero, the weight array split into read shares, the table), the
  pipeline's proof data (each input block as fetched, each output block as the body's run leaves it), the body
  obligation at a generic point, and the launch: the region entered from the launch's buffers and left with the two
  windows' arrays at what the pipeline computes and every other buffer as it was, then the host lines over those
  contents. `run_main`: under the hypothesis that every table word indexes a row of the weight array, every weakly
  fair execution terminates, nothing faults, and the final memory holds at the result and at the four arguments what
  the host lines leave from the region's exit contents.
-/
import proofs.«417661_j25847113187694_2_alg».proof.Proof.KernelBodyOut
import Idealize.ShloMosaic.Lib.Pipeline.FrameSuffix
import Idealize.ShloMosaic.Lib.Pipeline.Regions

set_option maxRecDepth 16384

noncomputable section

namespace Cert.Proof.KernelRun

open Cert.Kernel Cert.Kernel.Gen Cert.Proof.KernelBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The region's contents at entry, the table, the blocks -/

variable (m : (ℓ : Loc nD τ sig) → Buf (Elt F) ℓ) (ρ : Dev nD → PrngReg)

abbrev V₀ (c : Dev nD) : Valuation τ sig (Elt F) := fun b => (s₀ m ρ).mem ((c : Dev nD), b)
abbrev V (c : Dev nD) (b : Ref sig .tc) : Buf (Elt F) ((c : Thread nD τ).loc b) := m ((c : Thread nD τ).loc b)

/-- The table's words as the region reads them at entry. -/
def pf : pre0.Contents (Elt F) := fun k => match k with
  | ⟨0, _⟩ => m (((0 : Dev nD) : Thread nD τ).loc main_arg1)
  | ⟨_ + 1, h⟩ => absurd h (Nat.not_lt.2 (Nat.le_add_left _ _))

def adm : (p : Fin 1) → (pcfgs (F := F) p).Adm := fun _ => ⟨pf m, True.intro⟩

abbrev cfgA : Pipeline.Cfg sig Λ₀ := cfg0 (adm m 0)

variable (hpre : ∀ c : Dev nD, TblOK c (V m c main_arg1))

def iblk (c : Dev nD) (t : Fin (cfgA m).N) : (((cfgA m).win 0).xblock ((cfgA m).grid.coords t)).Idx → Elt F ((cfgA m).win 0).elt :=
  (((cfgA m).win 0).blk t).view.read (Elt F) (V m c (Pipeline.arrRef spec0 0))

abbrev ms0 (t : Fin (cfgA m).N) : Memref sig .tc .vmem S16x64x1152 .f32 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S16x64x128 .f32 := spec0_1.stage ((cfgA m).slots t 1)
abbrev hs1 (t : Fin (cfgA m).N) : (ms1 m t).IsWhole := hstage0_1 (((cfgA m).slots t 1).cast nbuf0_1)

def outAt (c : Dev nD) (t : Fin (cfgA m).N) : Vec F S16x64x128 .f32 :=
  outOf c (grid0.coords t) (ms0 m t) (hs0 m t) (ms1 m t) (hs1 m t) (iblk m c t) (V m c main_arg2) (V m c main_arg1) (hpre c)

-- what a point leaves is only ever compared by name, never by unfolding the body's run
attribute [irreducible] outAt

/-! ## The invariant and the proof data -/

/-- The kernel's sixteen DMA cells at zero. -/
abbrev sems16 (c : Dev nD) : sProp 𝕄 := iprop(semVal ((c : Thread nD τ), SemLoc.dma ((4 : DmaSem sig))) 0 ∗ semVal ((c : Thread nD τ), SemLoc.dma ((5 : DmaSem sig))) 0 ∗ semVal ((c : Thread nD τ), SemLoc.dma ((6 : DmaSem sig))) 0 ∗ semVal ((c : Thread nD τ), SemLoc.dma ((7 : DmaSem sig))) 0 ∗ semVal ((c : Thread nD τ), SemLoc.dma ((8 : DmaSem sig))) 0 ∗ semVal ((c : Thread nD τ), SemLoc.dma ((9 : DmaSem sig))) 0 ∗ semVal ((c : Thread nD τ), SemLoc.dma ((10 : DmaSem sig))) 0 ∗ semVal ((c : Thread nD τ), SemLoc.dma ((11 : DmaSem sig))) 0 ∗ semVal ((c : Thread nD τ), SemLoc.dma ((12 : DmaSem sig))) 0 ∗ semVal ((c : Thread nD τ), SemLoc.dma ((13 : DmaSem sig))) 0 ∗ semVal ((c : Thread nD τ), SemLoc.dma ((14 : DmaSem sig))) 0 ∗ semVal ((c : Thread nD τ), SemLoc.dma ((15 : DmaSem sig))) 0 ∗ semVal ((c : Thread nD τ), SemLoc.dma ((16 : DmaSem sig))) 0 ∗ semVal ((c : Thread nD τ), SemLoc.dma ((17 : DmaSem sig))) 0 ∗ semVal ((c : Thread nD τ), SemLoc.dma ((18 : DmaSem sig))) 0 ∗ semVal ((c : Thread nD τ), SemLoc.dma ((19 : DmaSem sig))) 0)

/-- The weight array split into its read tokens and the remainder. -/
abbrev wSplit (c : Dev nD) (fw : Bf (F := F) c (Memref.whole main_arg2)) : sProp 𝕄 :=
  iprop(((Memref.whole main_arg2).view.loc (c : Thread nD τ) ↦{Transfers.shareDrop fullShare 20} fw)
    ∗ bigSep Finset.univ (fun i : Fin 20 => wTok c i fw))

theorem toks_chain (c : Dev nD) (fw : Bf (F := F) c (Memref.whole main_arg2)) :
    (bigSep Finset.univ (fun i : Fin 20 => wTok c i fw) : sProp 𝕄) = iprop(wTok c (0 : Fin 20) fw ∗ wTok c (1 : Fin 20) fw ∗ wTok c (2 : Fin 20) fw ∗ wTok c (3 : Fin 20) fw ∗ wTok c (4 : Fin 20) fw ∗ wTok c (5 : Fin 20) fw ∗ wTok c (6 : Fin 20) fw ∗ wTok c (7 : Fin 20) fw ∗ wTok c (8 : Fin 20) fw ∗ wTok c (9 : Fin 20) fw ∗ wTok c (10 : Fin 20) fw ∗ wTok c (11 : Fin 20) fw ∗ wTok c (12 : Fin 20) fw ∗ wTok c (13 : Fin 20) fw ∗ wTok c (14 : Fin 20) fw ∗ wTok c (15 : Fin 20) fw ∗ wTok c (16 : Fin 20) fw ∗ wTok c (17 : Fin 20) fw ∗ wTok c (18 : Fin 20) fw ∗ wTok c (19 : Fin 20) fw) :=
  bigSep_univ_eq_bigSepL [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)] (by decide) (by decide) _

/-- Between points: the scratch at something, the cells at zero, the weight array split, the table whole. -/
def Φc (c : Dev nD) : sProp 𝕄 :=
  iprop((∃ f, (Memref.whole cc0_scratch0).view.loc (c : Thread nD τ) ↦{fullShare} f) ∗ sems16 c ∗ wSplit c (V m c main_arg2) ∗ tPt c (V m c main_arg1))

def dats (_ : Fin 1) (c : Dev nD) : Dat τ (Elt F) Unit ℕ (Pipeline.UD sig nD τ) ℕ (cfgA m) c where
  A w := V m c (Pipeline.arrRef spec0 w)
  after w t := match w with
    | ⟨0, _⟩ => iblk m c t
    | ⟨1, _⟩ => outAt m hpre c t
  Φ _ := Φc m c
  q _ := fullShare
  owed _ := 0

theorem A_eq (c : Dev nD) (w : Fin (cfgA m).W) : (dats m hpre 0 c).A w = V m c (Pipeline.arrRef spec0 w) := by
  dsimp only [dats]
theorem after_0 (c : Dev nD) (t : Fin (cfgA m).N) : (dats m hpre 0 c).after 0 t = iblk m c t := rfl
theorem after_1 (c : Dev nD) (t : Fin (cfgA m).N) : (dats m hpre 0 c).after 1 t = outAt m hpre c t := rfl

theorem before_0 (c : Dev nD) (t : Fin (cfgA m).N) (d) : (dats m hpre 0 c).before 0 t d = iblk m c t :=
  ((dats m hpre 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The kernel function as the pipeline calls it at point `t`. -/
abbrev bodyAt (t : Fin (cfgA m).N) : Prog (TpuEff nD τ sig (Elt F) Λ₀ .tc) PUnit :=
  cc0__moe_kernel (grid0.coords t) (Memref.whole main_arg1) (Memref.isWhole_whole _) (ms0 m t) (hs0 m t) (Memref.whole main_arg2) (Memref.isWhole_whole _) (ms1 m t) (hs1 m t) (Memref.whole cc0_scratch0) (Memref.isWhole_whole _) cc0_scratch1

def bodyPre (c : Dev nD) (t : Fin (cfgA m).N) : sProp 𝕄 :=
  iprop((dats m hpre 0 c).Φ t.castSucc ∗ (dats m hpre 0 c).owesAt () t.castSucc
    ∗ (∃ d, owns (c : Thread nD τ) (ms0 m t) fullShare ((dats m hpre 0 c).before 0 t d))
    ∗ (∃ d, owns (c : Thread nD τ) (ms1 m t) fullShare ((dats m hpre 0 c).before 1 t d)))

def bodyPost (c : Dev nD) (t : Fin (cfgA m).N) : sProp 𝕄 :=
  iprop((dats m hpre 0 c).Φ t.succ ∗ (dats m hpre 0 c).owesAt () t.succ
    ∗ owns (c : Thread nD τ) (ms0 m t) fullShare ((dats m hpre 0 c).after 0 t)
    ∗ owns (c : Thread nD τ) (ms1 m t) fullShare ((dats m hpre 0 c).after 1 t))

theorem body_obligation_of (c : Dev nD)
    (h : ∀ t, bodyPre m hpre c t ⊢ wp frame (wpE (defs₀ (F := F)) Variants.none c none) Set.univ (bodyAt m t) (fun _ => bodyPost m hpre c t)) :
    BodyObligation (dats (F := F) m hpre 0 c) (defs₀ (F := F)) Variants.none () Set.univ := fun t => by
  rw [bigSep_W0, bigSep_W0]
  exact h t

set_option maxHeartbeats 2000000 in
theorem sound_body (c : Dev nD) (t : Fin (cfgA m).N) :
    bodyPre m hpre c t ⊢ wp frame (wpE (defs₀ (F := F)) Variants.none c none) Set.univ (bodyAt m t) (fun _ => bodyPost m hpre c t) := by
  unfold bodyPre bodyPost bodyAt
  simp only [before_0]
  rw [show (dats m hpre 0 c).Φ t.succ = Φc m c from rfl, show (dats m hpre 0 c).Φ t.castSucc = Φc m c from rfl, after_0, after_1]
  unfold Φc Dat.owesAt Pipeline.owesWithin
  rw [show (dats m hpre 0 c).owed t.castSucc = 0 from rfl, show (dats m hpre 0 c).owed t.succ = 0 from rfl]
  unfold outAt outOf
  dsimp only [sems16, wSplit]
  rw [toks_chain]
  iintro ⟨⟨HS0, ⟨Hq0, Hq1, Hq2, Hq3, Hq4, Hq5, Hq6, Hq7, Hq8, Hq9, Hq10, Hq11, Hq12, Hq13, Hq14, Hq15⟩, ⟨Hwr, Hw0, Hw1, Hw2, Hw3, Hw4, Hw5, Hw6, Hw7, Hw8, Hw9, Hw10, Hw11, Hw12, Hw13, Hw14, Hw15, Hw16, Hw17, Hw18, Hw19⟩, Ht⟩, ⟨%W, -, HW⟩, ⟨%d0, H0⟩, ⟨%d1, H1⟩⟩
  iapply ((kernelRun c (grid0.coords t) _ _ _ _ (iblk m c t) (V m c main_arg2) (V m c main_arg1) (hpre c)).2 W _)
  isplitl [H0]; · iexact H0
  isplitl [H1]; · iexists _; iexact H1
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hw16]; · iexact Hw16
  isplitl [Hw17]; · iexact Hw17
  isplitl [Hw18]; · iexact Hw18
  isplitl [Hw19]; · iexact Hw19
  isplitl [Ht]; · iexact Ht
  isplitl [HW]; · iexact HW
  iintro ⟨H0, ⟨%e1, H1⟩, HS0, Hq0, Hq1, Hq2, Hq3, Hq4, Hq5, Hq6, Hq7, Hq8, Hq9, Hq10, Hq11, Hq12, Hq13, Hq14, Hq15, Hw4, Hw5, Hw6, Hw7, Hw8, Hw9, Hw10, Hw11, Hw12, Hw13, Hw14, Hw15, Hw16, Hw17, Hw18, Hw19, Ht, ⟨%W', HW'⟩⟩
  isplitl [HS0 Hq0 Hq1 Hq2 Hq3 Hq4 Hq5 Hq6 Hq7 Hq8 Hq9 Hq10 Hq11 Hq12 Hq13 Hq14 Hq15 Hwr Hw0 Hw1 Hw2 Hw3 Hw4 Hw5 Hw6 Hw7 Hw8 Hw9 Hw10 Hw11 Hw12 Hw13 Hw14 Hw15 Hw16 Hw17 Hw18 Hw19 Ht]
  · isplitl [HS0]; · iexact HS0
    isplitl [Hq0 Hq1 Hq2 Hq3 Hq4 Hq5 Hq6 Hq7 Hq8 Hq9 Hq10 Hq11 Hq12 Hq13 Hq14 Hq15]
    ·
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hwr Hw0 Hw1 Hw2 Hw3 Hw4 Hw5 Hw6 Hw7 Hw8 Hw9 Hw10 Hw11 Hw12 Hw13 Hw14 Hw15 Hw16 Hw17 Hw18 Hw19]
    · isplitl [Hwr]; · iexact Hwr
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      isplitl [Hw8]; · iexact Hw8
      isplitl [Hw9]; · iexact Hw9
      isplitl [Hw10]; · iexact Hw10
      isplitl [Hw11]; · iexact Hw11
      isplitl [Hw12]; · iexact Hw12
      isplitl [Hw13]; · iexact Hw13
      isplitl [Hw14]; · iexact Hw14
      isplitl [Hw15]; · iexact Hw15
      isplitl [Hw16]; · iexact Hw16
      isplitl [Hw17]; · iexact Hw17
      isplitl [Hw18]; · iexact Hw18
      iexact Hw19
    iexact Ht
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover c _ _ _ _ _ _ _ _ _)

theorem body_obligation (c : Dev nD) : BodyObligation (dats (F := F) m hpre 0 c) (defs₀ (F := F)) Variants.none () Set.univ :=
  body_obligation_of m hpre c (sound_body m hpre c)

/-! ## The launch: @main as the region followed by the host lines -/

abbrev pt (c : Dev nD) (b : Ref sig .tc) (f : Buf (Elt F) ((c : Thread nD τ).loc b)) : sProp 𝕄 := ((c : Thread nD τ).loc b) ↦{fullShare} f

/-- The kernel's own cells. -/
abbrev osem : Fin 16 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 16 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄) = sems16 c := by
  rw [Pipeline.ownSems0_eq_of_list c osem [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide)]; rfl

/-- The unscoped buffers that are no window's array, the table among them, listed. -/
theorem unscopedRest_eq (c : Dev nD) (Vv : (b : Ref sig .tc) → Buf (Elt F) ((c : Thread nD τ).loc b)) :
    (Pipeline.unscopedRest (Ix := Unit) (Name := ℕ) (U := Pipeline.UD sig nD τ) (Lvl := ℕ) spec0 c Vv : sProp 𝕄)
      = iprop(pt c main_arg1 (Vv main_arg1) ∗ pt c main_arg2 (Vv main_arg2) ∗ pt c main_arg3 (Vv main_arg3) ∗ pt c main_c (Vv main_c) ∗ pt c main_v1 (Vv main_v1) ∗ pt c main_v2 (Vv main_v2) ∗ pt c main_c_0 (Vv main_c_0) ∗ pt c main_v3 (Vv main_v3) ∗ pt c main_v4 (Vv main_v4) ∗ pt c main_v5 (Vv main_v5) ∗ pt c main_v6 (Vv main_v6) ∗ pt c main_v7 (Vv main_v7) ∗ pt c main_v8 (Vv main_v8) ∗ pt c main_v9 (Vv main_v9) ∗ pt c main_v10 (Vv main_v10)) :=
  Pipeline.unscopedRest_eq_of_list spec0 c Vv [main_arg1, main_arg2, main_arg3, main_c, main_v1, main_v2, main_c_0, main_v3, main_v4, main_v5, main_v6, main_v7, main_v8, main_v9, main_v10] (by decide) (by decide)

/-- The table as the pipeline holds it. -/
theorem prefHeld_eq (c : Dev nD) (q : PosShare TreeShare) :
    (Pipeline.prefHeld (Ix := Unit) (Name := ℕ) (U := Pipeline.UD sig nD τ) (Lvl := ℕ) pre0 c (fun _ => q) (adm m 0).1 : sProp 𝕄)
      = (((c : Thread nD τ).loc main_arg1) ↦{q} V m c main_arg1) := by
  obtain rfl : c = 0 := Subsingleton.elim _ _
  unfold Pipeline.prefHeld
  rw [bigSep_univ_eq_bigSepL [(0 : Fin 1)] (by decide) (by decide)]
  rfl

abbrev L : GSem nD τ sig → Finset Unit := fun _ => ∅
abbrev lv : GSem nD τ sig → Unit → ℕ := fun _ _ => 0
abbrev EP : Emb (UR sig nD τ) (MT nD τ sig Unit (Elt F) ℕ (Pipeline.UD sig nD τ) ℕ) := embL
abbrev R (c : Dev nD) : sProp 𝕄 := iprop(∃ W, owes (c : Thread nD τ) (0 : CellTallies nD τ sig Unit) W)

/-- The arrays after the run, as the library computes them. -/
abbrev finalA (c : Dev nD) (w : Fin (cfgA m).W) : Buf (Elt F) (((cfgA m).win w).arr.view.loc (c : Thread nD τ)) := (dats m hpre 0 c).arrAt w (cfgA m).N

/-- The core's buffers when the region is left: its arrays at their final contents, every other buffer as launched. -/
def Vx (c : Dev nD) : Valuation τ sig (Elt F) := Pipeline.withArrays spec0 c (V₀ m ρ c) (finalA m hpre c)

theorem Vx_arr (c : Dev nD) (w : Fin 2) : Vx m ρ hpre c (Proc.devRef .tc (Pipeline.arrRef spec0 w)) = finalA m hpre c w :=
  Pipeline.withArrays_arr spec0 (launch0 (F := F)).win.arr_inj c _ _ w
theorem Vx_rest (c : Dev nD) (b : Ref sig .tc) (hb : ∀ w, Pipeline.arrRef spec0 w ≠ b) : Vx m ρ hpre c (Proc.devRef .tc b) = V m c b :=
  Pipeline.withArrays_of_ne spec0 c _ _ b hb

/-- What bypasses the region. -/
abbrev Zc (c : Dev nD) : sProp 𝕄 := iprop(pt c main_arg3 (V m c main_arg3) ∗ pt c main_c (V m c main_c) ∗ pt c main_v1 (V m c main_v1) ∗ pt c main_v2 (V m c main_v2) ∗ pt c main_c_0 (V m c main_c_0) ∗ pt c main_v3 (V m c main_v3) ∗ pt c main_v4 (V m c main_v4) ∗ pt c main_v5 (V m c main_v5) ∗ pt c main_v6 (V m c main_v6) ∗ pt c main_v7 (V m c main_v7) ∗ pt c main_v8 (V m c main_v8) ∗ pt c main_v9 (V m c main_v9) ∗ pt c main_v10 (V m c main_v10))

/-- Leaving the region: the arrays at their final contents and every other unscoped buffer as launched are the unscoped buffers at `Vx`. -/
theorem held_exit (c : Dev nD) :
    iprop((dats m hpre 0 c).arrays (finalA m hpre c) ∗ pt c main_arg1 (V m c main_arg1) ∗ pt c main_arg2 (V m c main_arg2) ∗ Zc m c)
      ⊢ (StableHlo.held (c : Thread nD τ) (Pipeline.ucRefs τ sig) (Vx m ρ hpre c) : sProp 𝕄) := by
  rw [← Pipeline.unscopedBufs_held c (Vx m ρ hpre c),
    Pipeline.unscopedBufs_split (Pipeline.pin (pcfgs (F := F)) (adm m)) 0 (launch0 (F := F)).win.arr_unscoped (launch0 (F := F)).win.arr_inj c,
    unscopedRest_eq,
    Pipeline.arrays_eq (Pipeline.pin (pcfgs (F := F)) (adm m)) (dats m hpre) 0 c (launch0 (F := F)).arr_whole ((dats m hpre 0 c).share_full fun _ => rfl)]
  refine sep_mono (Entails.of_eq (bigSep_congr fun w _ => by rw [Vx_arr])) (Entails.of_eq ?_)
  rw [Vx_rest m ρ hpre c main_arg1 (by decide), Vx_rest m ρ hpre c main_arg2 (by decide), Vx_rest m ρ hpre c main_arg3 (by decide), Vx_rest m ρ hpre c main_c (by decide), Vx_rest m ρ hpre c main_v1 (by decide), Vx_rest m ρ hpre c main_v2 (by decide), Vx_rest m ρ hpre c main_c_0 (by decide), Vx_rest m ρ hpre c main_v3 (by decide), Vx_rest m ρ hpre c main_v4 (by decide), Vx_rest m ρ hpre c main_v5 (by decide), Vx_rest m ρ hpre c main_v6 (by decide), Vx_rest m ρ hpre c main_v7 (by decide), Vx_rest m ρ hpre c main_v8 (by decide), Vx_rest m ρ hpre c main_v9 (by decide), Vx_rest m ρ hpre c main_v10 (by decide)]

/-- THE HOST LINES after the region, over the unscoped buffers as the region leaves them. -/
def seg1 : Pipeline.HostSeg (Name := ℕ) (U := Pipeline.UD sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m ρ hpre) R

set_option backward.isDefEq.respectTransparency.types false in
/-- THE REGION: entered from the launch's buffers — the two windows' arrays into the pipeline, the table to the pipeline and
    back, the weight array and the kernel's cells into the invariant, the rest bypassing —, left with the arrays at their
    final contents and every other buffer as it was. -/
def reg0 : Pipeline.RegionSeg (pcfgs (F := F)) (adm m) (dats m hpre) () defs₀ Variants.none L lv 0 where
  win := (launch0 (F := F)).win.to₀
  block_pos := (launch0 (F := F)).block_pos
  stage_whole := (launch0 (F := F)).stage_whole
  K := Fin 16
  osem := osem
  ho := ownSemFacts
  hbody c := (body_obligation m hpre c).loose
  hwaits := Pipeline.hwaits_of_owed_zero _ _ _ _ L lv 0 fun _ _ => rfl
  pre c := iprop(StableHlo.held (c : Thread nD τ) (Pipeline.ucRefs τ sig) (V₀ m ρ c) ∗ R c)
  post c := iprop(StableHlo.held (c : Thread nD τ) (Pipeline.ucRefs τ sig) (Vx m ρ hpre c) ∗ R c)
  X c := iprop(pt c main_arg2 (V m c main_arg2) ∗ sems16 c)
  Y c := iprop(pt c main_arg1 (V m c main_arg1) ∗ pt c main_arg2 (V m c main_arg2))
  Z c := Zc m c
  hentry c := by
    rw [show StableHlo.held (c : Thread nD τ) (Pipeline.ucRefs τ sig) (V₀ m ρ c) = unscopedBufs c (V m c) from (Pipeline.unscopedBufs_held c _).symm,
      ownSems0_eq, prefHeld_eq]
    have hsplit := (Pipeline.arrays_of_unscopedBufs (pcfgs (F := F)) (adm m) (dats m hpre) (launch0 (F := F)).win (launch0 (F := F)).arr_whole c
      ((dats m hpre 0 c).share_full fun _ => rfl) (V m c) fun _ => rfl).trans (sep_mono .rfl (Entails.of_eq (unscopedRest_eq c (V m c))))
    iintro ⟨⟨Hub, HO⟩, Hos, -⟩
    ihave H := hsplit $$ Hub
    icases H with ⟨Ha, H1, H2, Hz0, Hz1, Hz2, Hz3, Hz4, Hz5, Hz6, Hz7, Hz8, Hz9, Hz10, Hz11, Hz12⟩
    imodintro
    isplitl [Ha]; · iexact Ha
    isplitl [H1]; · iexact H1
    isplitl [HO]
    · unfold Pipeline.Dat.owesAt Pipeline.owesWithin
      icases HO with ⟨%W, HO⟩; iexists W; isplitr; · ipureintro; exact fun _ _ => Or.inl trivial
      iexact HO
    isplitl [H2 Hos]
    · isplitl [H2]; · iexact H2
      iexact Hos
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    iexact Hz12
  hin c := by
    rw [show (dats m hpre 0 c).Φ 0 = Φc m c from rfl, prefHeld_eq, scopedRest0_eq]; unfold Φc
    dsimp only [wSplit]
    iintro ⟨⟨H2, Hos⟩, H1, Hs⟩
    ihave H2' := (Transfers.pointsTo_toks_split (Ix := Unit) (Name := ℕ) (U := Pipeline.UD sig nD τ) (Lvl := ℕ) fullShare 20) $$ H2
    isplitl [Hs]; · iexact Hs
    isplitl [Hos]; · iexact Hos
    isplitl [H2']; · iexact H2'
    iexact H1
  hout c := by
    rw [ownSems0_eq, show (dats m hpre 0 c).Φ (Fin.last (cfgA m).N) = Φc m c from rfl, scopedRest0_eq]; unfold Φc
    dsimp only [wSplit]
    iintro ⟨Hs, Hos, H2', H1⟩
    ihave H2 := (Transfers.pointsTo_toks_join (Ix := Unit) (Name := ℕ) (U := Pipeline.UD sig nD τ) (Lvl := ℕ) fullShare 20) $$ H2'
    isplitl [H1 H2]
    · isplitl [H1]; · iexact H1
      iexact H2
    isplitl [Hos]; · iexact Hos
    iexact Hs
  hexit c := by
    iintro ⟨Ha, HO, ⟨H1, H2⟩, HZ⟩
    imodintro
    isplitr [HO]
    · iapply (held_exit m ρ hpre c)
      isplitl [Ha]; · iexact Ha
      isplitl [H1]; · iexact H1
      isplitl [H2]; · iexact H2
      iexact HZ
    · unfold Pipeline.Dat.owesAt Pipeline.owesWithin
      icases HO with ⟨%W, -, HO⟩; iexists W; iexact HO

/-- @main as the list of the two. -/
abbrev segs : List (Pipeline.Seg (pcfgs (F := F)) (adm m) (dats m hpre) () defs₀ Variants.none L lv) := [.region (reg0 m ρ hpre), .host (seg1 m ρ hpre)]

/-- The launch element: the pipeline library's at the staging cells; no counter yet. -/
def u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

/-- What the last thread state holds of the buffers the claims read. -/
def QYc (c : Dev nD) (s : MemSt nD τ sig (Elt F)) : Prop :=
  ∀ b : Ref sig .tc, (b = main_v10 ∨ b = main_arg0 ∨ b = main_arg1 ∨ b = main_arg2 ∨ b = main_arg3) →
    s.mem ((c : Thread nD τ).loc b) = StableHlo.after (hostOps1 (F := F)) (Vx m ρ hpre c) (Proc.devRef .tc b)

def QC : PUnit × MemSt nD τ sig (Elt F) → Prop := fun r => ∀ c : Dev nD, QYc m ρ hpre c r.2

theorem mem_ucRefs (b : Ref sig .tc) (hb : b = main_v10 ∨ b = main_arg0 ∨ b = main_arg1 ∨ b = main_arg2 ∨ b = main_arg3) :
    Proc.devRef (τ := τ) .tc b ∈ Pipeline.ucRefs τ sig := by
  rcases hb with rfl | rfl | rfl | rfl | rfl <;> decide

set_option backward.isDefEq.respectTransparency.types false in
/-- At the compiled mesh, from any memory with zero counters whose table words index the weight array: every weakly fair
    execution of @main terminates, nothing faulting, and every final state holds, at the result and at the four arguments,
    what the host lines leave from the region's exit contents. -/
theorem run_main : θ_run defs (onTc (τ := τ) (main (F := F))) (s₀ m ρ) (QC m ρ hpre) :=
  Pipeline.θ_run_regions_kit (pcfgs (F := F)) (adm m) (dats m hpre) () (cellOf_inj (adm m)) EP defs₀ Variants.none L lv m ρ main (segs m ρ hpre)
    (fun c Q => by rw [main_segs (adm m) (dats m hpre) () Variants.none L lv (seg1 m ρ hpre) (reg0 m ρ hpre) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (Vx m ρ hpre c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := QYc m ρ hpre)
    (hfin := fun c s' => by
      unfold StableHlo.held
      iintro ⟨Hh, HSI⟩
      ihave Hr := (pointsTo_read_all (Pipeline.ucRefs τ sig) (fun b => ((c : Thread nD τ).1, b)) (fun b => StableHlo.after (hostOps1 (F := F)) (Vx m ρ hpre c) b) s') $$ [Hh HSI]
      · isplitl [Hh]; · iexact Hh
        iexact HSI
      icases Hr with ⟨%ha, HSI⟩
      imodintro
      isplitr; · ipureintro; exact fun b hb => ha _ (mem_ucRefs b hb)
      iexact HSI)
    (hQ := fun _ h => h)

end Cert.Proof.KernelRun

end
-- ==== Proof.KernelTail.lean ====
/-
  What the twelve host operations after the kernel region compute. From the index table and the bias array they
  build the bias rows gathered by the (wrapped) indices and broadcast over the middle axis, and add that array to
  the kernel's result; they write none of the four arguments nor the kernel's result array.
-/
import proofs.«417661_j25847113187694_2_alg».proof.Proof.Gen.Kernel.Launch
import Idealize.ShloMosaic.Lib.StableHlo.Run

noncomputable section

namespace Cert.Proof.KernelTail

open Cert.Kernel Cert.Kernel.Gen Idealize.ShloMosaic Idealize.ShloMosaic.TcCoe Idealize.SL.Sem Idealize.ShloMosaic.StableHlo

variable {F : FTy → Type} [FloatOps F]

/-- The bias rows gathered by the index table and broadcast over the middle axis, as ONE function of the table and
    the bias array: exactly the printed chain main_c .. main_v9. -/
def biasB (x1 : IVec S1024 32) (x3 : FVec F S1000x128 .f32) : FVec F S1024x64x128 .f32 :=
  broadcastInDim S1024x64x128 ![0, 1, 2] Facts₀.bcast_S1024x1x128_S1024x64x128_0_1_2 (broadcastInDim S1024x1x128 ![0, 2] Facts₀.bcast_S1024x128_S1024x1x128_0_2 (Host.gather gather_S1000x128_S1024x1_S1024x128_1_0_n_n_0_1_1128 x3 (broadcastInDim S1024x1 ![0] Facts₀.bcast_S1024_S1024x1_0 (select (cmpi .slt x1 (broadcastInDim S1024 ![] Facts₀.bcast_S_S1024 (constantI S_ 32 0#32))) (addi x1 (broadcastInDim S1024 ![] Facts₀.bcast_S_S1024 (constantI S_ 32 1000#32))) x1))))

/-- After the twelve operations the last result buffer holds the kernel's result array plus the broadcast bias rows. -/
theorem tail_result (W : Valuation τ sig (Elt F)) :
    StableHlo.after (hostOps1 (F := F)) W (Proc.devRef .tc main_v10)
      = addf (W (Proc.devRef .tc main_v0)) (biasB (W (Proc.devRef .tc main_arg1)) (W (Proc.devRef .tc main_arg3))) := by
  unfold biasB
  after_results <;> rfl

/-- The twelve operations write none of the four arguments nor the kernel's result array. -/
theorem tail_keeps (W : Valuation τ sig (Elt F)) (b : Ref sig .tc)
    (hb : b = main_arg0 ∨ b = main_arg1 ∨ b = main_arg2 ∨ b = main_arg3 ∨ b = main_v0) :
    StableHlo.after (hostOps1 (F := F)) W (Proc.devRef .tc b) = W (Proc.devRef .tc b) := by
  rcases hb with rfl | rfl | rfl | rfl | rfl <;> (after_results <;> rfl)

end Cert.Proof.KernelTail

end
-- ==== Proof.KernelFrame.lean ====
/-
  The program's frame: under the hypothesis that every table word indexes a row of the weight array, every weakly
  fair execution of @main terminates, nothing faults, and the four argument arrays end as they were launched.
  The input x is a window of the pipeline, which only reads it: its array holds at every point what it held at
  entry. The table, the weight array and the bias bypass the region or come back from it unchanged, and none of the
  twelve host lines after the region writes any of the four.
-/
import proofs.«417661_j25847113187694_2_alg».proof.Proof.KernelRun
import proofs.«417661_j25847113187694_2_alg».proof.Proof.KernelTail

noncomputable section

namespace Cert.Proof.KernelFrame

open Cert.Kernel Cert.Kernel.Gen Cert.Proof.KernelBody Cert.Proof.KernelRun Cert.Proof.KernelTail
open Idealize.ShloMosaic Idealize.ShloMosaic.TcCoe Idealize.SL.Sem

variable {F : FTy → Type} [FloatOps F]
variable (m : (ℓ : Loc nD τ sig) → Buf (Elt F) ℓ) (ρ : Dev nD → PrngReg) (hpre : ∀ c : Dev nD, TblOK c (V m c main_arg1))

/-- After the host lines each argument holds what it held at launch. -/
theorem arg_kept (c : Dev nD) (b : Ref sig .tc) (hb : b = main_arg0 ∨ b = main_arg1 ∨ b = main_arg2 ∨ b = main_arg3) :
    StableHlo.after (hostOps1 (F := F)) (Vx m ρ hpre c) (Proc.devRef .tc b) = m ((c : Thread nD τ).loc b) := by
  rw [tail_keeps _ b (by rcases hb with h | h | h | h <;> simp [h])]
  rcases hb with rfl | rfl | rfl | rfl
  · exact (Vx_arr m ρ hpre c 0).trans ((dats m hpre 0 c).arrAt_in 0 rfl _)
  · exact Vx_rest m ρ hpre c main_arg1 (by decide)
  · exact Vx_rest m ρ hpre c main_arg2 (by decide)
  · exact Vx_rest m ρ hpre c main_arg3 (by decide)

include hpre in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_arg0 (Or.inr (Or.inl rfl))).trans (arg_kept m ρ hpre c main_arg0 (Or.inl rfl)),
     (h c main_arg1 (Or.inr (Or.inr (Or.inl rfl)))).trans (arg_kept m ρ hpre c main_arg1 (Or.inr (Or.inl rfl))),
     (h c main_arg2 (Or.inr (Or.inr (Or.inr (Or.inl rfl))))).trans (arg_kept m ρ hpre c main_arg2 (Or.inr (Or.inr (Or.inl rfl)))),
     (h c main_arg3 (Or.inr (Or.inr (Or.inr (Or.inr rfl))))).trans (arg_kept m ρ hpre c main_arg3 (Or.inr (Or.inr (Or.inr rfl))))⟩)
    (run_main m ρ hpre)

end Cert.Proof.KernelFrame

end
-- ==== Proof.KernelIdealRows.lean ====
/-
  The kernel's scratch, a 16 x 1152 x 128 array, as its sixteen rows.

  Row r is the unit rectangle at offset (r, 0, 0) of extent (1, 1152, 128), seen as a 1152 x 128 matrix by dropping the
  unit axis. The sixteen rows are pairwise disjoint (two of them differ on the leading axis) and cover the array
  (16 · 1 is the leading extent). So the scratch held whole is the sixteen rows held apart at the same contents; and
  sixteen rows, each holding a matrix written whole over whatever was there, join to the scratch held whole at the
  array whose row r is the r-th matrix.
-/
import proofs.«417661_j25847113187694_2_alg».proof.Proof.Gen.KernelIdeal.Launch
import Idealize.ShloMosaic.Lib.Ring
import Idealize.ShloMosaic.Lib.Pipeline.Frame
import Idealize.ShloMosaic.Lib.ValueIdx

noncomputable section

namespace Cert.Proof.KernelIdealRows

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

private theorem entails_of_eq {P Q : sProp 𝕄} (e : P = Q) : P ⊢ Q := e ▸ .rfl

private theorem sep_congr {P P' Q Q' : sProp 𝕄} (h1 : P = P') (h2 : Q = Q') : (iprop(P ∗ Q) : sProp 𝕄) = iprop(P' ∗ Q') := by
  rw [h1, h2]

/-! ## The rows as element sets -/

/-- Row r lies inside the array. -/
theorem inb_row (r : Fin 16) (a : Fin 3) : (![r.val, 0, 0] : Fin 3 → Nat) a + S1x1152x128.size a ≤ S16x1152x128.size a := by
  have := r.isLt
  match a with
  | ⟨0, _⟩ => show r.val + 1 ≤ 16; omega
  | ⟨1, _⟩ => show 0 + 1152 ≤ 1152; omega
  | ⟨2, _⟩ => show 0 + 128 ≤ 128; omega

/-- The elements of row r. -/
abbrev rowSet (r : Fin 16) : Finset S16x1152x128.Idx := (Rect.unit (s := S16x1152x128) ![r.val, 0, 0] S1x1152x128.size (inb_row r)).set

/-- Two different rows share no element. -/
theorem rows_disjoint (r r' : Fin 16) (h : r ≠ r') : Disjoint (rowSet r) (rowSet r') :=
  Ring.lead_disjoint (s := S16x1152x128) (0 : Fin 3) 1 (fun r : Fin 16 => (![r.val, 0, 0] : Fin 3 → Nat)) S1x1152x128.size inb_row (fun r => by simp) rfl r r' h

/-- Every element of the array is in some row. -/
theorem rows_cover : Finset.univ.biUnion rowSet = Finset.univ :=
  Ring.lead_cover (s := S16x1152x128) (0 : Fin 3) 1 (fun r : Fin 16 => (![r.val, 0, 0] : Fin 3 → Nat)) S1x1152x128.size inb_row (fun r => by simp)
    (fun r a ha => by fin_cases a <;> first | exact absurd rfl ha | rfl) rfl (fun a ha => by fin_cases a <;> first | exact absurd rfl ha | rfl) rfl

/-! ## The rows as memrefs -/

abbrev rowM0 : Memref sig .tc .vmem S1152x128 .f32 := ((Memref.whole cc0_scratch0).slice (Rect.unit (s := S16x1152x128) ![0, 0, 0] S1x1152x128.size Facts₀.inb_S16x1152x128_S1x1152x128_0_0_0) (fun _ => rfl)).squeeze S1152x128 Facts₀.squeezes_S1x1152x128_S1152x128
abbrev rowM1 : Memref sig .tc .vmem S1152x128 .f32 := ((Memref.whole cc0_scratch0).slice (Rect.unit (s := S16x1152x128) ![1, 0, 0] S1x1152x128.size Facts₀.inb_S16x1152x128_S1x1152x128_1_0_0) (fun _ => rfl)).squeeze S1152x128 Facts₀.squeezes_S1x1152x128_S1152x128
abbrev rowM2 : Memref sig .tc .vmem S1152x128 .f32 := ((Memref.whole cc0_scratch0).slice (Rect.unit (s := S16x1152x128) ![2, 0, 0] S1x1152x128.size Facts₀.inb_S16x1152x128_S1x1152x128_2_0_0) (fun _ => rfl)).squeeze S1152x128 Facts₀.squeezes_S1x1152x128_S1152x128
abbrev rowM3 : Memref sig .tc .vmem S1152x128 .f32 := ((Memref.whole cc0_scratch0).slice (Rect.unit (s := S16x1152x128) ![3, 0, 0] S1x1152x128.size Facts₀.inb_S16x1152x128_S1x1152x128_3_0_0) (fun _ => rfl)).squeeze S1152x128 Facts₀.squeezes_S1x1152x128_S1152x128
abbrev rowM4 : Memref sig .tc .vmem S1152x128 .f32 := ((Memref.whole cc0_scratch0).slice (Rect.unit (s := S16x1152x128) ![4, 0, 0] S1x1152x128.size Facts₀.inb_S16x1152x128_S1x1152x128_4_0_0) (fun _ => rfl)).squeeze S1152x128 Facts₀.squeezes_S1x1152x128_S1152x128
abbrev rowM5 : Memref sig .tc .vmem S1152x128 .f32 := ((Memref.whole cc0_scratch0).slice (Rect.unit (s := S16x1152x128) ![5, 0, 0] S1x1152x128.size Facts₀.inb_S16x1152x128_S1x1152x128_5_0_0) (fun _ => rfl)).squeeze S1152x128 Facts₀.squeezes_S1x1152x128_S1152x128
abbrev rowM6 : Memref sig .tc .vmem S1152x128 .f32 := ((Memref.whole cc0_scratch0).slice (Rect.unit (s := S16x1152x128) ![6, 0, 0] S1x1152x128.size Facts₀.inb_S16x1152x128_S1x1152x128_6_0_0) (fun _ => rfl)).squeeze S1152x128 Facts₀.squeezes_S1x1152x128_S1152x128
abbrev rowM7 : Memref sig .tc .vmem S1152x128 .f32 := ((Memref.whole cc0_scratch0).slice (Rect.unit (s := S16x1152x128) ![7, 0, 0] S1x1152x128.size Facts₀.inb_S16x1152x128_S1x1152x128_7_0_0) (fun _ => rfl)).squeeze S1152x128 Facts₀.squeezes_S1x1152x128_S1152x128
abbrev rowM8 : Memref sig .tc .vmem S1152x128 .f32 := ((Memref.whole cc0_scratch0).slice (Rect.unit (s := S16x1152x128) ![8, 0, 0] S1x1152x128.size Facts₀.inb_S16x1152x128_S1x1152x128_8_0_0) (fun _ => rfl)).squeeze S1152x128 Facts₀.squeezes_S1x1152x128_S1152x128
abbrev rowM9 : Memref sig .tc .vmem S1152x128 .f32 := ((Memref.whole cc0_scratch0).slice (Rect.unit (s := S16x1152x128) ![9, 0, 0] S1x1152x128.size Facts₀.inb_S16x1152x128_S1x1152x128_9_0_0) (fun _ => rfl)).squeeze S1152x128 Facts₀.squeezes_S1x1152x128_S1152x128
abbrev rowM10 : Memref sig .tc .vmem S1152x128 .f32 := ((Memref.whole cc0_scratch0).slice (Rect.unit (s := S16x1152x128) ![10, 0, 0] S1x1152x128.size Facts₀.inb_S16x1152x128_S1x1152x128_10_0_0) (fun _ => rfl)).squeeze S1152x128 Facts₀.squeezes_S1x1152x128_S1152x128
abbrev rowM11 : Memref sig .tc .vmem S1152x128 .f32 := ((Memref.whole cc0_scratch0).slice (Rect.unit (s := S16x1152x128) ![11, 0, 0] S1x1152x128.size Facts₀.inb_S16x1152x128_S1x1152x128_11_0_0) (fun _ => rfl)).squeeze S1152x128 Facts₀.squeezes_S1x1152x128_S1152x128
abbrev rowM12 : Memref sig .tc .vmem S1152x128 .f32 := ((Memref.whole cc0_scratch0).slice (Rect.unit (s := S16x1152x128) ![12, 0, 0] S1x1152x128.size Facts₀.inb_S16x1152x128_S1x1152x128_12_0_0) (fun _ => rfl)).squeeze S1152x128 Facts₀.squeezes_S1x1152x128_S1152x128
abbrev rowM13 : Memref sig .tc .vmem S1152x128 .f32 := ((Memref.whole cc0_scratch0).slice (Rect.unit (s := S16x1152x128) ![13, 0, 0] S1x1152x128.size Facts₀.inb_S16x1152x128_S1x1152x128_13_0_0) (fun _ => rfl)).squeeze S1152x128 Facts₀.squeezes_S1x1152x128_S1152x128
abbrev rowM14 : Memref sig .tc .vmem S1152x128 .f32 := ((Memref.whole cc0_scratch0).slice (Rect.unit (s := S16x1152x128) ![14, 0, 0] S1x1152x128.size Facts₀.inb_S16x1152x128_S1x1152x128_14_0_0) (fun _ => rfl)).squeeze S1152x128 Facts₀.squeezes_S1x1152x128_S1152x128
abbrev rowM15 : Memref sig .tc .vmem S1152x128 .f32 := ((Memref.whole cc0_scratch0).slice (Rect.unit (s := S16x1152x128) ![15, 0, 0] S1x1152x128.size Facts₀.inb_S16x1152x128_S1x1152x128_15_0_0) (fun _ => rfl)).squeeze S1152x128 Facts₀.squeezes_S1x1152x128_S1152x128

theorem row_set_eq0 : rowM0.view.set = rowSet 0 := by
  simp only [Memref.view_squeeze, View.set_reshape]; exact View.set_slice_whole _ _
theorem row_set_eq1 : rowM1.view.set = rowSet 1 := by
  simp only [Memref.view_squeeze, View.set_reshape]; exact View.set_slice_whole _ _
theorem row_set_eq2 : rowM2.view.set = rowSet 2 := by
  simp only [Memref.view_squeeze, View.set_reshape]; exact View.set_slice_whole _ _
theorem row_set_eq3 : rowM3.view.set = rowSet 3 := by
  simp only [Memref.view_squeeze, View.set_reshape]; exact View.set_slice_whole _ _
theorem row_set_eq4 : rowM4.view.set = rowSet 4 := by
  simp only [Memref.view_squeeze, View.set_reshape]; exact View.set_slice_whole _ _
theorem row_set_eq5 : rowM5.view.set = rowSet 5 := by
  simp only [Memref.view_squeeze, View.set_reshape]; exact View.set_slice_whole _ _
theorem row_set_eq6 : rowM6.view.set = rowSet 6 := by
  simp only [Memref.view_squeeze, View.set_reshape]; exact View.set_slice_whole _ _
theorem row_set_eq7 : rowM7.view.set = rowSet 7 := by
  simp only [Memref.view_squeeze, View.set_reshape]; exact View.set_slice_whole _ _
theorem row_set_eq8 : rowM8.view.set = rowSet 8 := by
  simp only [Memref.view_squeeze, View.set_reshape]; exact View.set_slice_whole _ _
theorem row_set_eq9 : rowM9.view.set = rowSet 9 := by
  simp only [Memref.view_squeeze, View.set_reshape]; exact View.set_slice_whole _ _
theorem row_set_eq10 : rowM10.view.set = rowSet 10 := by
  simp only [Memref.view_squeeze, View.set_reshape]; exact View.set_slice_whole _ _
theorem row_set_eq11 : rowM11.view.set = rowSet 11 := by
  simp only [Memref.view_squeeze, View.set_reshape]; exact View.set_slice_whole _ _
theorem row_set_eq12 : rowM12.view.set = rowSet 12 := by
  simp only [Memref.view_squeeze, View.set_reshape]; exact View.set_slice_whole _ _
theorem row_set_eq13 : rowM13.view.set = rowSet 13 := by
  simp only [Memref.view_squeeze, View.set_reshape]; exact View.set_slice_whole _ _
theorem row_set_eq14 : rowM14.view.set = rowSet 14 := by
  simp only [Memref.view_squeeze, View.set_reshape]; exact View.set_slice_whole _ _
theorem row_set_eq15 : rowM15.view.set = rowSet 15 := by
  simp only [Memref.view_squeeze, View.set_reshape]; exact View.set_slice_whole _ _

/-- The scratch's buffer on core c. -/
abbrev ℓ (c : Dev nD) : Loc nD τ sig := (Memref.whole cc0_scratch0).view.loc (c : Thread nD τ)

/-- A row's matrix held by exactly its own elements, at contents f of the scratch. -/
abbrev sPt (c : Dev nD) (M : Memref sig .tc .vmem S1152x128 .f32) (f : Buf (Elt F) (M.view.loc (c : Thread nD τ))) : sProp 𝕄 :=
  M.view.loc (c : Thread nD τ) ↦[M.view.set]{fullShare} f

theorem sPt_eq0 (c : Dev nD) (f : Buf (Elt F) (ℓ c)) : sPt c rowM0 f = (ℓ c ↦[rowSet 0]{fullShare} f : sProp 𝕄) := by
  show (ℓ c ↦[rowM0.view.set]{fullShare} f : sProp 𝕄) = _; rw [row_set_eq0]
theorem sPt_eq1 (c : Dev nD) (f : Buf (Elt F) (ℓ c)) : sPt c rowM1 f = (ℓ c ↦[rowSet 1]{fullShare} f : sProp 𝕄) := by
  show (ℓ c ↦[rowM1.view.set]{fullShare} f : sProp 𝕄) = _; rw [row_set_eq1]
theorem sPt_eq2 (c : Dev nD) (f : Buf (Elt F) (ℓ c)) : sPt c rowM2 f = (ℓ c ↦[rowSet 2]{fullShare} f : sProp 𝕄) := by
  show (ℓ c ↦[rowM2.view.set]{fullShare} f : sProp 𝕄) = _; rw [row_set_eq2]
theorem sPt_eq3 (c : Dev nD) (f : Buf (Elt F) (ℓ c)) : sPt c rowM3 f = (ℓ c ↦[rowSet 3]{fullShare} f : sProp 𝕄) := by
  show (ℓ c ↦[rowM3.view.set]{fullShare} f : sProp 𝕄) = _; rw [row_set_eq3]
theorem sPt_eq4 (c : Dev nD) (f : Buf (Elt F) (ℓ c)) : sPt c rowM4 f = (ℓ c ↦[rowSet 4]{fullShare} f : sProp 𝕄) := by
  show (ℓ c ↦[rowM4.view.set]{fullShare} f : sProp 𝕄) = _; rw [row_set_eq4]
theorem sPt_eq5 (c : Dev nD) (f : Buf (Elt F) (ℓ c)) : sPt c rowM5 f = (ℓ c ↦[rowSet 5]{fullShare} f : sProp 𝕄) := by
  show (ℓ c ↦[rowM5.view.set]{fullShare} f : sProp 𝕄) = _; rw [row_set_eq5]
theorem sPt_eq6 (c : Dev nD) (f : Buf (Elt F) (ℓ c)) : sPt c rowM6 f = (ℓ c ↦[rowSet 6]{fullShare} f : sProp 𝕄) := by
  show (ℓ c ↦[rowM6.view.set]{fullShare} f : sProp 𝕄) = _; rw [row_set_eq6]
theorem sPt_eq7 (c : Dev nD) (f : Buf (Elt F) (ℓ c)) : sPt c rowM7 f = (ℓ c ↦[rowSet 7]{fullShare} f : sProp 𝕄) := by
  show (ℓ c ↦[rowM7.view.set]{fullShare} f : sProp 𝕄) = _; rw [row_set_eq7]
theorem sPt_eq8 (c : Dev nD) (f : Buf (Elt F) (ℓ c)) : sPt c rowM8 f = (ℓ c ↦[rowSet 8]{fullShare} f : sProp 𝕄) := by
  show (ℓ c ↦[rowM8.view.set]{fullShare} f : sProp 𝕄) = _; rw [row_set_eq8]
theorem sPt_eq9 (c : Dev nD) (f : Buf (Elt F) (ℓ c)) : sPt c rowM9 f = (ℓ c ↦[rowSet 9]{fullShare} f : sProp 𝕄) := by
  show (ℓ c ↦[rowM9.view.set]{fullShare} f : sProp 𝕄) = _; rw [row_set_eq9]
theorem sPt_eq10 (c : Dev nD) (f : Buf (Elt F) (ℓ c)) : sPt c rowM10 f = (ℓ c ↦[rowSet 10]{fullShare} f : sProp 𝕄) := by
  show (ℓ c ↦[rowM10.view.set]{fullShare} f : sProp 𝕄) = _; rw [row_set_eq10]
theorem sPt_eq11 (c : Dev nD) (f : Buf (Elt F) (ℓ c)) : sPt c rowM11 f = (ℓ c ↦[rowSet 11]{fullShare} f : sProp 𝕄) := by
  show (ℓ c ↦[rowM11.view.set]{fullShare} f : sProp 𝕄) = _; rw [row_set_eq11]
theorem sPt_eq12 (c : Dev nD) (f : Buf (Elt F) (ℓ c)) : sPt c rowM12 f = (ℓ c ↦[rowSet 12]{fullShare} f : sProp 𝕄) := by
  show (ℓ c ↦[rowM12.view.set]{fullShare} f : sProp 𝕄) = _; rw [row_set_eq12]
theorem sPt_eq13 (c : Dev nD) (f : Buf (Elt F) (ℓ c)) : sPt c rowM13 f = (ℓ c ↦[rowSet 13]{fullShare} f : sProp 𝕄) := by
  show (ℓ c ↦[rowM13.view.set]{fullShare} f : sProp 𝕄) = _; rw [row_set_eq13]
theorem sPt_eq14 (c : Dev nD) (f : Buf (Elt F) (ℓ c)) : sPt c rowM14 f = (ℓ c ↦[rowSet 14]{fullShare} f : sProp 𝕄) := by
  show (ℓ c ↦[rowM14.view.set]{fullShare} f : sProp 𝕄) = _; rw [row_set_eq14]
theorem sPt_eq15 (c : Dev nD) (f : Buf (Elt F) (ℓ c)) : sPt c rowM15 f = (ℓ c ↦[rowSet 15]{fullShare} f : sProp 𝕄) := by
  show (ℓ c ↦[rowM15.view.set]{fullShare} f : sProp 𝕄) = _; rw [row_set_eq15]

/-! ## Splitting the scratch into its rows -/

/-- The scratch held whole is its sixteen rows held apart, at the same contents. -/
theorem rows_split (c : Dev nD) (f : Buf (Elt F) ((Memref.whole cc0_scratch0).view.loc (c : Thread nD τ))) :
    ((Memref.whole cc0_scratch0).view.loc (c : Thread nD τ) ↦{fullShare} f : sProp 𝕄)
      ⊢ iprop(sPt c rowM0 f ∗ sPt c rowM1 f ∗ sPt c rowM2 f ∗ sPt c rowM3 f ∗ sPt c rowM4 f ∗ sPt c rowM5 f ∗ sPt c rowM6 f ∗ sPt c rowM7 f ∗ sPt c rowM8 f ∗ sPt c rowM9 f ∗ sPt c rowM10 f ∗ sPt c rowM11 f ∗ sPt c rowM12 f ∗ sPt c rowM13 f ∗ sPt c rowM14 f ∗ sPt c rowM15 f) := by
  have E1 : (ℓ c ↦{fullShare} f : sProp 𝕄) = iprop((ℓ c ↦[rowSet 0]{fullShare} f) ∗ (ℓ c ↦[rowSet 1]{fullShare} f) ∗ (ℓ c ↦[rowSet 2]{fullShare} f) ∗ (ℓ c ↦[rowSet 3]{fullShare} f) ∗ (ℓ c ↦[rowSet 4]{fullShare} f) ∗ (ℓ c ↦[rowSet 5]{fullShare} f) ∗ (ℓ c ↦[rowSet 6]{fullShare} f) ∗ (ℓ c ↦[rowSet 7]{fullShare} f) ∗ (ℓ c ↦[rowSet 8]{fullShare} f) ∗ (ℓ c ↦[rowSet 9]{fullShare} f) ∗ (ℓ c ↦[rowSet 10]{fullShare} f) ∗ (ℓ c ↦[rowSet 11]{fullShare} f) ∗ (ℓ c ↦[rowSet 12]{fullShare} f) ∗ (ℓ c ↦[rowSet 13]{fullShare} f) ∗ (ℓ c ↦[rowSet 14]{fullShare} f) ∗ (ℓ c ↦[rowSet 15]{fullShare} f)) :=
    (Ring.pointsTo_blocks (ℓ := ℓ c) rowSet rows_disjoint rows_cover f).trans
      (bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) _)
  have E2 : (iprop(sPt c rowM0 f ∗ sPt c rowM1 f ∗ sPt c rowM2 f ∗ sPt c rowM3 f ∗ sPt c rowM4 f ∗ sPt c rowM5 f ∗ sPt c rowM6 f ∗ sPt c rowM7 f ∗ sPt c rowM8 f ∗ sPt c rowM9 f ∗ sPt c rowM10 f ∗ sPt c rowM11 f ∗ sPt c rowM12 f ∗ sPt c rowM13 f ∗ sPt c rowM14 f ∗ sPt c rowM15 f) : sProp 𝕄) = iprop((ℓ c ↦[rowSet 0]{fullShare} f) ∗ (ℓ c ↦[rowSet 1]{fullShare} f) ∗ (ℓ c ↦[rowSet 2]{fullShare} f) ∗ (ℓ c ↦[rowSet 3]{fullShare} f) ∗ (ℓ c ↦[rowSet 4]{fullShare} f) ∗ (ℓ c ↦[rowSet 5]{fullShare} f) ∗ (ℓ c ↦[rowSet 6]{fullShare} f) ∗ (ℓ c ↦[rowSet 7]{fullShare} f) ∗ (ℓ c ↦[rowSet 8]{fullShare} f) ∗ (ℓ c ↦[rowSet 9]{fullShare} f) ∗ (ℓ c ↦[rowSet 10]{fullShare} f) ∗ (ℓ c ↦[rowSet 11]{fullShare} f) ∗ (ℓ c ↦[rowSet 12]{fullShare} f) ∗ (ℓ c ↦[rowSet 13]{fullShare} f) ∗ (ℓ c ↦[rowSet 14]{fullShare} f) ∗ (ℓ c ↦[rowSet 15]{fullShare} f)) :=
    sep_congr (sPt_eq0 c f) (sep_congr (sPt_eq1 c f) (sep_congr (sPt_eq2 c f) (sep_congr (sPt_eq3 c f) (sep_congr (sPt_eq4 c f) (sep_congr (sPt_eq5 c f) (sep_congr (sPt_eq6 c f) (sep_congr (sPt_eq7 c f) (sep_congr (sPt_eq8 c f) (sep_congr (sPt_eq9 c f) (sep_congr (sPt_eq10 c f) (sep_congr (sPt_eq11 c f) (sep_congr (sPt_eq12 c f) (sep_congr (sPt_eq13 c f) (sep_congr (sPt_eq14 c f) (sPt_eq15 c f)))))))))))))))
  exact entails_of_eq (E1.trans E2.symm)

/-! ## The array whose rows are sixteen given matrices -/

/-- The contents of the scratch whose row r is the matrix p_r: at (b, k, o) it is p_b at (k, o). -/
def rowsBuf (c : Dev nD) (p0 p1 p2 p3 p4 p5 p6 p7 p8 p9 p10 p11 p12 p13 p14 p15 : S1152x128.Idx → Elt F .f32) : Buf (Elt F) ((Memref.whole cc0_scratch0).view.loc (c : Thread nD τ)) :=
  fun j : S16x1152x128.Idx =>
    let x : S1152x128.Idx := ix2 (⟨(j 1).val, (j 1).isLt⟩ : Fin 1152) (⟨(j 2).val, (j 2).isLt⟩ : Fin 128)
    match (⟨(j 0).val, (j 0).isLt⟩ : Fin 16) with
    | ⟨0, _⟩ => p0 x
    | ⟨1, _⟩ => p1 x
    | ⟨2, _⟩ => p2 x
    | ⟨3, _⟩ => p3 x
    | ⟨4, _⟩ => p4 x
    | ⟨5, _⟩ => p5 x
    | ⟨6, _⟩ => p6 x
    | ⟨7, _⟩ => p7 x
    | ⟨8, _⟩ => p8 x
    | ⟨9, _⟩ => p9 x
    | ⟨10, _⟩ => p10 x
    | ⟨11, _⟩ => p11 x
    | ⟨12, _⟩ => p12 x
    | ⟨13, _⟩ => p13 x
    | ⟨14, _⟩ => p14 x
    | ⟨15, _⟩ => p15 x
    | ⟨_ + 16, h⟩ => absurd h (Nat.not_lt.2 (Nat.le_add_left _ _))

theorem rowsBuf_apply0 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (0 : Fin 16) k o) = p0 (ix2 k o) := rfl
theorem rowsBuf_apply1 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (1 : Fin 16) k o) = p1 (ix2 k o) := rfl
theorem rowsBuf_apply2 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (2 : Fin 16) k o) = p2 (ix2 k o) := rfl
theorem rowsBuf_apply3 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (3 : Fin 16) k o) = p3 (ix2 k o) := rfl
theorem rowsBuf_apply4 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (4 : Fin 16) k o) = p4 (ix2 k o) := rfl
theorem rowsBuf_apply5 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (5 : Fin 16) k o) = p5 (ix2 k o) := rfl
theorem rowsBuf_apply6 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (6 : Fin 16) k o) = p6 (ix2 k o) := rfl
theorem rowsBuf_apply7 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (7 : Fin 16) k o) = p7 (ix2 k o) := rfl
theorem rowsBuf_apply8 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (8 : Fin 16) k o) = p8 (ix2 k o) := rfl
theorem rowsBuf_apply9 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (9 : Fin 16) k o) = p9 (ix2 k o) := rfl
theorem rowsBuf_apply10 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (10 : Fin 16) k o) = p10 (ix2 k o) := rfl
theorem rowsBuf_apply11 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (11 : Fin 16) k o) = p11 (ix2 k o) := rfl
theorem rowsBuf_apply12 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (12 : Fin 16) k o) = p12 (ix2 k o) := rfl
theorem rowsBuf_apply13 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (13 : Fin 16) k o) = p13 (ix2 k o) := rfl
theorem rowsBuf_apply14 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (14 : Fin 16) k o) = p14 (ix2 k o) := rfl
theorem rowsBuf_apply15 (c : Dev nD) (p0 p1 p2 p3 p4 p5 p6 p7 p8 p9 p10 p11 p12 p13 p14 p15 : S1152x128.Idx → Elt F .f32) (k : Fin 1152) (o : Fin 128) :
    rowsBuf c p0 p1 p2 p3 p4 p5 p6 p7 p8 p9 p10 p11 p12 p13 p14 p15 (ix3 (15 : Fin 16) k o) = p15 (ix2 k o) := rfl

/-! ## Where a row's matrix sits in the array -/

/-- Entry (k, o) of row r's matrix is entry (r, k, o) of the array: the dropped unit axis reads 0, the slice adds r. -/
theorem row_emb (r : Nat) (inb : ∀ a, (![r, 0, 0] : Fin 3 → Nat) a + S1x1152x128.size a ≤ S16x1152x128.size a) (hr : r < 16)
    (z : S1152x128.Idx) :
    (((Memref.whole cc0_scratch0 : Memref sig .tc .vmem S16x1152x128 .f32).slice (Rect.unit (s := S16x1152x128) ![r, 0, 0] S1x1152x128.size inb) (fun _ => rfl)).squeeze S1152x128 Facts₀.squeezes_S1x1152x128_S1152x128).view.emb z
      = (ix3 (⟨r, hr⟩ : Fin 16) ⟨(z 0).val, (z 0).isLt⟩ ⟨(z 1).val, (z 1).isLt⟩ : S16x1152x128.Idx) := by
  show (Rect.unit (s := S16x1152x128) ![r, 0, 0] S1x1152x128.size inb).emb (Shape.reshapeEquiv Facts₀.squeezes_S1x1152x128_S1152x128.numel_eq z) = _
  rw [Shape.reshapeEquiv_cons_one]
  funext a
  refine Fin.ext ?_
  match a with
  | ⟨0, _⟩ => show r + 1 * 0 = r; omega
  | ⟨1, _⟩ => show 0 + 1 * (z 0).val = (z 0).val; omega
  | ⟨2, _⟩ => show 0 + 1 * (z 1).val = (z 1).val; omega

theorem row_emb0 (z : S1152x128.Idx) :
    rowM0.view.emb z = (ix3 (0 : Fin 16) ⟨(z 0).val, (z 0).isLt⟩ ⟨(z 1).val, (z 1).isLt⟩ : S16x1152x128.Idx) :=
  row_emb 0 Facts₀.inb_S16x1152x128_S1x1152x128_0_0_0 (by decide) z
theorem row_emb1 (z : S1152x128.Idx) :
    rowM1.view.emb z = (ix3 (1 : Fin 16) ⟨(z 0).val, (z 0).isLt⟩ ⟨(z 1).val, (z 1).isLt⟩ : S16x1152x128.Idx) :=
  row_emb 1 Facts₀.inb_S16x1152x128_S1x1152x128_1_0_0 (by decide) z
theorem row_emb2 (z : S1152x128.Idx) :
    rowM2.view.emb z = (ix3 (2 : Fin 16) ⟨(z 0).val, (z 0).isLt⟩ ⟨(z 1).val, (z 1).isLt⟩ : S16x1152x128.Idx) :=
  row_emb 2 Facts₀.inb_S16x1152x128_S1x1152x128_2_0_0 (by decide) z
theorem row_emb3 (z : S1152x128.Idx) :
    rowM3.view.emb z = (ix3 (3 : Fin 16) ⟨(z 0).val, (z 0).isLt⟩ ⟨(z 1).val, (z 1).isLt⟩ : S16x1152x128.Idx) :=
  row_emb 3 Facts₀.inb_S16x1152x128_S1x1152x128_3_0_0 (by decide) z
theorem row_emb4 (z : S1152x128.Idx) :
    rowM4.view.emb z = (ix3 (4 : Fin 16) ⟨(z 0).val, (z 0).isLt⟩ ⟨(z 1).val, (z 1).isLt⟩ : S16x1152x128.Idx) :=
  row_emb 4 Facts₀.inb_S16x1152x128_S1x1152x128_4_0_0 (by decide) z
theorem row_emb5 (z : S1152x128.Idx) :
    rowM5.view.emb z = (ix3 (5 : Fin 16) ⟨(z 0).val, (z 0).isLt⟩ ⟨(z 1).val, (z 1).isLt⟩ : S16x1152x128.Idx) :=
  row_emb 5 Facts₀.inb_S16x1152x128_S1x1152x128_5_0_0 (by decide) z
theorem row_emb6 (z : S1152x128.Idx) :
    rowM6.view.emb z = (ix3 (6 : Fin 16) ⟨(z 0).val, (z 0).isLt⟩ ⟨(z 1).val, (z 1).isLt⟩ : S16x1152x128.Idx) :=
  row_emb 6 Facts₀.inb_S16x1152x128_S1x1152x128_6_0_0 (by decide) z
theorem row_emb7 (z : S1152x128.Idx) :
    rowM7.view.emb z = (ix3 (7 : Fin 16) ⟨(z 0).val, (z 0).isLt⟩ ⟨(z 1).val, (z 1).isLt⟩ : S16x1152x128.Idx) :=
  row_emb 7 Facts₀.inb_S16x1152x128_S1x1152x128_7_0_0 (by decide) z
theorem row_emb8 (z : S1152x128.Idx) :
    rowM8.view.emb z = (ix3 (8 : Fin 16) ⟨(z 0).val, (z 0).isLt⟩ ⟨(z 1).val, (z 1).isLt⟩ : S16x1152x128.Idx) :=
  row_emb 8 Facts₀.inb_S16x1152x128_S1x1152x128_8_0_0 (by decide) z
theorem row_emb9 (z : S1152x128.Idx) :
    rowM9.view.emb z = (ix3 (9 : Fin 16) ⟨(z 0).val, (z 0).isLt⟩ ⟨(z 1).val, (z 1).isLt⟩ : S16x1152x128.Idx) :=
  row_emb 9 Facts₀.inb_S16x1152x128_S1x1152x128_9_0_0 (by decide) z
theorem row_emb10 (z : S1152x128.Idx) :
    rowM10.view.emb z = (ix3 (10 : Fin 16) ⟨(z 0).val, (z 0).isLt⟩ ⟨(z 1).val, (z 1).isLt⟩ : S16x1152x128.Idx) :=
  row_emb 10 Facts₀.inb_S16x1152x128_S1x1152x128_10_0_0 (by decide) z
theorem row_emb11 (z : S1152x128.Idx) :
    rowM11.view.emb z = (ix3 (11 : Fin 16) ⟨(z 0).val, (z 0).isLt⟩ ⟨(z 1).val, (z 1).isLt⟩ : S16x1152x128.Idx) :=
  row_emb 11 Facts₀.inb_S16x1152x128_S1x1152x128_11_0_0 (by decide) z
theorem row_emb12 (z : S1152x128.Idx) :
    rowM12.view.emb z = (ix3 (12 : Fin 16) ⟨(z 0).val, (z 0).isLt⟩ ⟨(z 1).val, (z 1).isLt⟩ : S16x1152x128.Idx) :=
  row_emb 12 Facts₀.inb_S16x1152x128_S1x1152x128_12_0_0 (by decide) z
theorem row_emb13 (z : S1152x128.Idx) :
    rowM13.view.emb z = (ix3 (13 : Fin 16) ⟨(z 0).val, (z 0).isLt⟩ ⟨(z 1).val, (z 1).isLt⟩ : S16x1152x128.Idx) :=
  row_emb 13 Facts₀.inb_S16x1152x128_S1x1152x128_13_0_0 (by decide) z
theorem row_emb14 (z : S1152x128.Idx) :
    rowM14.view.emb z = (ix3 (14 : Fin 16) ⟨(z 0).val, (z 0).isLt⟩ ⟨(z 1).val, (z 1).isLt⟩ : S16x1152x128.Idx) :=
  row_emb 14 Facts₀.inb_S16x1152x128_S1x1152x128_14_0_0 (by decide) z
theorem row_emb15 (z : S1152x128.Idx) :
    rowM15.view.emb z = (ix3 (15 : Fin 16) ⟨(z 0).val, (z 0).isLt⟩ ⟨(z 1).val, (z 1).isLt⟩ : S16x1152x128.Idx) :=
  row_emb 15 Facts₀.inb_S16x1152x128_S1x1152x128_15_0_0 (by decide) z

/-! ## Joining sixteen landed rows -/

/-- A row holding a matrix written whole over anything is the row held at any contents that read that matrix there. -/
theorem sPt_landed (c : Dev nD) (M : Memref sig .tc .vmem S1152x128 .f32) (fs g : Buf (Elt F) (M.view.loc (c : Thread nD τ)))
    (p : S1152x128.Idx → Elt F .f32)
    (hg : ∀ z : S1152x128.Idx, g (M.view.emb z) = _root_.cast (congrArg (Elt F) M.view.elt_eq.symm) (p z)) :
    sPt c M (M.view.writes (Elt F) fs [⟨Rect.whole S1152x128, p⟩]) = sPt c M g := by
  refine pointsTo_congr fun i hi => ?_
  obtain ⟨z, -, rfl⟩ := Finset.mem_map.mp hi
  rw [← View.write_univ_eq_writes_whole, View.writes_nil, View.write_emb_of_mem _ _ (Finset.mem_univ _), hg]

theorem landed0 (c : Dev nD) (fs : Buf (Elt F) (ℓ c)) (p0 p1 p2 p3 p4 p5 p6 p7 p8 p9 p10 p11 p12 p13 p14 p15 : S1152x128.Idx → Elt F .f32) :
    sPt c rowM0 (rowM0.view.writes (Elt F) fs [⟨Rect.whole S1152x128, p0⟩])
      = (ℓ c ↦[rowSet 0]{fullShare} rowsBuf c p0 p1 p2 p3 p4 p5 p6 p7 p8 p9 p10 p11 p12 p13 p14 p15 : sProp 𝕄) := by
  rw [sPt_landed c rowM0 fs (rowsBuf c p0 p1 p2 p3 p4 p5 p6 p7 p8 p9 p10 p11 p12 p13 p14 p15) p0 (fun z => by
    show rowsBuf c p0 p1 p2 p3 p4 p5 p6 p7 p8 p9 p10 p11 p12 p13 p14 p15 (rowM0.view.emb z) = p0 z
    rw [row_emb0 z]; exact (rowsBuf_apply0 c p0 p1 p2 p3 p4 p5 p6 p7 p8 p9 p10 p11 p12 p13 p14 p15 _ _).trans (congrArg p0 (eq_ix2 z).symm))]
  exact sPt_eq0 c _
theorem landed1 (c : Dev nD) (fs : Buf (Elt F) (ℓ c)) (p0 p1 p2 p3 p4 p5 p6 p7 p8 p9 p10 p11 p12 p13 p14 p15 : S1152x128.Idx → Elt F .f32) :
    sPt c rowM1 (rowM1.view.writes (Elt F) fs [⟨Rect.whole S1152x128, p1⟩])
      = (ℓ c ↦[rowSet 1]{fullShare} rowsBuf c p0 p1 p2 p3 p4 p5 p6 p7 p8 p9 p10 p11 p12 p13 p14 p15 : sProp 𝕄) := by
  rw [sPt_landed c rowM1 fs (rowsBuf c p0 p1 p2 p3 p4 p5 p6 p7 p8 p9 p10 p11 p12 p13 p14 p15) p1 (fun z => by
    show rowsBuf c p0 p1 p2 p3 p4 p5 p6 p7 p8 p9 p10 p11 p12 p13 p14 p15 (rowM1.view.emb z) = p1 z
    rw [row_emb1 z]; exact (rowsBuf_apply1 c p0 p1 p2 p3 p4 p5 p6 p7 p8 p9 p10 p11 p12 p13 p14 p15 _ _).trans (congrArg p1 (eq_ix2 z).symm))]
  exact sPt_eq1 c _
theorem landed2 (c : Dev nD) (fs : Buf (Elt F) (ℓ c)) (p0 p1 p2 p3 p4 p5 p6 p7 p8 p9 p10 p11 p12 p13 p14 p15 : S1152x128.Idx → Elt F .f32) :
    sPt c rowM2 (rowM2.view.writes (Elt F) fs [⟨Rect.whole S1152x128, p2⟩])
      = (ℓ c ↦[rowSet 2]{fullShare} rowsBuf c p0 p1 p2 p3 p4 p5 p6 p7 p8 p9 p10 p11 p12 p13 p14 p15 : sProp 𝕄) := by
  rw [sPt_landed c rowM2 fs (rowsBuf c p0 p1 p2 p3 p4 p5 p6 p7 p8 p9 p10 p11 p12 p13 p14 p15) p2 (fun z => by
    show rowsBuf c p0 p1 p2 p3 p4 p5 p6 p7 p8 p9 p10 p11 p12 p13 p14 p15 (rowM2.view.emb z) = p2 z
    rw [row_emb2 z]; exact (rowsBuf_apply2 c p0 p1 p2 p3 p4 p5 p6 p7 p8 p9 p10 p11 p12 p13 p14 p15 _ _).trans (congrArg p2 (eq_ix2 z).symm))]
  exact sPt_eq2 c _
theorem landed3 (c : Dev nD) (fs : Buf (Elt F) (ℓ c)) (p0 p1 p2 p3 p4 p5 p6 p7 p8 p9 p10 p11 p12 p13 p14 p15 : S1152x128.Idx → Elt F .f32) :
    sPt c rowM3 (rowM3.view.writes (Elt F) fs [⟨Rect.whole S1152x128, p3⟩])
      = (ℓ c ↦[rowSet 3]{fullShare} rowsBuf c p0 p1 p2 p3 p4 p5 p6 p7 p8 p9 p10 p11 p12 p13 p14 p15 : sProp 𝕄) := by
  rw [sPt_landed c rowM3 fs (rowsBuf c p0 p1 p2 p3 p4 p5 p6 p7 p8 p9 p10 p11 p12 p13 p14 p15) p3 (fun z => by
    show rowsBuf c p0 p1 p2 p3 p4 p5 p6 p7 p8 p9 p10 p11 p12 p13 p14 p15 (rowM3.view.emb z) = p3 z
    rw [row_emb3 z]; exact (rowsBuf_apply3 c p0 p1 p2 p3 p4 p5 p6 p7 p8 p9 p10 p11 p12 p13 p14 p15 _ _).trans (congrArg p3 (eq_ix2 z).symm))]
  exact sPt_eq3 c _
theorem landed4 (c : Dev nD) (fs : Buf (Elt F) (ℓ c)) (p0 p1 p2 p3 p4 p5 p6 p7 p8 p9 p10 p11 p12 p13 p14 p15 : S1152x128.Idx → Elt F .f32) :
    sPt c rowM4 (rowM4.view.writes (Elt F) fs [⟨Rect.whole S1152x128, p4⟩])
      = (ℓ c ↦[rowSet 4]{fullShare} rowsBuf c p0 p1 p2 p3 p4 p5 p6 p7 p8 p9 p10 p11 p12 p13 p14 p15 : sProp 𝕄) := by
  rw [sPt_landed c rowM4 fs (rowsBuf c p0 p1 p2 p3 p4 p5 p6 p7 p8 p9 p10 p11 p12 p13 p14 p15) p4 (fun z => by
    show rowsBuf c p0 p1 p2 p3 p4 p5 p6 p7 p8 p9 p10 p11 p12 p13 p14 p15 (rowM4.view.emb z) = p4 z
    rw [row_emb4 z]; exact (rowsBuf_apply4 c p0 p1 p2 p3 p4 p5 p6 p7 p8 p9 p10 p11 p12 p13 p14 p15 _ _).trans (congrArg p4 (eq_ix2 z).symm))]
  exact sPt_eq4 c _
theorem landed5 (c : Dev nD) (fs : Buf (Elt F) (ℓ c)) (p0 p1 p2 p3 p4 p5 p6 p7 p8 p9 p10 p11 p12 p13 p14 p15 : S1152x128.Idx → Elt F .f32) :
    sPt c rowM5 (rowM5.view.writes (Elt F) fs [⟨Rect.whole S1152x128, p5⟩])
      = (ℓ c ↦[rowSet 5]{fullShare} rowsBuf c p0 p1 p2 p3 p4 p5 p6 p7 p8 p9 p10 p11 p12 p13 p14 p15 : sProp 𝕄) := by
  rw [sPt_landed c rowM5 fs (rowsBuf c p0 p1 p2 p3 p4 p5 p6 p7 p8 p9 p10 p11 p12 p13 p14 p15) p5 (fun z => by
    show rowsBuf c p0 p1 p2 p3 p4 p5 p6 p7 p8 p9 p10 p11 p12 p13 p14 p15 (rowM5.view.emb z) = p5 z
    rw [row_emb5 z]; exact (rowsBuf_apply5 c p0 p1 p2 p3 p4 p5 p6 p7 p8 p9 p10 p11 p12 p13 p14 p15 _ _).trans (congrArg p5 (eq_ix2 z).symm))]
  exact sPt_eq5 c _
theorem landed6 (c : Dev nD) (fs : Buf (Elt F) (ℓ c)) (p0 p1 p2 p3 p4 p5 p6 p7 p8 p9 p10 p11 p12 p13 p14 p15 : S1152x128.Idx → Elt F .f32) :
    sPt c rowM6 (rowM6.view.writes (Elt F) fs [⟨Rect.whole S1152x128, p6⟩])
      = (ℓ c ↦[rowSet 6]{fullShare} rowsBuf c p0 p1 p2 p3 p4 p5 p6 p7 p8 p9 p10 p11 p12 p13 p14 p15 : sProp 𝕄) := by
  rw [sPt_landed c rowM6 fs (rowsBuf c p0 p1 p2 p3 p4 p5 p6 p7 p8 p9 p10 p11 p12 p13 p14 p15) p6 (fun z => by
    show rowsBuf c p0 p1 p2 p3 p4 p5 p6 p7 p8 p9 p10 p11 p12 p13 p14 p15 (rowM6.view.emb z) = p6 z
    rw [row_emb6 z]; exact (rowsBuf_apply6 c p0 p1 p2 p3 p4 p5 p6 p7 p8 p9 p10 p11 p12 p13 p14 p15 _ _).trans (congrArg p6 (eq_ix2 z).symm))]
  exact sPt_eq6 c _
theorem landed7 (c : Dev nD) (fs : Buf (Elt F) (ℓ c)) (p0 p1 p2 p3 p4 p5 p6 p7 p8 p9 p10 p11 p12 p13 p14 p15 : S1152x128.Idx → Elt F .f32) :
    sPt c rowM7 (rowM7.view.writes (Elt F) fs [⟨Rect.whole S1152x128, p7⟩])
      = (ℓ c ↦[rowSet 7]{fullShare} rowsBuf c p0 p1 p2 p3 p4 p5 p6 p7 p8 p9 p10 p11 p12 p13 p14 p15 : sProp 𝕄) := by
  rw [sPt_landed c rowM7 fs (rowsBuf c p0 p1 p2 p3 p4 p5 p6 p7 p8 p9 p10 p11 p12 p13 p14 p15) p7 (fun z => by
    show rowsBuf c p0 p1 p2 p3 p4 p5 p6 p7 p8 p9 p10 p11 p12 p13 p14 p15 (rowM7.view.emb z) = p7 z
    rw [row_emb7 z]; exact (rowsBuf_apply7 c p0 p1 p2 p3 p4 p5 p6 p7 p8 p9 p10 p11 p12 p13 p14 p15 _ _).trans (congrArg p7 (eq_ix2 z).symm))]
  exact sPt_eq7 c _
theorem landed8 (c : Dev nD) (fs : Buf (Elt F) (ℓ c)) (p0 p1 p2 p3 p4 p5 p6 p7 p8 p9 p10 p11 p12 p13 p14 p15 : S1152x128.Idx → Elt F .f32) :
    sPt c rowM8 (rowM8.view.writes (Elt F) fs [⟨Rect.whole S1152x128, p8⟩])
      = (ℓ c ↦[rowSet 8]{fullShare} rowsBuf c p0 p1 p2 p3 p4 p5 p6 p7 p8 p9 p10 p11 p12 p13 p14 p15 : sProp 𝕄) := by
  rw [sPt_landed c rowM8 fs (rowsBuf c p0 p1 p2 p3 p4 p5 p6 p7 p8 p9 p10 p11 p12 p13 p14 p15) p8 (fun z => by
    show rowsBuf c p0 p1 p2 p3 p4 p5 p6 p7 p8 p9 p10 p11 p12 p13 p14 p15 (rowM8.view.emb z) = p8 z
    rw [row_emb8 z]; exact (rowsBuf_apply8 c p0 p1 p2 p3 p4 p5 p6 p7 p8 p9 p10 p11 p12 p13 p14 p15 _ _).trans (congrArg p8 (eq_ix2 z).symm))]
  exact sPt_eq8 c _
theorem landed9 (c : Dev nD) (fs : Buf (Elt F) (ℓ c)) (p0 p1 p2 p3 p4 p5 p6 p7 p8 p9 p10 p11 p12 p13 p14 p15 : S1152x128.Idx → Elt F .f32) :
    sPt c rowM9 (rowM9.view.writes (Elt F) fs [⟨Rect.whole S1152x128, p9⟩])
      = (ℓ c ↦[rowSet 9]{fullShare} rowsBuf c p0 p1 p2 p3 p4 p5 p6 p7 p8 p9 p10 p11 p12 p13 p14 p15 : sProp 𝕄) := by
  rw [sPt_landed c rowM9 fs (rowsBuf c p0 p1 p2 p3 p4 p5 p6 p7 p8 p9 p10 p11 p12 p13 p14 p15) p9 (fun z => by
    show rowsBuf c p0 p1 p2 p3 p4 p5 p6 p7 p8 p9 p10 p11 p12 p13 p14 p15 (rowM9.view.emb z) = p9 z
    rw [row_emb9 z]; exact (rowsBuf_apply9 c p0 p1 p2 p3 p4 p5 p6 p7 p8 p9 p10 p11 p12 p13 p14 p15 _ _).trans (congrArg p9 (eq_ix2 z).symm))]
  exact sPt_eq9 c _
theorem landed10 (c : Dev nD) (fs : Buf (Elt F) (ℓ c)) (p0 p1 p2 p3 p4 p5 p6 p7 p8 p9 p10 p11 p12 p13 p14 p15 : S1152x128.Idx → Elt F .f32) :
    sPt c rowM10 (rowM10.view.writes (Elt F) fs [⟨Rect.whole S1152x128, p10⟩])
      = (ℓ c ↦[rowSet 10]{fullShare} rowsBuf c p0 p1 p2 p3 p4 p5 p6 p7 p8 p9 p10 p11 p12 p13 p14 p15 : sProp 𝕄) := by
  rw [sPt_landed c rowM10 fs (rowsBuf c p0 p1 p2 p3 p4 p5 p6 p7 p8 p9 p10 p11 p12 p13 p14 p15) p10 (fun z => by
    show rowsBuf c p0 p1 p2 p3 p4 p5 p6 p7 p8 p9 p10 p11 p12 p13 p14 p15 (rowM10.view.emb z) = p10 z
    rw [row_emb10 z]; exact (rowsBuf_apply10 c p0 p1 p2 p3 p4 p5 p6 p7 p8 p9 p10 p11 p12 p13 p14 p15 _ _).trans (congrArg p10 (eq_ix2 z).symm))]
  exact sPt_eq10 c _
theorem landed11 (c : Dev nD) (fs : Buf (Elt F) (ℓ c)) (p0 p1 p2 p3 p4 p5 p6 p7 p8 p9 p10 p11 p12 p13 p14 p15 : S1152x128.Idx → Elt F .f32) :
    sPt c rowM11 (rowM11.view.writes (Elt F) fs [⟨Rect.whole S1152x128, p11⟩])
      = (ℓ c ↦[rowSet 11]{fullShare} rowsBuf c p0 p1 p2 p3 p4 p5 p6 p7 p8 p9 p10 p11 p12 p13 p14 p15 : sProp 𝕄) := by
  rw [sPt_landed c rowM11 fs (rowsBuf c p0 p1 p2 p3 p4 p5 p6 p7 p8 p9 p10 p11 p12 p13 p14 p15) p11 (fun z => by
    show rowsBuf c p0 p1 p2 p3 p4 p5 p6 p7 p8 p9 p10 p11 p12 p13 p14 p15 (rowM11.view.emb z) = p11 z
    rw [row_emb11 z]; exact (rowsBuf_apply11 c p0 p1 p2 p3 p4 p5 p6 p7 p8 p9 p10 p11 p12 p13 p14 p15 _ _).trans (congrArg p11 (eq_ix2 z).symm))]
  exact sPt_eq11 c _
theorem landed12 (c : Dev nD) (fs : Buf (Elt F) (ℓ c)) (p0 p1 p2 p3 p4 p5 p6 p7 p8 p9 p10 p11 p12 p13 p14 p15 : S1152x128.Idx → Elt F .f32) :
    sPt c rowM12 (rowM12.view.writes (Elt F) fs [⟨Rect.whole S1152x128, p12⟩])
      = (ℓ c ↦[rowSet 12]{fullShare} rowsBuf c p0 p1 p2 p3 p4 p5 p6 p7 p8 p9 p10 p11 p12 p13 p14 p15 : sProp 𝕄) := by
  rw [sPt_landed c rowM12 fs (rowsBuf c p0 p1 p2 p3 p4 p5 p6 p7 p8 p9 p10 p11 p12 p13 p14 p15) p12 (fun z => by
    show rowsBuf c p0 p1 p2 p3 p4 p5 p6 p7 p8 p9 p10 p11 p12 p13 p14 p15 (rowM12.view.emb z) = p12 z
    rw [row_emb12 z]; exact (rowsBuf_apply12 c p0 p1 p2 p3 p4 p5 p6 p7 p8 p9 p10 p11 p12 p13 p14 p15 _ _).trans (congrArg p12 (eq_ix2 z).symm))]
  exact sPt_eq12 c _
theorem landed13 (c : Dev nD) (fs : Buf (Elt F) (ℓ c)) (p0 p1 p2 p3 p4 p5 p6 p7 p8 p9 p10 p11 p12 p13 p14 p15 : S1152x128.Idx → Elt F .f32) :
    sPt c rowM13 (rowM13.view.writes (Elt F) fs [⟨Rect.whole S1152x128, p13⟩])
      = (ℓ c ↦[rowSet 13]{fullShare} rowsBuf c p0 p1 p2 p3 p4 p5 p6 p7 p8 p9 p10 p11 p12 p13 p14 p15 : sProp 𝕄) := by
  rw [sPt_landed c rowM13 fs (rowsBuf c p0 p1 p2 p3 p4 p5 p6 p7 p8 p9 p10 p11 p12 p13 p14 p15) p13 (fun z => by
    show rowsBuf c p0 p1 p2 p3 p4 p5 p6 p7 p8 p9 p10 p11 p12 p13 p14 p15 (rowM13.view.emb z) = p13 z
    rw [row_emb13 z]; exact (rowsBuf_apply13 c p0 p1 p2 p3 p4 p5 p6 p7 p8 p9 p10 p11 p12 p13 p14 p15 _ _).trans (congrArg p13 (eq_ix2 z).symm))]
  exact sPt_eq13 c _
theorem landed14 (c : Dev nD) (fs : Buf (Elt F) (ℓ c)) (p0 p1 p2 p3 p4 p5 p6 p7 p8 p9 p10 p11 p12 p13 p14 p15 : S1152x128.Idx → Elt F .f32) :
    sPt c rowM14 (rowM14.view.writes (Elt F) fs [⟨Rect.whole S1152x128, p14⟩])
      = (ℓ c ↦[rowSet 14]{fullShare} rowsBuf c p0 p1 p2 p3 p4 p5 p6 p7 p8 p9 p10 p11 p12 p13 p14 p15 : sProp 𝕄) := by
  rw [sPt_landed c rowM14 fs (rowsBuf c p0 p1 p2 p3 p4 p5 p6 p7 p8 p9 p10 p11 p12 p13 p14 p15) p14 (fun z => by
    show rowsBuf c p0 p1 p2 p3 p4 p5 p6 p7 p8 p9 p10 p11 p12 p13 p14 p15 (rowM14.view.emb z) = p14 z
    rw [row_emb14 z]; exact (rowsBuf_apply14 c p0 p1 p2 p3 p4 p5 p6 p7 p8 p9 p10 p11 p12 p13 p14 p15 _ _).trans (congrArg p14 (eq_ix2 z).symm))]
  exact sPt_eq14 c _
theorem landed15 (c : Dev nD) (fs : Buf (Elt F) (ℓ c)) (p0 p1 p2 p3 p4 p5 p6 p7 p8 p9 p10 p11 p12 p13 p14 p15 : S1152x128.Idx → Elt F .f32) :
    sPt c rowM15 (rowM15.view.writes (Elt F) fs [⟨Rect.whole S1152x128, p15⟩])
      = (ℓ c ↦[rowSet 15]{fullShare} rowsBuf c p0 p1 p2 p3 p4 p5 p6 p7 p8 p9 p10 p11 p12 p13 p14 p15 : sProp 𝕄) := by
  rw [sPt_landed c rowM15 fs (rowsBuf c p0 p1 p2 p3 p4 p5 p6 p7 p8 p9 p10 p11 p12 p13 p14 p15) p15 (fun z => by
    show rowsBuf c p0 p1 p2 p3 p4 p5 p6 p7 p8 p9 p10 p11 p12 p13 p14 p15 (rowM15.view.emb z) = p15 z
    rw [row_emb15 z]; exact (rowsBuf_apply15 c p0 p1 p2 p3 p4 p5 p6 p7 p8 p9 p10 p11 p12 p13 p14 p15 _ _).trans (congrArg p15 (eq_ix2 z).symm))]
  exact sPt_eq15 c _

/-- Sixteen rows, each holding its matrix written whole over the same earlier contents, are the scratch held whole at
    the array of those matrices. -/
theorem rows_landed_join (c : Dev nD) (fs : Buf (Elt F) ((Memref.whole cc0_scratch0).view.loc (c : Thread nD τ))) (p0 p1 p2 p3 p4 p5 p6 p7 p8 p9 p10 p11 p12 p13 p14 p15 : S1152x128.Idx → Elt F .f32) :
    iprop(sPt c rowM0 (rowM0.view.writes (Elt F) fs [⟨Rect.whole S1152x128, p0⟩]) ∗ sPt c rowM1 (rowM1.view.writes (Elt F) fs [⟨Rect.whole S1152x128, p1⟩]) ∗ sPt c rowM2 (rowM2.view.writes (Elt F) fs [⟨Rect.whole S1152x128, p2⟩]) ∗ sPt c rowM3 (rowM3.view.writes (Elt F) fs [⟨Rect.whole S1152x128, p3⟩]) ∗ sPt c rowM4 (rowM4.view.writes (Elt F) fs [⟨Rect.whole S1152x128, p4⟩]) ∗ sPt c rowM5 (rowM5.view.writes (Elt F) fs [⟨Rect.whole S1152x128, p5⟩]) ∗ sPt c rowM6 (rowM6.view.writes (Elt F) fs [⟨Rect.whole S1152x128, p6⟩]) ∗ sPt c rowM7 (rowM7.view.writes (Elt F) fs [⟨Rect.whole S1152x128, p7⟩]) ∗ sPt c rowM8 (rowM8.view.writes (Elt F) fs [⟨Rect.whole S1152x128, p8⟩]) ∗ sPt c rowM9 (rowM9.view.writes (Elt F) fs [⟨Rect.whole S1152x128, p9⟩]) ∗ sPt c rowM10 (rowM10.view.writes (Elt F) fs [⟨Rect.whole S1152x128, p10⟩]) ∗ sPt c rowM11 (rowM11.view.writes (Elt F) fs [⟨Rect.whole S1152x128, p11⟩]) ∗ sPt c rowM12 (rowM12.view.writes (Elt F) fs [⟨Rect.whole S1152x128, p12⟩]) ∗ sPt c rowM13 (rowM13.view.writes (Elt F) fs [⟨Rect.whole S1152x128, p13⟩]) ∗ sPt c rowM14 (rowM14.view.writes (Elt F) fs [⟨Rect.whole S1152x128, p14⟩]) ∗ sPt c rowM15 (rowM15.view.writes (Elt F) fs [⟨Rect.whole S1152x128, p15⟩]))
      ⊢ ((Memref.whole cc0_scratch0).view.loc (c : Thread nD τ) ↦{fullShare} rowsBuf c p0 p1 p2 p3 p4 p5 p6 p7 p8 p9 p10 p11 p12 p13 p14 p15 : sProp 𝕄) := by
  have E1 : (ℓ c ↦{fullShare} rowsBuf c p0 p1 p2 p3 p4 p5 p6 p7 p8 p9 p10 p11 p12 p13 p14 p15 : sProp 𝕄) = iprop((ℓ c ↦[rowSet 0]{fullShare} rowsBuf c p0 p1 p2 p3 p4 p5 p6 p7 p8 p9 p10 p11 p12 p13 p14 p15) ∗ (ℓ c ↦[rowSet 1]{fullShare} rowsBuf c p0 p1 p2 p3 p4 p5 p6 p7 p8 p9 p10 p11 p12 p13 p14 p15) ∗ (ℓ c ↦[rowSet 2]{fullShare} rowsBuf c p0 p1 p2 p3 p4 p5 p6 p7 p8 p9 p10 p11 p12 p13 p14 p15) ∗ (ℓ c ↦[rowSet 3]{fullShare} rowsBuf c p0 p1 p2 p3 p4 p5 p6 p7 p8 p9 p10 p11 p12 p13 p14 p15) ∗ (ℓ c ↦[rowSet 4]{fullShare} rowsBuf c p0 p1 p2 p3 p4 p5 p6 p7 p8 p9 p10 p11 p12 p13 p14 p15) ∗ (ℓ c ↦[rowSet 5]{fullShare} rowsBuf c p0 p1 p2 p3 p4 p5 p6 p7 p8 p9 p10 p11 p12 p13 p14 p15) ∗ (ℓ c ↦[rowSet 6]{fullShare} rowsBuf c p0 p1 p2 p3 p4 p5 p6 p7 p8 p9 p10 p11 p12 p13 p14 p15) ∗ (ℓ c ↦[rowSet 7]{fullShare} rowsBuf c p0 p1 p2 p3 p4 p5 p6 p7 p8 p9 p10 p11 p12 p13 p14 p15) ∗ (ℓ c ↦[rowSet 8]{fullShare} rowsBuf c p0 p1 p2 p3 p4 p5 p6 p7 p8 p9 p10 p11 p12 p13 p14 p15) ∗ (ℓ c ↦[rowSet 9]{fullShare} rowsBuf c p0 p1 p2 p3 p4 p5 p6 p7 p8 p9 p10 p11 p12 p13 p14 p15) ∗ (ℓ c ↦[rowSet 10]{fullShare} rowsBuf c p0 p1 p2 p3 p4 p5 p6 p7 p8 p9 p10 p11 p12 p13 p14 p15) ∗ (ℓ c ↦[rowSet 11]{fullShare} rowsBuf c p0 p1 p2 p3 p4 p5 p6 p7 p8 p9 p10 p11 p12 p13 p14 p15) ∗ (ℓ c ↦[rowSet 12]{fullShare} rowsBuf c p0 p1 p2 p3 p4 p5 p6 p7 p8 p9 p10 p11 p12 p13 p14 p15) ∗ (ℓ c ↦[rowSet 13]{fullShare} rowsBuf c p0 p1 p2 p3 p4 p5 p6 p7 p8 p9 p10 p11 p12 p13 p14 p15) ∗ (ℓ c ↦[rowSet 14]{fullShare} rowsBuf c p0 p1 p2 p3 p4 p5 p6 p7 p8 p9 p10 p11 p12 p13 p14 p15) ∗ (ℓ c ↦[rowSet 15]{fullShare} rowsBuf c p0 p1 p2 p3 p4 p5 p6 p7 p8 p9 p10 p11 p12 p13 p14 p15)) :=
    (Ring.pointsTo_blocks (ℓ := ℓ c) rowSet rows_disjoint rows_cover (rowsBuf c p0 p1 p2 p3 p4 p5 p6 p7 p8 p9 p10 p11 p12 p13 p14 p15)).trans
      (bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) _)
  have E2 : (iprop(sPt c rowM0 (rowM0.view.writes (Elt F) fs [⟨Rect.whole S1152x128, p0⟩]) ∗ sPt c rowM1 (rowM1.view.writes (Elt F) fs [⟨Rect.whole S1152x128, p1⟩]) ∗ sPt c rowM2 (rowM2.view.writes (Elt F) fs [⟨Rect.whole S1152x128, p2⟩]) ∗ sPt c rowM3 (rowM3.view.writes (Elt F) fs [⟨Rect.whole S1152x128, p3⟩]) ∗ sPt c rowM4 (rowM4.view.writes (Elt F) fs [⟨Rect.whole S1152x128, p4⟩]) ∗ sPt c rowM5 (rowM5.view.writes (Elt F) fs [⟨Rect.whole S1152x128, p5⟩]) ∗ sPt c rowM6 (rowM6.view.writes (Elt F) fs [⟨Rect.whole S1152x128, p6⟩]) ∗ sPt c rowM7 (rowM7.view.writes (Elt F) fs [⟨Rect.whole S1152x128, p7⟩]) ∗ sPt c rowM8 (rowM8.view.writes (Elt F) fs [⟨Rect.whole S1152x128, p8⟩]) ∗ sPt c rowM9 (rowM9.view.writes (Elt F) fs [⟨Rect.whole S1152x128, p9⟩]) ∗ sPt c rowM10 (rowM10.view.writes (Elt F) fs [⟨Rect.whole S1152x128, p10⟩]) ∗ sPt c rowM11 (rowM11.view.writes (Elt F) fs [⟨Rect.whole S1152x128, p11⟩]) ∗ sPt c rowM12 (rowM12.view.writes (Elt F) fs [⟨Rect.whole S1152x128, p12⟩]) ∗ sPt c rowM13 (rowM13.view.writes (Elt F) fs [⟨Rect.whole S1152x128, p13⟩]) ∗ sPt c rowM14 (rowM14.view.writes (Elt F) fs [⟨Rect.whole S1152x128, p14⟩]) ∗ sPt c rowM15 (rowM15.view.writes (Elt F) fs [⟨Rect.whole S1152x128, p15⟩])) : sProp 𝕄) = iprop((ℓ c ↦[rowSet 0]{fullShare} rowsBuf c p0 p1 p2 p3 p4 p5 p6 p7 p8 p9 p10 p11 p12 p13 p14 p15) ∗ (ℓ c ↦[rowSet 1]{fullShare} rowsBuf c p0 p1 p2 p3 p4 p5 p6 p7 p8 p9 p10 p11 p12 p13 p14 p15) ∗ (ℓ c ↦[rowSet 2]{fullShare} rowsBuf c p0 p1 p2 p3 p4 p5 p6 p7 p8 p9 p10 p11 p12 p13 p14 p15) ∗ (ℓ c ↦[rowSet 3]{fullShare} rowsBuf c p0 p1 p2 p3 p4 p5 p6 p7 p8 p9 p10 p11 p12 p13 p14 p15) ∗ (ℓ c ↦[rowSet 4]{fullShare} rowsBuf c p0 p1 p2 p3 p4 p5 p6 p7 p8 p9 p10 p11 p12 p13 p14 p15) ∗ (ℓ c ↦[rowSet 5]{fullShare} rowsBuf c p0 p1 p2 p3 p4 p5 p6 p7 p8 p9 p10 p11 p12 p13 p14 p15) ∗ (ℓ c ↦[rowSet 6]{fullShare} rowsBuf c p0 p1 p2 p3 p4 p5 p6 p7 p8 p9 p10 p11 p12 p13 p14 p15) ∗ (ℓ c ↦[rowSet 7]{fullShare} rowsBuf c p0 p1 p2 p3 p4 p5 p6 p7 p8 p9 p10 p11 p12 p13 p14 p15) ∗ (ℓ c ↦[rowSet 8]{fullShare} rowsBuf c p0 p1 p2 p3 p4 p5 p6 p7 p8 p9 p10 p11 p12 p13 p14 p15) ∗ (ℓ c ↦[rowSet 9]{fullShare} rowsBuf c p0 p1 p2 p3 p4 p5 p6 p7 p8 p9 p10 p11 p12 p13 p14 p15) ∗ (ℓ c ↦[rowSet 10]{fullShare} rowsBuf c p0 p1 p2 p3 p4 p5 p6 p7 p8 p9 p10 p11 p12 p13 p14 p15) ∗ (ℓ c ↦[rowSet 11]{fullShare} rowsBuf c p0 p1 p2 p3 p4 p5 p6 p7 p8 p9 p10 p11 p12 p13 p14 p15) ∗ (ℓ c ↦[rowSet 12]{fullShare} rowsBuf c p0 p1 p2 p3 p4 p5 p6 p7 p8 p9 p10 p11 p12 p13 p14 p15) ∗ (ℓ c ↦[rowSet 13]{fullShare} rowsBuf c p0 p1 p2 p3 p4 p5 p6 p7 p8 p9 p10 p11 p12 p13 p14 p15) ∗ (ℓ c ↦[rowSet 14]{fullShare} rowsBuf c p0 p1 p2 p3 p4 p5 p6 p7 p8 p9 p10 p11 p12 p13 p14 p15) ∗ (ℓ c ↦[rowSet 15]{fullShare} rowsBuf c p0 p1 p2 p3 p4 p5 p6 p7 p8 p9 p10 p11 p12 p13 p14 p15)) :=
    sep_congr (landed0 c fs p0 p1 p2 p3 p4 p5 p6 p7 p8 p9 p10 p11 p12 p13 p14 p15) (sep_congr (landed1 c fs p0 p1 p2 p3 p4 p5 p6 p7 p8 p9 p10 p11 p12 p13 p14 p15) (sep_congr (landed2 c fs p0 p1 p2 p3 p4 p5 p6 p7 p8 p9 p10 p11 p12 p13 p14 p15) (sep_congr (landed3 c fs p0 p1 p2 p3 p4 p5 p6 p7 p8 p9 p10 p11 p12 p13 p14 p15) (sep_congr (landed4 c fs p0 p1 p2 p3 p4 p5 p6 p7 p8 p9 p10 p11 p12 p13 p14 p15) (sep_congr (landed5 c fs p0 p1 p2 p3 p4 p5 p6 p7 p8 p9 p10 p11 p12 p13 p14 p15) (sep_congr (landed6 c fs p0 p1 p2 p3 p4 p5 p6 p7 p8 p9 p10 p11 p12 p13 p14 p15) (sep_congr (landed7 c fs p0 p1 p2 p3 p4 p5 p6 p7 p8 p9 p10 p11 p12 p13 p14 p15) (sep_congr (landed8 c fs p0 p1 p2 p3 p4 p5 p6 p7 p8 p9 p10 p11 p12 p13 p14 p15) (sep_congr (landed9 c fs p0 p1 p2 p3 p4 p5 p6 p7 p8 p9 p10 p11 p12 p13 p14 p15) (sep_congr (landed10 c fs p0 p1 p2 p3 p4 p5 p6 p7 p8 p9 p10 p11 p12 p13 p14 p15) (sep_congr (landed11 c fs p0 p1 p2 p3 p4 p5 p6 p7 p8 p9 p10 p11 p12 p13 p14 p15) (sep_congr (landed12 c fs p0 p1 p2 p3 p4 p5 p6 p7 p8 p9 p10 p11 p12 p13 p14 p15) (sep_congr (landed13 c fs p0 p1 p2 p3 p4 p5 p6 p7 p8 p9 p10 p11 p12 p13 p14 p15) (sep_congr (landed14 c fs p0 p1 p2 p3 p4 p5 p6 p7 p8 p9 p10 p11 p12 p13 p14 p15) (landed15 c fs p0 p1 p2 p3 p4 p5 p6 p7 p8 p9 p10 p11 p12 p13 p14 p15)))))))))))))))
  exact entails_of_eq (E2.trans E1.symm)

end Cert.Proof.KernelIdealRows

end
-- ==== Proof.KernelIdealBody.lean ====
/-
  The kernel body at one grid point, run once at symbolic operands.

  At point i the body reads the sixteen index words y[16 i + r] from the table, starts, for each r, a copy of row
  y[16 i + r] of the weight array (a 1152 x 128 matrix) into row r of its scratch, each copy on a cell of its own, then
  waits for the sixteen copies, loads the staged block of x (16 x 64 x 1152) and the whole scratch (16 x 1152 x 128),
  rounds both to bf16, multiplies them batch entry by batch entry, and stores the 16 x 64 x 128 product into the
  output's staging buffer. The copies read the weight array at rows the words choose, and two of the words may be
  equal: the array is therefore held as one read share per cell, each copy borrowing its row from its own cell's
  share. The scratch is held row by row while the copies fly — each copy takes the row it fills and its wait gives it
  back with the payload landed —, and the sixteen landed rows are put together again, as ONE contents function whose row
  r is copy r's payload, before the body loads the scratch whole. Every word is assumed to index a row of the weight
  array (`TblOK`): that is what makes each copy's source a slice of the array.
  `kernelRun` is the body's triple, the pieces the output's buffer ends with found by the run.
-/
import proofs.«417661_j25847113187694_2_alg».proof.Proof.KernelIdealRows
import proofs.«417661_j25847113187694_2_alg».proof.Proof.Gen.KernelIdeal.Skeleton
import Idealize.ShloMosaic.Lib.Transfers
import Idealize.ShloMosaic.Lib.Writes
import Idealize.ShloMosaic.Lib.Pipeline.FrameBody
import Idealize.ShloMosaic.Lib.Pipeline.Frame
import Idealize.ShloMosaic.Lib.Tactic

set_option maxRecDepth 16384

noncomputable section

namespace Cert.Proof.KernelIdealBody

open Cert.KernelIdeal Cert.KernelIdeal.Gen Cert.Proof.KernelIdealRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A memref's buffer on core `c`. -/
abbrev Bf (c : Dev nD) {sp : Space} {S : Shape} {e : EltTy} (M : Memref sig .tc sp S e) : Type := Buf (Elt F) (M.view.loc (c : Thread nD τ))
/-- The weight array at the read share of cell `k`. -/
abbrev wTok (c : Dev nD) (k : Fin 20) (f : Bf (F := F) c (Memref.whole main_arg2)) : sProp 𝕄 :=
  (Memref.whole main_arg2).view.loc (c : Thread nD τ) ↦{Transfers.shareTok fullShare 20 k} f
/-- The index table, whole. -/
abbrev tPt (c : Dev nD) (f : Bf (F := F) c (Memref.whole main_arg1)) : sProp 𝕄 :=
  (Memref.whole main_arg1).view.loc (c : Thread nD τ) ↦{fullShare} f

/-- Every word of the table, read unsigned, indexes a row of the weight array. -/
def TblOK (c : Dev nD) (tbl : Bf (F := F) c (Memref.whole main_arg1)) : Prop := ∀ j, BitVec.toNat (tbl j) < 1000

/-- A word below 1000 names a row of the weight array: the row's slice lies inside the array. -/
theorem chk_of (v : BitVec 32) (h : v.toNat < 1000) :
    ∀ a : Fin 3, (![v.toNat, 0, 0] : Fin 3 → Nat) a + S1x1152x128.size a ≤ S1000x1152x128.size a := fun a =>
  match a with
  | ⟨0, _⟩ => by show v.toNat + 1 ≤ 1000; omega
  | ⟨1, _⟩ => by show 0 + 1152 ≤ 1152; omega
  | ⟨2, _⟩ => by show 0 + 128 ≤ 128; omega

set_option maxHeartbeats 40000000 in
/-- The pieces the body's store leaves in the output's staging buffer, with the proof that from whole staging buffers —
    the input's at its block, the output's and the scratch at anything —, the sixteen cells at zero, the weight array's
    sixteen read shares, the table and the core's `owes`, the body runs to the continuation holding all of them again, the
    output's buffer with those pieces written. -/
noncomputable def kernelRun (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec F S16x64x1152 .f32) (fw : Bf (F := F) c (Memref.whole main_arg2)) (tbl : Bf (F := F) c (Memref.whole main_arg1))
    (hall : TblOK c tbl) :
    { L : List (View.Piece (Elt F) S16x64x128 .f32) //
      ∀ (W : Waits sig Unit) (K : PUnit → sProp 𝕄),
    iprop(owns (c : Thread nD τ) arg2 fullShare x0 ∗ (∃ d, owns (c : Thread nD τ) arg4 fullShare d)
        ∗ (∃ f, (Memref.whole cc0_scratch0).view.loc (c : Thread nD τ) ↦{fullShare} f)
        ∗ semVal ((c : Thread nD τ), SemLoc.dma ((4 : DmaSem sig))) 0 ∗ semVal ((c : Thread nD τ), SemLoc.dma ((5 : DmaSem sig))) 0 ∗ semVal ((c : Thread nD τ), SemLoc.dma ((6 : DmaSem sig))) 0 ∗ semVal ((c : Thread nD τ), SemLoc.dma ((7 : DmaSem sig))) 0 ∗ semVal ((c : Thread nD τ), SemLoc.dma ((8 : DmaSem sig))) 0 ∗ semVal ((c : Thread nD τ), SemLoc.dma ((9 : DmaSem sig))) 0 ∗ semVal ((c : Thread nD τ), SemLoc.dma ((10 : DmaSem sig))) 0 ∗ semVal ((c : Thread nD τ), SemLoc.dma ((11 : DmaSem sig))) 0 ∗ semVal ((c : Thread nD τ), SemLoc.dma ((12 : DmaSem sig))) 0 ∗ semVal ((c : Thread nD τ), SemLoc.dma ((13 : DmaSem sig))) 0 ∗ semVal ((c : Thread nD τ), SemLoc.dma ((14 : DmaSem sig))) 0 ∗ semVal ((c : Thread nD τ), SemLoc.dma ((15 : DmaSem sig))) 0 ∗ semVal ((c : Thread nD τ), SemLoc.dma ((16 : DmaSem sig))) 0 ∗ semVal ((c : Thread nD τ), SemLoc.dma ((17 : DmaSem sig))) 0 ∗ semVal ((c : Thread nD τ), SemLoc.dma ((18 : DmaSem sig))) 0 ∗ semVal ((c : Thread nD τ), SemLoc.dma ((19 : DmaSem sig))) 0
        ∗ wTok c (4 : Fin 20) fw ∗ wTok c (5 : Fin 20) fw ∗ wTok c (6 : Fin 20) fw ∗ wTok c (7 : Fin 20) fw ∗ wTok c (8 : Fin 20) fw ∗ wTok c (9 : Fin 20) fw ∗ wTok c (10 : Fin 20) fw ∗ wTok c (11 : Fin 20) fw ∗ wTok c (12 : Fin 20) fw ∗ wTok c (13 : Fin 20) fw ∗ wTok c (14 : Fin 20) fw ∗ wTok c (15 : Fin 20) fw ∗ wTok c (16 : Fin 20) fw ∗ wTok c (17 : Fin 20) fw ∗ wTok c (18 : Fin 20) fw ∗ wTok c (19 : Fin 20) fw
        ∗ tPt c tbl ∗ owes (c : Thread nD τ) 0 W
        ∗ (iprop(owns (c : Thread nD τ) arg2 fullShare x0 ∗ (∃ f, arg4.view.loc (c : Thread nD τ) ↦[arg4.view.set]{fullShare} arg4.view.writes (Elt F) f L)
            ∗ (∃ f, (Memref.whole cc0_scratch0).view.loc (c : Thread nD τ) ↦{fullShare} f)
            ∗ semVal ((c : Thread nD τ), SemLoc.dma ((4 : DmaSem sig))) 0 ∗ semVal ((c : Thread nD τ), SemLoc.dma ((5 : DmaSem sig))) 0 ∗ semVal ((c : Thread nD τ), SemLoc.dma ((6 : DmaSem sig))) 0 ∗ semVal ((c : Thread nD τ), SemLoc.dma ((7 : DmaSem sig))) 0 ∗ semVal ((c : Thread nD τ), SemLoc.dma ((8 : DmaSem sig))) 0 ∗ semVal ((c : Thread nD τ), SemLoc.dma ((9 : DmaSem sig))) 0 ∗ semVal ((c : Thread nD τ), SemLoc.dma ((10 : DmaSem sig))) 0 ∗ semVal ((c : Thread nD τ), SemLoc.dma ((11 : DmaSem sig))) 0 ∗ semVal ((c : Thread nD τ), SemLoc.dma ((12 : DmaSem sig))) 0 ∗ semVal ((c : Thread nD τ), SemLoc.dma ((13 : DmaSem sig))) 0 ∗ semVal ((c : Thread nD τ), SemLoc.dma ((14 : DmaSem sig))) 0 ∗ semVal ((c : Thread nD τ), SemLoc.dma ((15 : DmaSem sig))) 0 ∗ semVal ((c : Thread nD τ), SemLoc.dma ((16 : DmaSem sig))) 0 ∗ semVal ((c : Thread nD τ), SemLoc.dma ((17 : DmaSem sig))) 0 ∗ semVal ((c : Thread nD τ), SemLoc.dma ((18 : DmaSem sig))) 0 ∗ semVal ((c : Thread nD τ), SemLoc.dma ((19 : DmaSem sig))) 0
            ∗ wTok c (4 : Fin 20) fw ∗ wTok c (5 : Fin 20) fw ∗ wTok c (6 : Fin 20) fw ∗ wTok c (7 : Fin 20) fw ∗ wTok c (8 : Fin 20) fw ∗ wTok c (9 : Fin 20) fw ∗ wTok c (10 : Fin 20) fw ∗ wTok c (11 : Fin 20) fw ∗ wTok c (12 : Fin 20) fw ∗ wTok c (13 : Fin 20) fw ∗ wTok c (14 : Fin 20) fw ∗ wTok c (15 : Fin 20) fw ∗ wTok c (16 : Fin 20) fw ∗ wTok c (17 : Fin 20) fw ∗ wTok c (18 : Fin 20) fw ∗ wTok c (19 : Fin 20) fw
            ∗ tPt c tbl ∗ (∃ W', owes (c : Thread nD τ) 0 W')) -∗ K ⟨⟩))
      ⊢ wp frame (wpE (defs₀ (F := F)) Variants.none c none) Set.univ
          (cc0__moe_kernel i (Memref.whole main_arg1) (Memref.isWhole_whole _) arg2 harg2 (Memref.whole main_arg2) (Memref.isWhole_whole _) arg4 harg4 (Memref.whole cc0_scratch0) (Memref.isWhole_whole _) cc0_scratch1) K } := by
  refine ⟨?_, fun W K => ?run⟩
  case run =>
    simp only [cc0__moe_kernel_eq_skeleton]; unfold cc0__moe_kernel_skel
    unfold owns
    iintro ⟨⟨%f0, %hf0, H0⟩, ⟨%d1, %f1, -, H1⟩, ⟨%fs0, HS0⟩, Hq0, Hq1, Hq2, Hq3, Hq4, Hq5, Hq6, Hq7, Hq8, Hq9, Hq10, Hq11, Hq12, Hq13, Hq14, Hq15, Hw0, Hw1, Hw2, Hw3, Hw4, Hw5, Hw6, Hw7, Hw8, Hw9, Hw10, Hw11, Hw12, Hw13, Hw14, Hw15, Ht, HW, Hk⟩
    obtain rfl := harg2.eq_unread hf0
    ihave HR := (rows_split c fs0) $$ HS0
    icases HR with ⟨Hs0, Hs1, Hs2, Hs3, Hs4, Hs5, Hs6, Hs7, Hs8, Hs9, Hs10, Hs11, Hs12, Hs13, Hs14, Hs15⟩
    sl_exec (disch := exact chk_of _ (hall _))
    ihave HS0 := (rows_landed_join c fs0 _ _ _ _ _ _ _ _ _ _ _ _ _ _ _ _) $$ [Hs0 Hs1 Hs2 Hs3 Hs4 Hs5 Hs6 Hs7 Hs8 Hs9 Hs10 Hs11 Hs12 Hs13 Hs14 Hs15]
    ·
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      iexact Hs15
    sl_exec
    sl_step
    iapply Hk
    isplitl [H0]
    · iexists _; isplitr; · ipureintro; exact harg2.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Ht]; · iexact Ht
    iexists _; iexact HW

end Cert.Proof.KernelIdealBody

end
-- ==== Proof.KernelIdealBodyOut.lean ====
/-
  What the body leaves in the output's staging buffer: the pieces its run found tile the block, so the buffer reads
  them back whatever it held before.
-/
import proofs.«417661_j25847113187694_2_alg».proof.Proof.KernelIdealBody

set_option maxRecDepth 16384

noncomputable section

namespace Cert.Proof.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One staging buffer of the output window, through which its contents are stated. -/
abbrev VO : View sig .tc .vmem S16x64x128 .f32 := (Memref.whole cc0_stg1_0 : Memref sig .tc .vmem S16x64x128 .f32).view

/-- The run's pieces tile the output block: every entry of the block is written. -/
theorem cover (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec F S16x64x1152 .f32) (fw : Bf (F := F) c (Memref.whole main_arg2)) (tbl : Bf (F := F) c (Memref.whole main_arg1))
    (hall : TblOK c tbl) (y : S16x64x128.Idx) :
    ∃ pc ∈ (kernelRun c i arg2 harg2 arg4 harg4 x0 fw tbl hall).1, y ∈ pc.1.set :=
  View.cover_of_tiledL (kernelRun c i arg2 harg2 arg4 harg4 x0 fw tbl hall).1 S16x64x128.size (by sl_kernel_rfl) y

/-- What the body leaves in the output's staging buffer: its pieces read back. -/
def outOf (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec F S16x64x1152 .f32) (fw : Bf (F := F) c (Memref.whole main_arg2)) (tbl : Bf (F := F) c (Memref.whole main_arg1))
    (hall : TblOK c tbl) : Vec F S16x64x128 .f32 :=
  VO.read (Elt F) (VO.writes (Elt F) VO.junk (kernelRun c i arg2 harg2 arg4 harg4 x0 fw tbl hall).1)

end Cert.Proof.KernelIdealBody

end
-- ==== Proof.KernelIdealRun.lean ====
/-
  @main of the kernel's program, run from launch to return.

  @main is ONE kernel region — a pipeline over a grid of 64 points with the index table y prefetched, the input x
  staged block by block (16 rows of x a point), the result staged back block by block, the weight array left where
  it is and copied row by row by the body — followed by twelve host lines that gather the bias rows by the same
  table, broadcast them over the middle axis and add them to the region's result. Here: the invariant the body keeps
  between points (its scratch, its sixteen cells at zero, the weight array split into read shares, the table), the
  pipeline's proof data (each input block as fetched, each output block as the body's run leaves it), the body
  obligation at a generic point, and the launch: the region entered from the launch's buffers and left with the two
  windows' arrays at what the pipeline computes and every other buffer as it was, then the host lines over those
  contents. `run_main`: under the hypothesis that every table word indexes a row of the weight array, every weakly
  fair execution terminates, nothing faults, and the final memory holds at the result and at the four arguments what
  the host lines leave from the region's exit contents.
-/
import proofs.«417661_j25847113187694_2_alg».proof.Proof.KernelIdealBodyOut
import Idealize.ShloMosaic.Lib.Pipeline.FrameSuffix
import Idealize.ShloMosaic.Lib.Pipeline.Regions

set_option maxRecDepth 16384

noncomputable section

namespace Cert.Proof.KernelIdealRun

open Cert.KernelIdeal Cert.KernelIdeal.Gen Cert.Proof.KernelIdealBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The region's contents at entry, the table, the blocks -/

variable (m : (ℓ : Loc nD τ sig) → Buf (Elt F) ℓ) (ρ : Dev nD → PrngReg)

abbrev V₀ (c : Dev nD) : Valuation τ sig (Elt F) := fun b => (s₀ m ρ).mem ((c : Dev nD), b)
abbrev V (c : Dev nD) (b : Ref sig .tc) : Buf (Elt F) ((c : Thread nD τ).loc b) := m ((c : Thread nD τ).loc b)

/-- The table's words as the region reads them at entry. -/
def pf : pre0.Contents (Elt F) := fun k => match k with
  | ⟨0, _⟩ => m (((0 : Dev nD) : Thread nD τ).loc main_arg1)
  | ⟨_ + 1, h⟩ => absurd h (Nat.not_lt.2 (Nat.le_add_left _ _))

def adm : (p : Fin 1) → (pcfgs (F := F) p).Adm := fun _ => ⟨pf m, True.intro⟩

abbrev cfgA : Pipeline.Cfg sig Λ₀ := cfg0 (adm m 0)

variable (hpre : ∀ c : Dev nD, TblOK c (V m c main_arg1))

def iblk (c : Dev nD) (t : Fin (cfgA m).N) : (((cfgA m).win 0).xblock ((cfgA m).grid.coords t)).Idx → Elt F ((cfgA m).win 0).elt :=
  (((cfgA m).win 0).blk t).view.read (Elt F) (V m c (Pipeline.arrRef spec0 0))

abbrev ms0 (t : Fin (cfgA m).N) : Memref sig .tc .vmem S16x64x1152 .f32 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S16x64x128 .f32 := spec0_1.stage ((cfgA m).slots t 1)
abbrev hs1 (t : Fin (cfgA m).N) : (ms1 m t).IsWhole := hstage0_1 (((cfgA m).slots t 1).cast nbuf0_1)

def outAt (c : Dev nD) (t : Fin (cfgA m).N) : Vec F S16x64x128 .f32 :=
  outOf c (grid0.coords t) (ms0 m t) (hs0 m t) (ms1 m t) (hs1 m t) (iblk m c t) (V m c main_arg2) (V m c main_arg1) (hpre c)

-- what a point leaves is only ever compared by name, never by unfolding the body's run
attribute [irreducible] outAt

/-! ## The invariant and the proof data -/

/-- The kernel's sixteen DMA cells at zero. -/
abbrev sems16 (c : Dev nD) : sProp 𝕄 := iprop(semVal ((c : Thread nD τ), SemLoc.dma ((4 : DmaSem sig))) 0 ∗ semVal ((c : Thread nD τ), SemLoc.dma ((5 : DmaSem sig))) 0 ∗ semVal ((c : Thread nD τ), SemLoc.dma ((6 : DmaSem sig))) 0 ∗ semVal ((c : Thread nD τ), SemLoc.dma ((7 : DmaSem sig))) 0 ∗ semVal ((c : Thread nD τ), SemLoc.dma ((8 : DmaSem sig))) 0 ∗ semVal ((c : Thread nD τ), SemLoc.dma ((9 : DmaSem sig))) 0 ∗ semVal ((c : Thread nD τ), SemLoc.dma ((10 : DmaSem sig))) 0 ∗ semVal ((c : Thread nD τ), SemLoc.dma ((11 : DmaSem sig))) 0 ∗ semVal ((c : Thread nD τ), SemLoc.dma ((12 : DmaSem sig))) 0 ∗ semVal ((c : Thread nD τ), SemLoc.dma ((13 : DmaSem sig))) 0 ∗ semVal ((c : Thread nD τ), SemLoc.dma ((14 : DmaSem sig))) 0 ∗ semVal ((c : Thread nD τ), SemLoc.dma ((15 : DmaSem sig))) 0 ∗ semVal ((c : Thread nD τ), SemLoc.dma ((16 : DmaSem sig))) 0 ∗ semVal ((c : Thread nD τ), SemLoc.dma ((17 : DmaSem sig))) 0 ∗ semVal ((c : Thread nD τ), SemLoc.dma ((18 : DmaSem sig))) 0 ∗ semVal ((c : Thread nD τ), SemLoc.dma ((19 : DmaSem sig))) 0)

/-- The weight array split into its read tokens and the remainder. -/
abbrev wSplit (c : Dev nD) (fw : Bf (F := F) c (Memref.whole main_arg2)) : sProp 𝕄 :=
  iprop(((Memref.whole main_arg2).view.loc (c : Thread nD τ) ↦{Transfers.shareDrop fullShare 20} fw)
    ∗ bigSep Finset.univ (fun i : Fin 20 => wTok c i fw))

theorem toks_chain (c : Dev nD) (fw : Bf (F := F) c (Memref.whole main_arg2)) :
    (bigSep Finset.univ (fun i : Fin 20 => wTok c i fw) : sProp 𝕄) = iprop(wTok c (0 : Fin 20) fw ∗ wTok c (1 : Fin 20) fw ∗ wTok c (2 : Fin 20) fw ∗ wTok c (3 : Fin 20) fw ∗ wTok c (4 : Fin 20) fw ∗ wTok c (5 : Fin 20) fw ∗ wTok c (6 : Fin 20) fw ∗ wTok c (7 : Fin 20) fw ∗ wTok c (8 : Fin 20) fw ∗ wTok c (9 : Fin 20) fw ∗ wTok c (10 : Fin 20) fw ∗ wTok c (11 : Fin 20) fw ∗ wTok c (12 : Fin 20) fw ∗ wTok c (13 : Fin 20) fw ∗ wTok c (14 : Fin 20) fw ∗ wTok c (15 : Fin 20) fw ∗ wTok c (16 : Fin 20) fw ∗ wTok c (17 : Fin 20) fw ∗ wTok c (18 : Fin 20) fw ∗ wTok c (19 : Fin 20) fw) :=
  bigSep_univ_eq_bigSepL [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)] (by decide) (by decide) _

/-- Between points: the scratch at something, the cells at zero, the weight array split, the table whole. -/
def Φc (c : Dev nD) : sProp 𝕄 :=
  iprop((∃ f, (Memref.whole cc0_scratch0).view.loc (c : Thread nD τ) ↦{fullShare} f) ∗ sems16 c ∗ wSplit c (V m c main_arg2) ∗ tPt c (V m c main_arg1))

def dats (_ : Fin 1) (c : Dev nD) : Dat τ (Elt F) Unit ℕ (Pipeline.UD sig nD τ) ℕ (cfgA m) c where
  A w := V m c (Pipeline.arrRef spec0 w)
  after w t := match w with
    | ⟨0, _⟩ => iblk m c t
    | ⟨1, _⟩ => outAt m hpre c t
  Φ _ := Φc m c
  q _ := fullShare
  owed _ := 0

theorem A_eq (c : Dev nD) (w : Fin (cfgA m).W) : (dats m hpre 0 c).A w = V m c (Pipeline.arrRef spec0 w) := by
  dsimp only [dats]
theorem after_0 (c : Dev nD) (t : Fin (cfgA m).N) : (dats m hpre 0 c).after 0 t = iblk m c t := rfl
theorem after_1 (c : Dev nD) (t : Fin (cfgA m).N) : (dats m hpre 0 c).after 1 t = outAt m hpre c t := rfl

theorem before_0 (c : Dev nD) (t : Fin (cfgA m).N) (d) : (dats m hpre 0 c).before 0 t d = iblk m c t :=
  ((dats m hpre 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The kernel function as the pipeline calls it at point `t`. -/
abbrev bodyAt (t : Fin (cfgA m).N) : Prog (TpuEff nD τ sig (Elt F) Λ₀ .tc) PUnit :=
  cc0__moe_kernel (grid0.coords t) (Memref.whole main_arg1) (Memref.isWhole_whole _) (ms0 m t) (hs0 m t) (Memref.whole main_arg2) (Memref.isWhole_whole _) (ms1 m t) (hs1 m t) (Memref.whole cc0_scratch0) (Memref.isWhole_whole _) cc0_scratch1

def bodyPre (c : Dev nD) (t : Fin (cfgA m).N) : sProp 𝕄 :=
  iprop((dats m hpre 0 c).Φ t.castSucc ∗ (dats m hpre 0 c).owesAt () t.castSucc
    ∗ (∃ d, owns (c : Thread nD τ) (ms0 m t) fullShare ((dats m hpre 0 c).before 0 t d))
    ∗ (∃ d, owns (c : Thread nD τ) (ms1 m t) fullShare ((dats m hpre 0 c).before 1 t d)))

def bodyPost (c : Dev nD) (t : Fin (cfgA m).N) : sProp 𝕄 :=
  iprop((dats m hpre 0 c).Φ t.succ ∗ (dats m hpre 0 c).owesAt () t.succ
    ∗ owns (c : Thread nD τ) (ms0 m t) fullShare ((dats m hpre 0 c).after 0 t)
    ∗ owns (c : Thread nD τ) (ms1 m t) fullShare ((dats m hpre 0 c).after 1 t))

theorem body_obligation_of (c : Dev nD)
    (h : ∀ t, bodyPre m hpre c t ⊢ wp frame (wpE (defs₀ (F := F)) Variants.none c none) Set.univ (bodyAt m t) (fun _ => bodyPost m hpre c t)) :
    BodyObligation (dats (F := F) m hpre 0 c) (defs₀ (F := F)) Variants.none () Set.univ := fun t => by
  rw [bigSep_W0, bigSep_W0]
  exact h t

set_option maxHeartbeats 2000000 in
theorem sound_body (c : Dev nD) (t : Fin (cfgA m).N) :
    bodyPre m hpre c t ⊢ wp frame (wpE (defs₀ (F := F)) Variants.none c none) Set.univ (bodyAt m t) (fun _ => bodyPost m hpre c t) := by
  unfold bodyPre bodyPost bodyAt
  simp only [before_0]
  rw [show (dats m hpre 0 c).Φ t.succ = Φc m c from rfl, show (dats m hpre 0 c).Φ t.castSucc = Φc m c from rfl, after_0, after_1]
  unfold Φc Dat.owesAt Pipeline.owesWithin
  rw [show (dats m hpre 0 c).owed t.castSucc = 0 from rfl, show (dats m hpre 0 c).owed t.succ = 0 from rfl]
  unfold outAt outOf
  dsimp only [sems16, wSplit]
  rw [toks_chain]
  iintro ⟨⟨HS0, ⟨Hq0, Hq1, Hq2, Hq3, Hq4, Hq5, Hq6, Hq7, Hq8, Hq9, Hq10, Hq11, Hq12, Hq13, Hq14, Hq15⟩, ⟨Hwr, Hw0, Hw1, Hw2, Hw3, Hw4, Hw5, Hw6, Hw7, Hw8, Hw9, Hw10, Hw11, Hw12, Hw13, Hw14, Hw15, Hw16, Hw17, Hw18, Hw19⟩, Ht⟩, ⟨%W, -, HW⟩, ⟨%d0, H0⟩, ⟨%d1, H1⟩⟩
  iapply ((kernelRun c (grid0.coords t) _ _ _ _ (iblk m c t) (V m c main_arg2) (V m c main_arg1) (hpre c)).2 W _)
  isplitl [H0]; · iexact H0
  isplitl [H1]; · iexists _; iexact H1
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hw16]; · iexact Hw16
  isplitl [Hw17]; · iexact Hw17
  isplitl [Hw18]; · iexact Hw18
  isplitl [Hw19]; · iexact Hw19
  isplitl [Ht]; · iexact Ht
  isplitl [HW]; · iexact HW
  iintro ⟨H0, ⟨%e1, H1⟩, HS0, Hq0, Hq1, Hq2, Hq3, Hq4, Hq5, Hq6, Hq7, Hq8, Hq9, Hq10, Hq11, Hq12, Hq13, Hq14, Hq15, Hw4, Hw5, Hw6, Hw7, Hw8, Hw9, Hw10, Hw11, Hw12, Hw13, Hw14, Hw15, Hw16, Hw17, Hw18, Hw19, Ht, ⟨%W', HW'⟩⟩
  isplitl [HS0 Hq0 Hq1 Hq2 Hq3 Hq4 Hq5 Hq6 Hq7 Hq8 Hq9 Hq10 Hq11 Hq12 Hq13 Hq14 Hq15 Hwr Hw0 Hw1 Hw2 Hw3 Hw4 Hw5 Hw6 Hw7 Hw8 Hw9 Hw10 Hw11 Hw12 Hw13 Hw14 Hw15 Hw16 Hw17 Hw18 Hw19 Ht]
  · isplitl [HS0]; · iexact HS0
    isplitl [Hq0 Hq1 Hq2 Hq3 Hq4 Hq5 Hq6 Hq7 Hq8 Hq9 Hq10 Hq11 Hq12 Hq13 Hq14 Hq15]
    ·
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hwr Hw0 Hw1 Hw2 Hw3 Hw4 Hw5 Hw6 Hw7 Hw8 Hw9 Hw10 Hw11 Hw12 Hw13 Hw14 Hw15 Hw16 Hw17 Hw18 Hw19]
    · isplitl [Hwr]; · iexact Hwr
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      isplitl [Hw8]; · iexact Hw8
      isplitl [Hw9]; · iexact Hw9
      isplitl [Hw10]; · iexact Hw10
      isplitl [Hw11]; · iexact Hw11
      isplitl [Hw12]; · iexact Hw12
      isplitl [Hw13]; · iexact Hw13
      isplitl [Hw14]; · iexact Hw14
      isplitl [Hw15]; · iexact Hw15
      isplitl [Hw16]; · iexact Hw16
      isplitl [Hw17]; · iexact Hw17
      isplitl [Hw18]; · iexact Hw18
      iexact Hw19
    iexact Ht
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover c _ _ _ _ _ _ _ _ _)

theorem body_obligation (c : Dev nD) : BodyObligation (dats (F := F) m hpre 0 c) (defs₀ (F := F)) Variants.none () Set.univ :=
  body_obligation_of m hpre c (sound_body m hpre c)

/-! ## The launch: @main as the region followed by the host lines -/

abbrev pt (c : Dev nD) (b : Ref sig .tc) (f : Buf (Elt F) ((c : Thread nD τ).loc b)) : sProp 𝕄 := ((c : Thread nD τ).loc b) ↦{fullShare} f

/-- The kernel's own cells. -/
abbrev osem : Fin 16 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 16 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄) = sems16 c := by
  rw [Pipeline.ownSems0_eq_of_list c osem [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide)]; rfl

/-- The unscoped buffers that are no window's array, the table among them, listed. -/
theorem unscopedRest_eq (c : Dev nD) (Vv : (b : Ref sig .tc) → Buf (Elt F) ((c : Thread nD τ).loc b)) :
    (Pipeline.unscopedRest (Ix := Unit) (Name := ℕ) (U := Pipeline.UD sig nD τ) (Lvl := ℕ) spec0 c Vv : sProp 𝕄)
      = iprop(pt c main_arg1 (Vv main_arg1) ∗ pt c main_arg2 (Vv main_arg2) ∗ pt c main_arg3 (Vv main_arg3) ∗ pt c main_c (Vv main_c) ∗ pt c main_v1 (Vv main_v1) ∗ pt c main_v2 (Vv main_v2) ∗ pt c main_c_0 (Vv main_c_0) ∗ pt c main_v3 (Vv main_v3) ∗ pt c main_v4 (Vv main_v4) ∗ pt c main_v5 (Vv main_v5) ∗ pt c main_v6 (Vv main_v6) ∗ pt c main_v7 (Vv main_v7) ∗ pt c main_v8 (Vv main_v8) ∗ pt c main_v9 (Vv main_v9) ∗ pt c main_v10 (Vv main_v10)) :=
  Pipeline.unscopedRest_eq_of_list spec0 c Vv [main_arg1, main_arg2, main_arg3, main_c, main_v1, main_v2, main_c_0, main_v3, main_v4, main_v5, main_v6, main_v7, main_v8, main_v9, main_v10] (by decide) (by decide)

/-- The table as the pipeline holds it. -/
theorem prefHeld_eq (c : Dev nD) (q : PosShare TreeShare) :
    (Pipeline.prefHeld (Ix := Unit) (Name := ℕ) (U := Pipeline.UD sig nD τ) (Lvl := ℕ) pre0 c (fun _ => q) (adm m 0).1 : sProp 𝕄)
      = (((c : Thread nD τ).loc main_arg1) ↦{q} V m c main_arg1) := by
  obtain rfl : c = 0 := Subsingleton.elim _ _
  unfold Pipeline.prefHeld
  rw [bigSep_univ_eq_bigSepL [(0 : Fin 1)] (by decide) (by decide)]
  rfl

abbrev L : GSem nD τ sig → Finset Unit := fun _ => ∅
abbrev lv : GSem nD τ sig → Unit → ℕ := fun _ _ => 0
abbrev EP : Emb (UR sig nD τ) (MT nD τ sig Unit (Elt F) ℕ (Pipeline.UD sig nD τ) ℕ) := embL
abbrev R (c : Dev nD) : sProp 𝕄 := iprop(∃ W, owes (c : Thread nD τ) (0 : CellTallies nD τ sig Unit) W)

/-- The arrays after the run, as the library computes them. -/
abbrev finalA (c : Dev nD) (w : Fin (cfgA m).W) : Buf (Elt F) (((cfgA m).win w).arr.view.loc (c : Thread nD τ)) := (dats m hpre 0 c).arrAt w (cfgA m).N

/-- The core's buffers when the region is left: its arrays at their final contents, every other buffer as launched. -/
def Vx (c : Dev nD) : Valuation τ sig (Elt F) := Pipeline.withArrays spec0 c (V₀ m ρ c) (finalA m hpre c)

theorem Vx_arr (c : Dev nD) (w : Fin 2) : Vx m ρ hpre c (Proc.devRef .tc (Pipeline.arrRef spec0 w)) = finalA m hpre c w :=
  Pipeline.withArrays_arr spec0 (launch0 (F := F)).win.arr_inj c _ _ w
theorem Vx_rest (c : Dev nD) (b : Ref sig .tc) (hb : ∀ w, Pipeline.arrRef spec0 w ≠ b) : Vx m ρ hpre c (Proc.devRef .tc b) = V m c b :=
  Pipeline.withArrays_of_ne spec0 c _ _ b hb

/-- What bypasses the region. -/
abbrev Zc (c : Dev nD) : sProp 𝕄 := iprop(pt c main_arg3 (V m c main_arg3) ∗ pt c main_c (V m c main_c) ∗ pt c main_v1 (V m c main_v1) ∗ pt c main_v2 (V m c main_v2) ∗ pt c main_c_0 (V m c main_c_0) ∗ pt c main_v3 (V m c main_v3) ∗ pt c main_v4 (V m c main_v4) ∗ pt c main_v5 (V m c main_v5) ∗ pt c main_v6 (V m c main_v6) ∗ pt c main_v7 (V m c main_v7) ∗ pt c main_v8 (V m c main_v8) ∗ pt c main_v9 (V m c main_v9) ∗ pt c main_v10 (V m c main_v10))

/-- Leaving the region: the arrays at their final contents and every other unscoped buffer as launched are the unscoped buffers at `Vx`. -/
theorem held_exit (c : Dev nD) :
    iprop((dats m hpre 0 c).arrays (finalA m hpre c) ∗ pt c main_arg1 (V m c main_arg1) ∗ pt c main_arg2 (V m c main_arg2) ∗ Zc m c)
      ⊢ (StableHlo.held (c : Thread nD τ) (Pipeline.ucRefs τ sig) (Vx m ρ hpre c) : sProp 𝕄) := by
  rw [← Pipeline.unscopedBufs_held c (Vx m ρ hpre c),
    Pipeline.unscopedBufs_split (Pipeline.pin (pcfgs (F := F)) (adm m)) 0 (launch0 (F := F)).win.arr_unscoped (launch0 (F := F)).win.arr_inj c,
    unscopedRest_eq,
    Pipeline.arrays_eq (Pipeline.pin (pcfgs (F := F)) (adm m)) (dats m hpre) 0 c (launch0 (F := F)).arr_whole ((dats m hpre 0 c).share_full fun _ => rfl)]
  refine sep_mono (Entails.of_eq (bigSep_congr fun w _ => by rw [Vx_arr])) (Entails.of_eq ?_)
  rw [Vx_rest m ρ hpre c main_arg1 (by decide), Vx_rest m ρ hpre c main_arg2 (by decide), Vx_rest m ρ hpre c main_arg3 (by decide), Vx_rest m ρ hpre c main_c (by decide), Vx_rest m ρ hpre c main_v1 (by decide), Vx_rest m ρ hpre c main_v2 (by decide), Vx_rest m ρ hpre c main_c_0 (by decide), Vx_rest m ρ hpre c main_v3 (by decide), Vx_rest m ρ hpre c main_v4 (by decide), Vx_rest m ρ hpre c main_v5 (by decide), Vx_rest m ρ hpre c main_v6 (by decide), Vx_rest m ρ hpre c main_v7 (by decide), Vx_rest m ρ hpre c main_v8 (by decide), Vx_rest m ρ hpre c main_v9 (by decide), Vx_rest m ρ hpre c main_v10 (by decide)]

/-- THE HOST LINES after the region, over the unscoped buffers as the region leaves them. -/
def seg1 : Pipeline.HostSeg (Name := ℕ) (U := Pipeline.UD sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m ρ hpre) R

set_option backward.isDefEq.respectTransparency.types false in
/-- THE REGION: entered from the launch's buffers — the two windows' arrays into the pipeline, the table to the pipeline and
    back, the weight array and the kernel's cells into the invariant, the rest bypassing —, left with the arrays at their
    final contents and every other buffer as it was. -/
def reg0 : Pipeline.RegionSeg (pcfgs (F := F)) (adm m) (dats m hpre) () defs₀ Variants.none L lv 0 where
  win := (launch0 (F := F)).win.to₀
  block_pos := (launch0 (F := F)).block_pos
  stage_whole := (launch0 (F := F)).stage_whole
  K := Fin 16
  osem := osem
  ho := ownSemFacts
  hbody c := (body_obligation m hpre c).loose
  hwaits := Pipeline.hwaits_of_owed_zero _ _ _ _ L lv 0 fun _ _ => rfl
  pre c := iprop(StableHlo.held (c : Thread nD τ) (Pipeline.ucRefs τ sig) (V₀ m ρ c) ∗ R c)
  post c := iprop(StableHlo.held (c : Thread nD τ) (Pipeline.ucRefs τ sig) (Vx m ρ hpre c) ∗ R c)
  X c := iprop(pt c main_arg2 (V m c main_arg2) ∗ sems16 c)
  Y c := iprop(pt c main_arg1 (V m c main_arg1) ∗ pt c main_arg2 (V m c main_arg2))
  Z c := Zc m c
  hentry c := by
    rw [show StableHlo.held (c : Thread nD τ) (Pipeline.ucRefs τ sig) (V₀ m ρ c) = unscopedBufs c (V m c) from (Pipeline.unscopedBufs_held c _).symm,
      ownSems0_eq, prefHeld_eq]
    have hsplit := (Pipeline.arrays_of_unscopedBufs (pcfgs (F := F)) (adm m) (dats m hpre) (launch0 (F := F)).win (launch0 (F := F)).arr_whole c
      ((dats m hpre 0 c).share_full fun _ => rfl) (V m c) fun _ => rfl).trans (sep_mono .rfl (Entails.of_eq (unscopedRest_eq c (V m c))))
    iintro ⟨⟨Hub, HO⟩, Hos, -⟩
    ihave H := hsplit $$ Hub
    icases H with ⟨Ha, H1, H2, Hz0, Hz1, Hz2, Hz3, Hz4, Hz5, Hz6, Hz7, Hz8, Hz9, Hz10, Hz11, Hz12⟩
    imodintro
    isplitl [Ha]; · iexact Ha
    isplitl [H1]; · iexact H1
    isplitl [HO]
    · unfold Pipeline.Dat.owesAt Pipeline.owesWithin
      icases HO with ⟨%W, HO⟩; iexists W; isplitr; · ipureintro; exact fun _ _ => Or.inl trivial
      iexact HO
    isplitl [H2 Hos]
    · isplitl [H2]; · iexact H2
      iexact Hos
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    iexact Hz12
  hin c := by
    rw [show (dats m hpre 0 c).Φ 0 = Φc m c from rfl, prefHeld_eq, scopedRest0_eq]; unfold Φc
    dsimp only [wSplit]
    iintro ⟨⟨H2, Hos⟩, H1, Hs⟩
    ihave H2' := (Transfers.pointsTo_toks_split (Ix := Unit) (Name := ℕ) (U := Pipeline.UD sig nD τ) (Lvl := ℕ) fullShare 20) $$ H2
    isplitl [Hs]; · iexact Hs
    isplitl [Hos]; · iexact Hos
    isplitl [H2']; · iexact H2'
    iexact H1
  hout c := by
    rw [ownSems0_eq, show (dats m hpre 0 c).Φ (Fin.last (cfgA m).N) = Φc m c from rfl, scopedRest0_eq]; unfold Φc
    dsimp only [wSplit]
    iintro ⟨Hs, Hos, H2', H1⟩
    ihave H2 := (Transfers.pointsTo_toks_join (Ix := Unit) (Name := ℕ) (U := Pipeline.UD sig nD τ) (Lvl := ℕ) fullShare 20) $$ H2'
    isplitl [H1 H2]
    · isplitl [H1]; · iexact H1
      iexact H2
    isplitl [Hos]; · iexact Hos
    iexact Hs
  hexit c := by
    iintro ⟨Ha, HO, ⟨H1, H2⟩, HZ⟩
    imodintro
    isplitr [HO]
    · iapply (held_exit m ρ hpre c)
      isplitl [Ha]; · iexact Ha
      isplitl [H1]; · iexact H1
      isplitl [H2]; · iexact H2
      iexact HZ
    · unfold Pipeline.Dat.owesAt Pipeline.owesWithin
      icases HO with ⟨%W, -, HO⟩; iexists W; iexact HO

/-- @main as the list of the two. -/
abbrev segs : List (Pipeline.Seg (pcfgs (F := F)) (adm m) (dats m hpre) () defs₀ Variants.none L lv) := [.region (reg0 m ρ hpre), .host (seg1 m ρ hpre)]

/-- The launch element: the pipeline library's at the staging cells; no counter yet. -/
def u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

/-- What the last thread state holds of the buffers the claims read. -/
def QYc (c : Dev nD) (s : MemSt nD τ sig (Elt F)) : Prop :=
  ∀ b : Ref sig .tc, (b = main_v10 ∨ b = main_arg0 ∨ b = main_arg1 ∨ b = main_arg2 ∨ b = main_arg3) →
    s.mem ((c : Thread nD τ).loc b) = StableHlo.after (hostOps1 (F := F)) (Vx m ρ hpre c) (Proc.devRef .tc b)

def QC : PUnit × MemSt nD τ sig (Elt F) → Prop := fun r => ∀ c : Dev nD, QYc m ρ hpre c r.2

theorem mem_ucRefs (b : Ref sig .tc) (hb : b = main_v10 ∨ b = main_arg0 ∨ b = main_arg1 ∨ b = main_arg2 ∨ b = main_arg3) :
    Proc.devRef (τ := τ) .tc b ∈ Pipeline.ucRefs τ sig := by
  rcases hb with rfl | rfl | rfl | rfl | rfl <;> decide

set_option backward.isDefEq.respectTransparency.types false in
/-- At the compiled mesh, from any memory with zero counters whose table words index the weight array: every weakly fair
    execution of @main terminates, nothing faulting, and every final state holds, at the result and at the four arguments,
    what the host lines leave from the region's exit contents. -/
theorem run_main : θ_run defs (onTc (τ := τ) (main (F := F))) (s₀ m ρ) (QC m ρ hpre) :=
  Pipeline.θ_run_regions_kit (pcfgs (F := F)) (adm m) (dats m hpre) () (cellOf_inj (adm m)) EP defs₀ Variants.none L lv m ρ main (segs m ρ hpre)
    (fun c Q => by rw [main_segs (adm m) (dats m hpre) () Variants.none L lv (seg1 m ρ hpre) (reg0 m ρ hpre) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (Vx m ρ hpre c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := QYc m ρ hpre)
    (hfin := fun c s' => by
      unfold StableHlo.held
      iintro ⟨Hh, HSI⟩
      ihave Hr := (pointsTo_read_all (Pipeline.ucRefs τ sig) (fun b => ((c : Thread nD τ).1, b)) (fun b => StableHlo.after (hostOps1 (F := F)) (Vx m ρ hpre c) b) s') $$ [Hh HSI]
      · isplitl [Hh]; · iexact Hh
        iexact HSI
      icases Hr with ⟨%ha, HSI⟩
      imodintro
      isplitr; · ipureintro; exact fun b hb => ha _ (mem_ucRefs b hb)
      iexact HSI)
    (hQ := fun _ h => h)

end Cert.Proof.KernelIdealRun

end
-- ==== Proof.KernelIdealTail.lean ====
/-
  What the twelve host operations after the kernel region compute. From the index table and the bias array they
  build the bias rows gathered by the (wrapped) indices and broadcast over the middle axis, and add that array to
  the kernel's result; they write none of the four arguments nor the kernel's result array.
-/
import proofs.«417661_j25847113187694_2_alg».proof.Proof.Gen.KernelIdeal.Launch
import Idealize.ShloMosaic.Lib.StableHlo.Run

noncomputable section

namespace Cert.Proof.KernelIdealTail

open Cert.KernelIdeal Cert.KernelIdeal.Gen Idealize.ShloMosaic Idealize.ShloMosaic.TcCoe Idealize.SL.Sem Idealize.ShloMosaic.StableHlo

variable {F : FTy → Type} [FloatOps F]

/-- The bias rows gathered by the index table and broadcast over the middle axis, as ONE function of the table and
    the bias array: exactly the printed chain main_c .. main_v9. -/
def biasB (x1 : IVec S1024 32) (x3 : FVec F S1000x128 .f32) : FVec F S1024x64x128 .f32 :=
  broadcastInDim S1024x64x128 ![0, 1, 2] Facts₀.bcast_S1024x1x128_S1024x64x128_0_1_2 (broadcastInDim S1024x1x128 ![0, 2] Facts₀.bcast_S1024x128_S1024x1x128_0_2 (Host.gather gather_S1000x128_S1024x1_S1024x128_1_0_n_n_0_1_1128 x3 (broadcastInDim S1024x1 ![0] Facts₀.bcast_S1024_S1024x1_0 (select (cmpi .slt x1 (broadcastInDim S1024 ![] Facts₀.bcast_S_S1024 (constantI S_ 32 0#32))) (addi x1 (broadcastInDim S1024 ![] Facts₀.bcast_S_S1024 (constantI S_ 32 1000#32))) x1))))

/-- After the twelve operations the last result buffer holds the kernel's result array plus the broadcast bias rows. -/
theorem tail_result (W : Valuation τ sig (Elt F)) :
    StableHlo.after (hostOps1 (F := F)) W (Proc.devRef .tc main_v10)
      = addf (W (Proc.devRef .tc main_v0)) (biasB (W (Proc.devRef .tc main_arg1)) (W (Proc.devRef .tc main_arg3))) := by
  unfold biasB
  after_results <;> rfl

/-- The twelve operations write none of the four arguments nor the kernel's result array. -/
theorem tail_keeps (W : Valuation τ sig (Elt F)) (b : Ref sig .tc)
    (hb : b = main_arg0 ∨ b = main_arg1 ∨ b = main_arg2 ∨ b = main_arg3 ∨ b = main_v0) :
    StableHlo.after (hostOps1 (F := F)) W (Proc.devRef .tc b) = W (Proc.devRef .tc b) := by
  rcases hb with rfl | rfl | rfl | rfl | rfl <;> (after_results <;> rfl)

end Cert.Proof.KernelIdealTail

end
-- ==== Proof.KernelIdealFrame.lean ====
/-
  The program's frame: under the hypothesis that every table word indexes a row of the weight array, every weakly
  fair execution of @main terminates, nothing faults, and the four argument arrays end as they were launched.
  The input x is a window of the pipeline, which only reads it: its array holds at every point what it held at
  entry. The table, the weight array and the bias bypass the region or come back from it unchanged, and none of the
  twelve host lines after the region writes any of the four.
-/
import proofs.«417661_j25847113187694_2_alg».proof.Proof.KernelIdealRun
import proofs.«417661_j25847113187694_2_alg».proof.Proof.KernelIdealTail

noncomputable section

namespace Cert.Proof.KernelIdealFrame

open Cert.KernelIdeal Cert.KernelIdeal.Gen Cert.Proof.KernelIdealBody Cert.Proof.KernelIdealRun Cert.Proof.KernelIdealTail
open Idealize.ShloMosaic Idealize.ShloMosaic.TcCoe Idealize.SL.Sem

variable {F : FTy → Type} [FloatOps F]
variable (m : (ℓ : Loc nD τ sig) → Buf (Elt F) ℓ) (ρ : Dev nD → PrngReg) (hpre : ∀ c : Dev nD, TblOK c (V m c main_arg1))

/-- After the host lines each argument holds what it held at launch. -/
theorem arg_kept (c : Dev nD) (b : Ref sig .tc) (hb : b = main_arg0 ∨ b = main_arg1 ∨ b = main_arg2 ∨ b = main_arg3) :
    StableHlo.after (hostOps1 (F := F)) (Vx m ρ hpre c) (Proc.devRef .tc b) = m ((c : Thread nD τ).loc b) := by
  rw [tail_keeps _ b (by rcases hb with h | h | h | h <;> simp [h])]
  rcases hb with rfl | rfl | rfl | rfl
  · exact (Vx_arr m ρ hpre c 0).trans ((dats m hpre 0 c).arrAt_in 0 rfl _)
  · exact Vx_rest m ρ hpre c main_arg1 (by decide)
  · exact Vx_rest m ρ hpre c main_arg2 (by decide)
  · exact Vx_rest m ρ hpre c main_arg3 (by decide)

include hpre in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_arg0 (Or.inr (Or.inl rfl))).trans (arg_kept m ρ hpre c main_arg0 (Or.inl rfl)),
     (h c main_arg1 (Or.inr (Or.inr (Or.inl rfl)))).trans (arg_kept m ρ hpre c main_arg1 (Or.inr (Or.inl rfl))),
     (h c main_arg2 (Or.inr (Or.inr (Or.inr (Or.inl rfl))))).trans (arg_kept m ρ hpre c main_arg2 (Or.inr (Or.inr (Or.inl rfl)))),
     (h c main_arg3 (Or.inr (Or.inr (Or.inr (Or.inr rfl))))).trans (arg_kept m ρ hpre c main_arg3 (Or.inr (Or.inr (Or.inr rfl))))⟩)
    (run_main m ρ hpre)

end Cert.Proof.KernelIdealFrame

end
-- ==== Proof.KernelIdealGeom.lean ====
import proofs.«417661_j25847113187694_2_alg».proof.Proof.Gen.KernelIdeal.Launch
import Idealize.ShloMosaic.Lib.Pipeline.Value
import Idealize.ShloMosaic.Lib.Pipeline.Frame
import Idealize.ShloMosaic.Lib.ValueIdx

noncomputable section

namespace Cert.Proof.KernelIdealGeom

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F] (a : (pcfg0 (F := F)).Adm) (c : Dev nD)

/-! ## The index maps over the grid -/

/-- The input window's block index at a point: the point itself on the row axis, zero on the others. -/
theorem idx_in : ∀ t : Fin grid0.N, cc0_transform_0 (grid0.coords t) (0 : Fin 3) = t.val
    ∧ cc0_transform_0 (grid0.coords t) (1 : Fin 3) = 0 ∧ cc0_transform_0 (grid0.coords t) (2 : Fin 3) = 0 :=
  (by decide +kernel : ∀ t : Fin grid0.N, _)

/-- The result window's block index at a point: the point itself on the row axis, zero on the others. -/
theorem idx_out : ∀ t : Fin grid0.N, cc0_transform_2 (grid0.coords t) (0 : Fin 3) = t.val
    ∧ cc0_transform_2 (grid0.coords t) (1 : Fin 3) = 0 ∧ cc0_transform_2 (grid0.coords t) (2 : Fin 3) = 0 :=
  (by decide +kernel : ∀ t : Fin grid0.N, _)

/-- Every point writes its result block back: the block index changes at every step. -/
theorem flush_out_grid : ∀ t : Fin grid0.N, Pipeline.Window.flushOf grid0 true cc0_transform_2 t = true :=
  (by decide +kernel : ∀ t : Fin grid0.N, _)

/-- Whatever the table holds, the input window's index map is the printed one. -/
theorem win_in_index (t : Fin (cfg0 a).N) : (win0 a 0).index t = cc0_transform_0 (grid0.coords t) := rfl

/-- Whatever the table holds, the result window's index map is the printed one. -/
theorem win_out_index (t : Fin (cfg0 a).N) : (win0 a 1).index t = cc0_transform_2 (grid0.coords t) := rfl

/-- Whatever the table holds, the result window is written back at every point. -/
theorem flush_out (t : Fin (cfg0 a).N) : ((cfg0 a).win 1).flush t = true := flush_out_grid t

/-- The grid has 64 points. -/
theorem N_eq : (cfg0 a).N = 64 := N_0

/-- A point of the grid is below 64. -/
theorem point_lt (t : Fin (cfg0 a).N) : t.val < 64 := lt_of_lt_of_eq t.isLt N_0

/-- Row 16 t + b of block t is a row of the array. -/
theorem row_lt (t : Fin (cfg0 a).N) (b : Fin 16) : 16 * t.val + b.val < 1024 := by
  have := point_lt a t; have := b.isLt; omega

/-- The block holding row B is a point of the grid. -/
theorem div_lt (B : Fin 1024) : B.val / 16 < (cfg0 a).N := by
  rw [N_eq]; have := B.isLt; omega

/-- Row B's place inside its block is below the block's height. -/
theorem mod_lt (B : Fin 1024) : B.val % 16 < 16 := Nat.mod_lt _ (by decide)

/-! ## The input window -/

/-- Block t of the input array is the array at rows 16 t + b. -/
theorem in_block (A0 : FVec F S1024x64x1152 .f32) (t : Fin (cfg0 a).N) (b : Fin 16) (n : Fin 64) (k : Fin 1152) :
    (((cfg0 a).win 0).blk t).view.read (Elt F) A0 (ix3 b n k) = A0 (ix3 ⟨16 * t.val + b.val, row_lt a t b⟩ n k) := by
  show A0 ((((cfg0 a).win 0).blk t).view.emb (ix3 b n k)) = _
  refine congrArg A0 (funext fun d => Fin.ext ?_)
  obtain ⟨e0, e1, e2⟩ := idx_in t
  match d with
  | ⟨0, _⟩ => show (win0 a 0).index t (0 : Fin 3) * 16 + 1 * b.val = 16 * t.val + b.val; rw [win_in_index, e0]; omega
  | ⟨1, _⟩ => show (win0 a 0).index t (1 : Fin 3) * 64 + 1 * n.val = n.val; rw [win_in_index, e1]; omega
  | ⟨2, _⟩ => show (win0 a 0).index t (2 : Fin 3) * 1152 + 1 * k.val = k.val; rw [win_in_index, e2]; omega

/-! ## The result window -/

/-- An index of the result array is in point t's block iff each coordinate is in the block's range on its axis. -/
theorem mem_blk_out (t : Fin (cfg0 a).N) (i : S1024x64x128.Idx) :
    i ∈ (((cfg0 a).win 1).blk t).view.set ↔ ∀ d : Fin 3, (win0 a 1).index t d * S16x64x128.size d ≤ (i d).val ∧ (i d).val < (win0 a 1).index t d * S16x64x128.size d + S16x64x128.size d := by
  show i ∈ ((View.whole main_v0).slice ((win0 a 1).rect t)).set ↔ _
  rw [View.set_slice_whole, Rect.mem_set_unit]
  exact Iff.rfl

/-- Where an element of point t's result block sits in the array. -/
theorem emb_out (t : Fin (cfg0 a).N) (j : S16x64x128.Idx) :
    ((((cfg0 a).win 1).blk t).view.emb j (0 : Fin 3)).val = 16 * t.val + (j 0).val
    ∧ ((((cfg0 a).win 1).blk t).view.emb j (1 : Fin 3)).val = (j 1).val
    ∧ ((((cfg0 a).win 1).blk t).view.emb j (2 : Fin 3)).val = (j 2).val := by
  obtain ⟨e0, e1, e2⟩ := idx_out t
  refine ⟨?_, ?_, ?_⟩
  · show (win0 a 1).index t (0 : Fin 3) * 16 + 1 * (j 0).val = _; rw [win_out_index, e0]; omega
  · show (win0 a 1).index t (1 : Fin 3) * 64 + 1 * (j 1).val = _; rw [win_out_index, e1]; omega
  · show (win0 a 1).index t (2 : Fin 3) * 128 + 1 * (j 2).val = _; rw [win_out_index, e2]; omega

variable {a c}

/-- What a point left in its block, read at equal points and equal indices. -/
theorem after_congr (dat : Pipeline.Dat τ (Elt F) Unit ℕ (Pipeline.UD sig nD τ) ℕ (cfg0 a) c) {t t' : Fin (cfg0 a).N}
    {x x' : S16x64x128.Idx} (ht : t = t') (hx : x = x') : dat.after 1 t x = dat.after 1 t' x' := by
  subst ht; subst hx; rfl

/-- The result array as one function of what the points left: row B from point B / 16 at row B % 16 of its block. -/
def outFn (dat : Pipeline.Dat τ (Elt F) Unit ℕ (Pipeline.UD sig nD τ) ℕ (cfg0 a) c) : S1024x64x128.Idx → Elt F .f32 :=
  fun i => dat.after 1 ⟨(i 0).val / 16, div_lt a ⟨(i 0).val, (i 0).isLt⟩⟩
    (ix3 (⟨(i 0).val % 16, mod_lt ⟨(i 0).val, (i 0).isLt⟩⟩ : Fin 16) (⟨(i 1).val, (i 1).isLt⟩ : Fin 64) (⟨(i 2).val, (i 2).isLt⟩ : Fin 128) : S16x64x128.Idx)

/-- What point t writes back is block t of that function. -/
theorem flushed_out (dat : Pipeline.Dat τ (Elt F) Unit ℕ (Pipeline.UD sig nD τ) ℕ (cfg0 a) c) (t : Fin (cfg0 a).N) :
    dat.flushed 1 t = (((cfg0 a).win 1).blk t).view.read (Elt F) (outFn dat) := by
  refine funext fun (j : S16x64x128.Idx) => ?_
  show dat.after 1 t (j : S16x64x128.Idx) = outFn dat ((((cfg0 a).win 1).blk t).view.emb j)
  obtain ⟨h0, h1, h2⟩ := emb_out a t j
  have hj : (j 0).val < 16 := (j 0).isLt
  unfold outFn
  refine after_congr dat (Fin.ext ?_) (funext fun d => Fin.ext ?_)
  · show t.val = ((((cfg0 a).win 1).blk t).view.emb j (0 : Fin 3)).val / 16
    rw [h0]; omega
  · match d with
    | ⟨0, _⟩ => show (j 0).val = ((((cfg0 a).win 1).blk t).view.emb j (0 : Fin 3)).val % 16; rw [h0]; omega
    | ⟨1, _⟩ => show (j 1).val = ((((cfg0 a).win 1).blk t).view.emb j (1 : Fin 3)).val; rw [h1]
    | ⟨2, _⟩ => show (j 2).val = ((((cfg0 a).win 1).blk t).view.emb j (2 : Fin 3)).val; rw [h2]

/-- After all 64 points the result array holds, at row B, what point B / 16 left in its block at row B % 16. -/
theorem out_array (dat : Pipeline.Dat τ (Elt F) Unit ℕ (Pipeline.UD sig nD τ) ℕ (cfg0 a) c) (B : Fin 1024) (n : Fin 64) (o : Fin 128) :
    dat.arrAt 1 (cfg0 a).N (ix3 B n o) = dat.after 1 ⟨B.val / 16, div_lt a B⟩ (ix3 ⟨B.val % 16, mod_lt B⟩ n o) := by
  have hmem : (ix3 B n o : S1024x64x128.Idx) ∈ (((cfg0 a).win 1).blk ⟨B.val / 16, div_lt a B⟩).view.set := by
    rw [mem_blk_out]
    obtain ⟨e0, e1, e2⟩ := idx_out (⟨B.val / 16, div_lt a B⟩ : Fin (cfg0 a).N)
    have hB := B.isLt
    have hn := n.isLt
    have ho := o.isLt
    intro d
    match d with
    | ⟨0, _⟩ => show (win0 a 1).index ⟨B.val / 16, div_lt a B⟩ (0 : Fin 3) * 16 ≤ B.val ∧ B.val < (win0 a 1).index ⟨B.val / 16, div_lt a B⟩ (0 : Fin 3) * 16 + 16; rw [win_out_index, e0]; show B.val / 16 * 16 ≤ B.val ∧ B.val < B.val / 16 * 16 + 16; omega
    | ⟨1, _⟩ => show (win0 a 1).index ⟨B.val / 16, div_lt a B⟩ (1 : Fin 3) * 64 ≤ n.val ∧ n.val < (win0 a 1).index ⟨B.val / 16, div_lt a B⟩ (1 : Fin 3) * 64 + 64; rw [win_out_index, e1]; omega
    | ⟨2, _⟩ => show (win0 a 1).index ⟨B.val / 16, div_lt a B⟩ (2 : Fin 3) * 128 ≤ o.val ∧ o.val < (win0 a 1).index ⟨B.val / 16, div_lt a B⟩ (2 : Fin 3) * 128 + 128; rw [win_out_index, e2]; omega
  exact dat.arrAt_apply_of_mem 1 (outFn dat) (fun t _ => flushed_out dat t) (cfg0 a).N ⟨B.val / 16, div_lt a B⟩ (ix3 B n o)
    (div_lt a B) (flush_out a _) hmem

end Cert.Proof.KernelIdealGeom
-- ==== Proof.KernelIdealWords.lean ====
/-
  Two families of reading lemmas about the kernel body. (A) At grid point i the body's r-th table load reads the
  index table at position 16·i + r. (B) The r-th copy's source, the unit slice of the weight array at row v
  squeezed to a rectangle, reads at (k, o) the weight array at (v, k, o).
-/
import proofs.«417661_j25847113187694_2_alg».proof.Proof.Gen.KernelIdeal.Launch
import Idealize.ShloMosaic.Lib.ValueIdx

noncomputable section

namespace Cert.Proof.KernelIdealWords

open Cert.KernelIdeal Cert.KernelIdeal.Gen Idealize.ShloMosaic Idealize.ShloMosaic.TcCoe Idealize.SL.Sem Idealize.ShloMosaic.ValueIdx

variable {F : FTy → Type} [FloatOps F]

/-! ## (A) The word -/

/-- Sixteen consecutive positions from 16·i, for i below 64, lie in the table of 1024 words. -/
theorem pos_lt (i : grid0.Coords) (r : Nat) (hr : r < 16) : 16 * (i 0).val + r < 1024 := by
  have h : (i 0).val < 64 := (i 0).isLt
  omega

/-- A unit load of the whole table at offset p reads the table at p. -/
theorem word_at (c : Dev nD) (tbl : Buf (Elt F) ((Memref.whole main_arg1).view.loc (c : Thread nD τ)))
    (off : Fin 1 → Nat) (inb : ∀ a, off a + S1.size a ≤ S1024.size a)
    (h1 : 0 < (Rect.unit (s := S1024) off S1.size inb).toLoadRect.shape.numel) (p : Nat) (hp : p < 1024) (hoff : off 0 = p) :
    (Memref.whole main_arg1).view.readAt (Elt F) (Rect.unit (s := S1024) off S1.size inb).toLoadRect tbl (Shape.Idx.first h1)
      = tbl (ix1 ⟨p, hp⟩) := by
  show tbl ((Rect.unit (s := S1024) off S1.size inb).toLoadRect.idx (Shape.Idx.first h1)) = _
  refine congrArg tbl (funext fun a => ?_)
  match a with
  | ⟨0, _⟩ =>
    apply Fin.ext
    show off 0 + 1 * 0 = p
    omega

/-- Load 0 at grid point i reads the table at position 16·i + 0. -/
theorem word_0 (c : Dev nD) (i : grid0.Coords) (tbl : Buf (Elt F) ((Memref.whole main_arg1).view.loc (c : Thread nD τ)))
    (h1 : 0 < (Rect.unit (s := S1024) (k0_off1 i) S1.size (Facts₀.k0_off1_inb i)).toLoadRect.shape.numel) :
    (Memref.whole main_arg1).view.readAt (Elt F) (Rect.unit (s := S1024) (k0_off1 i) S1.size (Facts₀.k0_off1_inb i)).toLoadRect tbl (Shape.Idx.first h1)
      = tbl (ix1 ⟨16 * (i 0).val + 0, pos_lt i 0 (by decide)⟩) :=
  word_at c tbl _ _ h1 _ _ (congrFun (k0_off1_eq i) 0)

/-- Load 1 at grid point i reads the table at position 16·i + 1. -/
theorem word_1 (c : Dev nD) (i : grid0.Coords) (tbl : Buf (Elt F) ((Memref.whole main_arg1).view.loc (c : Thread nD τ)))
    (h1 : 0 < (Rect.unit (s := S1024) (k0_off3 i) S1.size (Facts₀.k0_off3_inb i)).toLoadRect.shape.numel) :
    (Memref.whole main_arg1).view.readAt (Elt F) (Rect.unit (s := S1024) (k0_off3 i) S1.size (Facts₀.k0_off3_inb i)).toLoadRect tbl (Shape.Idx.first h1)
      = tbl (ix1 ⟨16 * (i 0).val + 1, pos_lt i 1 (by decide)⟩) :=
  word_at c tbl _ _ h1 _ _ (congrFun (k0_off3_eq i) 0)

/-- Load 2 at grid point i reads the table at position 16·i + 2. -/
theorem word_2 (c : Dev nD) (i : grid0.Coords) (tbl : Buf (Elt F) ((Memref.whole main_arg1).view.loc (c : Thread nD τ)))
    (h1 : 0 < (Rect.unit (s := S1024) (k0_off5 i) S1.size (Facts₀.k0_off5_inb i)).toLoadRect.shape.numel) :
    (Memref.whole main_arg1).view.readAt (Elt F) (Rect.unit (s := S1024) (k0_off5 i) S1.size (Facts₀.k0_off5_inb i)).toLoadRect tbl (Shape.Idx.first h1)
      = tbl (ix1 ⟨16 * (i 0).val + 2, pos_lt i 2 (by decide)⟩) :=
  word_at c tbl _ _ h1 _ _ (congrFun (k0_off5_eq i) 0)

/-- Load 3 at grid point i reads the table at position 16·i + 3. -/
theorem word_3 (c : Dev nD) (i : grid0.Coords) (tbl : Buf (Elt F) ((Memref.whole main_arg1).view.loc (c : Thread nD τ)))
    (h1 : 0 < (Rect.unit (s := S1024) (k0_off7 i) S1.size (Facts₀.k0_off7_inb i)).toLoadRect.shape.numel) :
    (Memref.whole main_arg1).view.readAt (Elt F) (Rect.unit (s := S1024) (k0_off7 i) S1.size (Facts₀.k0_off7_inb i)).toLoadRect tbl (Shape.Idx.first h1)
      = tbl (ix1 ⟨16 * (i 0).val + 3, pos_lt i 3 (by decide)⟩) :=
  word_at c tbl _ _ h1 _ _ (congrFun (k0_off7_eq i) 0)

/-- Load 4 at grid point i reads the table at position 16·i + 4. -/
theorem word_4 (c : Dev nD) (i : grid0.Coords) (tbl : Buf (Elt F) ((Memref.whole main_arg1).view.loc (c : Thread nD τ)))
    (h1 : 0 < (Rect.unit (s := S1024) (k0_off9 i) S1.size (Facts₀.k0_off9_inb i)).toLoadRect.shape.numel) :
    (Memref.whole main_arg1).view.readAt (Elt F) (Rect.unit (s := S1024) (k0_off9 i) S1.size (Facts₀.k0_off9_inb i)).toLoadRect tbl (Shape.Idx.first h1)
      = tbl (ix1 ⟨16 * (i 0).val + 4, pos_lt i 4 (by decide)⟩) :=
  word_at c tbl _ _ h1 _ _ (congrFun (k0_off9_eq i) 0)

/-- Load 5 at grid point i reads the table at position 16·i + 5. -/
theorem word_5 (c : Dev nD) (i : grid0.Coords) (tbl : Buf (Elt F) ((Memref.whole main_arg1).view.loc (c : Thread nD τ)))
    (h1 : 0 < (Rect.unit (s := S1024) (k0_off11 i) S1.size (Facts₀.k0_off11_inb i)).toLoadRect.shape.numel) :
    (Memref.whole main_arg1).view.readAt (Elt F) (Rect.unit (s := S1024) (k0_off11 i) S1.size (Facts₀.k0_off11_inb i)).toLoadRect tbl (Shape.Idx.first h1)
      = tbl (ix1 ⟨16 * (i 0).val + 5, pos_lt i 5 (by decide)⟩) :=
  word_at c tbl _ _ h1 _ _ (congrFun (k0_off11_eq i) 0)

/-- Load 6 at grid point i reads the table at position 16·i + 6. -/
theorem word_6 (c : Dev nD) (i : grid0.Coords) (tbl : Buf (Elt F) ((Memref.whole main_arg1).view.loc (c : Thread nD τ)))
    (h1 : 0 < (Rect.unit (s := S1024) (k0_off13 i) S1.size (Facts₀.k0_off13_inb i)).toLoadRect.shape.numel) :
    (Memref.whole main_arg1).view.readAt (Elt F) (Rect.unit (s := S1024) (k0_off13 i) S1.size (Facts₀.k0_off13_inb i)).toLoadRect tbl (Shape.Idx.first h1)
      = tbl (ix1 ⟨16 * (i 0).val + 6, pos_lt i 6 (by decide)⟩) :=
  word_at c tbl _ _ h1 _ _ (congrFun (k0_off13_eq i) 0)

/-- Load 7 at grid point i reads the table at position 16·i + 7. -/
theorem word_7 (c : Dev nD) (i : grid0.Coords) (tbl : Buf (Elt F) ((Memref.whole main_arg1).view.loc (c : Thread nD τ)))
    (h1 : 0 < (Rect.unit (s := S1024) (k0_off15 i) S1.size (Facts₀.k0_off15_inb i)).toLoadRect.shape.numel) :
    (Memref.whole main_arg1).view.readAt (Elt F) (Rect.unit (s := S1024) (k0_off15 i) S1.size (Facts₀.k0_off15_inb i)).toLoadRect tbl (Shape.Idx.first h1)
      = tbl (ix1 ⟨16 * (i 0).val + 7, pos_lt i 7 (by decide)⟩) :=
  word_at c tbl _ _ h1 _ _ (congrFun (k0_off15_eq i) 0)

/-- Load 8 at grid point i reads the table at position 16·i + 8. -/
theorem word_8 (c : Dev nD) (i : grid0.Coords) (tbl : Buf (Elt F) ((Memref.whole main_arg1).view.loc (c : Thread nD τ)))
    (h1 : 0 < (Rect.unit (s := S1024) (k0_off17 i) S1.size (Facts₀.k0_off17_inb i)).toLoadRect.shape.numel) :
    (Memref.whole main_arg1).view.readAt (Elt F) (Rect.unit (s := S1024) (k0_off17 i) S1.size (Facts₀.k0_off17_inb i)).toLoadRect tbl (Shape.Idx.first h1)
      = tbl (ix1 ⟨16 * (i 0).val + 8, pos_lt i 8 (by decide)⟩) :=
  word_at c tbl _ _ h1 _ _ (congrFun (k0_off17_eq i) 0)

/-- Load 9 at grid point i reads the table at position 16·i + 9. -/
theorem word_9 (c : Dev nD) (i : grid0.Coords) (tbl : Buf (Elt F) ((Memref.whole main_arg1).view.loc (c : Thread nD τ)))
    (h1 : 0 < (Rect.unit (s := S1024) (k0_off19 i) S1.size (Facts₀.k0_off19_inb i)).toLoadRect.shape.numel) :
    (Memref.whole main_arg1).view.readAt (Elt F) (Rect.unit (s := S1024) (k0_off19 i) S1.size (Facts₀.k0_off19_inb i)).toLoadRect tbl (Shape.Idx.first h1)
      = tbl (ix1 ⟨16 * (i 0).val + 9, pos_lt i 9 (by decide)⟩) :=
  word_at c tbl _ _ h1 _ _ (congrFun (k0_off19_eq i) 0)

/-- Load 10 at grid point i reads the table at position 16·i + 10. -/
theorem word_10 (c : Dev nD) (i : grid0.Coords) (tbl : Buf (Elt F) ((Memref.whole main_arg1).view.loc (c : Thread nD τ)))
    (h1 : 0 < (Rect.unit (s := S1024) (k0_off21 i) S1.size (Facts₀.k0_off21_inb i)).toLoadRect.shape.numel) :
    (Memref.whole main_arg1).view.readAt (Elt F) (Rect.unit (s := S1024) (k0_off21 i) S1.size (Facts₀.k0_off21_inb i)).toLoadRect tbl (Shape.Idx.first h1)
      = tbl (ix1 ⟨16 * (i 0).val + 10, pos_lt i 10 (by decide)⟩) :=
  word_at c tbl _ _ h1 _ _ (congrFun (k0_off21_eq i) 0)

/-- Load 11 at grid point i reads the table at position 16·i + 11. -/
theorem word_11 (c : Dev nD) (i : grid0.Coords) (tbl : Buf (Elt F) ((Memref.whole main_arg1).view.loc (c : Thread nD τ)))
    (h1 : 0 < (Rect.unit (s := S1024) (k0_off23 i) S1.size (Facts₀.k0_off23_inb i)).toLoadRect.shape.numel) :
    (Memref.whole main_arg1).view.readAt (Elt F) (Rect.unit (s := S1024) (k0_off23 i) S1.size (Facts₀.k0_off23_inb i)).toLoadRect tbl (Shape.Idx.first h1)
      = tbl (ix1 ⟨16 * (i 0).val + 11, pos_lt i 11 (by decide)⟩) :=
  word_at c tbl _ _ h1 _ _ (congrFun (k0_off23_eq i) 0)

/-- Load 12 at grid point i reads the table at position 16·i + 12. -/
theorem word_12 (c : Dev nD) (i : grid0.Coords) (tbl : Buf (Elt F) ((Memref.whole main_arg1).view.loc (c : Thread nD τ)))
    (h1 : 0 < (Rect.unit (s := S1024) (k0_off25 i) S1.size (Facts₀.k0_off25_inb i)).toLoadRect.shape.numel) :
    (Memref.whole main_arg1).view.readAt (Elt F) (Rect.unit (s := S1024) (k0_off25 i) S1.size (Facts₀.k0_off25_inb i)).toLoadRect tbl (Shape.Idx.first h1)
      = tbl (ix1 ⟨16 * (i 0).val + 12, pos_lt i 12 (by decide)⟩) :=
  word_at c tbl _ _ h1 _ _ (congrFun (k0_off25_eq i) 0)

/-- Load 13 at grid point i reads the table at position 16·i + 13. -/
theorem word_13 (c : Dev nD) (i : grid0.Coords) (tbl : Buf (Elt F) ((Memref.whole main_arg1).view.loc (c : Thread nD τ)))
    (h1 : 0 < (Rect.unit (s := S1024) (k0_off27 i) S1.size (Facts₀.k0_off27_inb i)).toLoadRect.shape.numel) :
    (Memref.whole main_arg1).view.readAt (Elt F) (Rect.unit (s := S1024) (k0_off27 i) S1.size (Facts₀.k0_off27_inb i)).toLoadRect tbl (Shape.Idx.first h1)
      = tbl (ix1 ⟨16 * (i 0).val + 13, pos_lt i 13 (by decide)⟩) :=
  word_at c tbl _ _ h1 _ _ (congrFun (k0_off27_eq i) 0)

/-- Load 14 at grid point i reads the table at position 16·i + 14. -/
theorem word_14 (c : Dev nD) (i : grid0.Coords) (tbl : Buf (Elt F) ((Memref.whole main_arg1).view.loc (c : Thread nD τ)))
    (h1 : 0 < (Rect.unit (s := S1024) (k0_off29 i) S1.size (Facts₀.k0_off29_inb i)).toLoadRect.shape.numel) :
    (Memref.whole main_arg1).view.readAt (Elt F) (Rect.unit (s := S1024) (k0_off29 i) S1.size (Facts₀.k0_off29_inb i)).toLoadRect tbl (Shape.Idx.first h1)
      = tbl (ix1 ⟨16 * (i 0).val + 14, pos_lt i 14 (by decide)⟩) :=
  word_at c tbl _ _ h1 _ _ (congrFun (k0_off29_eq i) 0)

/-- Load 15 at grid point i reads the table at position 16·i + 15. -/
theorem word_15 (c : Dev nD) (i : grid0.Coords) (tbl : Buf (Elt F) ((Memref.whole main_arg1).view.loc (c : Thread nD τ)))
    (h1 : 0 < (Rect.unit (s := S1024) (k0_off31 i) S1.size (Facts₀.k0_off31_inb i)).toLoadRect.shape.numel) :
    (Memref.whole main_arg1).view.readAt (Elt F) (Rect.unit (s := S1024) (k0_off31 i) S1.size (Facts₀.k0_off31_inb i)).toLoadRect tbl (Shape.Idx.first h1)
      = tbl (ix1 ⟨16 * (i 0).val + 15, pos_lt i 15 (by decide)⟩) :=
  word_at c tbl _ _ h1 _ _ (congrFun (k0_off31_eq i) 0)

/-! ## (B) The row -/

/-- The bound on axis 0 of a unit row slice says the row is one of the 1000. -/
theorem row_lt {v : BitVec 32}
    (hv : ∀ a, (![v.toNat, 0, 0] : Fin 3 → Nat) a + S1x1152x128.size a ≤ S1000x1152x128.size a) : v.toNat < 1000 := by
  have h : v.toNat + 1 ≤ 1000 := hv 0
  omega

/-- The unit slice of the weight array at row v, squeezed to a rectangle, reads at (k, o) the array at (v, k, o): the squeeze
    puts the coordinate 0 in front of (k, o), and the slice adds its offsets (v, 0, 0). -/
theorem row_read (c : Dev nD) (v : BitVec 32)
    (hv : ∀ a, (![v.toNat, 0, 0] : Fin 3 → Nat) a + S1x1152x128.size a ≤ S1000x1152x128.size a)
    (fw : Buf (Elt F) ((Memref.whole main_arg2).view.loc (c : Thread nD τ))) (k : Fin 1152) (o : Fin 128) :
    ReadAs.same.apply ((((Memref.whole main_arg2).slice (Rect.unit (s := S1000x1152x128) ![v.toNat, 0, 0] S1x1152x128.size hv) (fun _ => rfl)).squeeze S1152x128 Facts₀.squeezes_S1x1152x128_S1152x128).view.read (Elt F) fw) (ix2 k o)
      = fw (ix3 ⟨v.toNat, row_lt hv⟩ k o) := by
  have e := Shape.reshapeEquiv_cons_one (n := 2) (d := ![1152, 128])
    (Shape.Squeezes.numel_eq Facts₀.squeezes_S1x1152x128_S1152x128) (ix2 k o)
  show fw ((Rect.unit (s := S1000x1152x128) ![v.toNat, 0, 0] S1x1152x128.size hv).emb
    (Shape.reshapeEquiv (Shape.Squeezes.numel_eq Facts₀.squeezes_S1x1152x128_S1152x128) (ix2 k o))) = _
  refine congrArg fw ?_
  refine (congrArg (fun j => (Rect.unit (s := S1000x1152x128) ![v.toNat, 0, 0] S1x1152x128.size hv).emb j) e).trans ?_
  funext a
  apply Fin.ext
  match a with
  | ⟨0, _⟩ => show v.toNat + 1 * 0 = v.toNat; omega
  | ⟨1, _⟩ => show 0 + 1 * k.val = k.val; omega
  | ⟨2, _⟩ => show 0 + 1 * o.val = o.val; omega

/-- The printed offsets of every copy's source slice are the same vector (v, 0, 0). -/
theorem k0_off2_eq (v : BitVec 32) : k0_off2 v = ![v.toNat, 0, 0] := rfl

/-- Copy 0's source, in the printed spelling: it reads row v of the weight array. -/
theorem row_0 (c : Dev nD) (v : BitVec 32) (h : k0_chk1 v)
    (fw : Buf (Elt F) ((Memref.whole main_arg2).view.loc (c : Thread nD τ))) (k : Fin 1152) (o : Fin 128) :
    ReadAs.same.apply ((((Memref.whole main_arg2).slice (Rect.unit (s := S1000x1152x128) (k0_off2 v) S1x1152x128.size (k0_off2_inb v h)) (fun _ => rfl)).squeeze S1152x128 Facts₀.squeezes_S1x1152x128_S1152x128).view.read (Elt F) fw) (ix2 k o)
      = fw (ix3 ⟨v.toNat, row_lt (k0_off2_inb v h)⟩ k o) :=
  row_read c v (k0_off2_inb v h) fw k o

/-- Copy 1's source, in the printed spelling: it reads row v of the weight array. -/
theorem row_1 (c : Dev nD) (v : BitVec 32) (h : k0_chk2 v)
    (fw : Buf (Elt F) ((Memref.whole main_arg2).view.loc (c : Thread nD τ))) (k : Fin 1152) (o : Fin 128) :
    ReadAs.same.apply ((((Memref.whole main_arg2).slice (Rect.unit (s := S1000x1152x128) (k0_off4 v) S1x1152x128.size (k0_off4_inb v h)) (fun _ => rfl)).squeeze S1152x128 Facts₀.squeezes_S1x1152x128_S1152x128).view.read (Elt F) fw) (ix2 k o)
      = fw (ix3 ⟨v.toNat, row_lt (k0_off4_inb v h)⟩ k o) :=
  row_read c v (k0_off4_inb v h) fw k o

/-- Copy 2's source, in the printed spelling: it reads row v of the weight array. -/
theorem row_2 (c : Dev nD) (v : BitVec 32) (h : k0_chk3 v)
    (fw : Buf (Elt F) ((Memref.whole main_arg2).view.loc (c : Thread nD τ))) (k : Fin 1152) (o : Fin 128) :
    ReadAs.same.apply ((((Memref.whole main_arg2).slice (Rect.unit (s := S1000x1152x128) (k0_off6 v) S1x1152x128.size (k0_off6_inb v h)) (fun _ => rfl)).squeeze S1152x128 Facts₀.squeezes_S1x1152x128_S1152x128).view.read (Elt F) fw) (ix2 k o)
      = fw (ix3 ⟨v.toNat, row_lt (k0_off6_inb v h)⟩ k o) :=
  row_read c v (k0_off6_inb v h) fw k o

/-- Copy 3's source, in the printed spelling: it reads row v of the weight array. -/
theorem row_3 (c : Dev nD) (v : BitVec 32) (h : k0_chk4 v)
    (fw : Buf (Elt F) ((Memref.whole main_arg2).view.loc (c : Thread nD τ))) (k : Fin 1152) (o : Fin 128) :
    ReadAs.same.apply ((((Memref.whole main_arg2).slice (Rect.unit (s := S1000x1152x128) (k0_off8 v) S1x1152x128.size (k0_off8_inb v h)) (fun _ => rfl)).squeeze S1152x128 Facts₀.squeezes_S1x1152x128_S1152x128).view.read (Elt F) fw) (ix2 k o)
      = fw (ix3 ⟨v.toNat, row_lt (k0_off8_inb v h)⟩ k o) :=
  row_read c v (k0_off8_inb v h) fw k o

/-- Copy 4's source, in the printed spelling: it reads row v of the weight array. -/
theorem row_4 (c : Dev nD) (v : BitVec 32) (h : k0_chk5 v)
    (fw : Buf (Elt F) ((Memref.whole main_arg2).view.loc (c : Thread nD τ))) (k : Fin 1152) (o : Fin 128) :
    ReadAs.same.apply ((((Memref.whole main_arg2).slice (Rect.unit (s := S1000x1152x128) (k0_off10 v) S1x1152x128.size (k0_off10_inb v h)) (fun _ => rfl)).squeeze S1152x128 Facts₀.squeezes_S1x1152x128_S1152x128).view.read (Elt F) fw) (ix2 k o)
      = fw (ix3 ⟨v.toNat, row_lt (k0_off10_inb v h)⟩ k o) :=
  row_read c v (k0_off10_inb v h) fw k o

/-- Copy 5's source, in the printed spelling: it reads row v of the weight array. -/
theorem row_5 (c : Dev nD) (v : BitVec 32) (h : k0_chk6 v)
    (fw : Buf (Elt F) ((Memref.whole main_arg2).view.loc (c : Thread nD τ))) (k : Fin 1152) (o : Fin 128) :
    ReadAs.same.apply ((((Memref.whole main_arg2).slice (Rect.unit (s := S1000x1152x128) (k0_off12 v) S1x1152x128.size (k0_off12_inb v h)) (fun _ => rfl)).squeeze S1152x128 Facts₀.squeezes_S1x1152x128_S1152x128).view.read (Elt F) fw) (ix2 k o)
      = fw (ix3 ⟨v.toNat, row_lt (k0_off12_inb v h)⟩ k o) :=
  row_read c v (k0_off12_inb v h) fw k o

/-- Copy 6's source, in the printed spelling: it reads row v of the weight array. -/
theorem row_6 (c : Dev nD) (v : BitVec 32) (h : k0_chk7 v)
    (fw : Buf (Elt F) ((Memref.whole main_arg2).view.loc (c : Thread nD τ))) (k : Fin 1152) (o : Fin 128) :
    ReadAs.same.apply ((((Memref.whole main_arg2).slice (Rect.unit (s := S1000x1152x128) (k0_off14 v) S1x1152x128.size (k0_off14_inb v h)) (fun _ => rfl)).squeeze S1152x128 Facts₀.squeezes_S1x1152x128_S1152x128).view.read (Elt F) fw) (ix2 k o)
      = fw (ix3 ⟨v.toNat, row_lt (k0_off14_inb v h)⟩ k o) :=
  row_read c v (k0_off14_inb v h) fw k o

/-- Copy 7's source, in the printed spelling: it reads row v of the weight array. -/
theorem row_7 (c : Dev nD) (v : BitVec 32) (h : k0_chk8 v)
    (fw : Buf (Elt F) ((Memref.whole main_arg2).view.loc (c : Thread nD τ))) (k : Fin 1152) (o : Fin 128) :
    ReadAs.same.apply ((((Memref.whole main_arg2).slice (Rect.unit (s := S1000x1152x128) (k0_off16 v) S1x1152x128.size (k0_off16_inb v h)) (fun _ => rfl)).squeeze S1152x128 Facts₀.squeezes_S1x1152x128_S1152x128).view.read (Elt F) fw) (ix2 k o)
      = fw (ix3 ⟨v.toNat, row_lt (k0_off16_inb v h)⟩ k o) :=
  row_read c v (k0_off16_inb v h) fw k o

/-- Copy 8's source, in the printed spelling: it reads row v of the weight array. -/
theorem row_8 (c : Dev nD) (v : BitVec 32) (h : k0_chk9 v)
    (fw : Buf (Elt F) ((Memref.whole main_arg2).view.loc (c : Thread nD τ))) (k : Fin 1152) (o : Fin 128) :
    ReadAs.same.apply ((((Memref.whole main_arg2).slice (Rect.unit (s := S1000x1152x128) (k0_off18 v) S1x1152x128.size (k0_off18_inb v h)) (fun _ => rfl)).squeeze S1152x128 Facts₀.squeezes_S1x1152x128_S1152x128).view.read (Elt F) fw) (ix2 k o)
      = fw (ix3 ⟨v.toNat, row_lt (k0_off18_inb v h)⟩ k o) :=
  row_read c v (k0_off18_inb v h) fw k o

/-- Copy 9's source, in the printed spelling: it reads row v of the weight array. -/
theorem row_9 (c : Dev nD) (v : BitVec 32) (h : k0_chk10 v)
    (fw : Buf (Elt F) ((Memref.whole main_arg2).view.loc (c : Thread nD τ))) (k : Fin 1152) (o : Fin 128) :
    ReadAs.same.apply ((((Memref.whole main_arg2).slice (Rect.unit (s := S1000x1152x128) (k0_off20 v) S1x1152x128.size (k0_off20_inb v h)) (fun _ => rfl)).squeeze S1152x128 Facts₀.squeezes_S1x1152x128_S1152x128).view.read (Elt F) fw) (ix2 k o)
      = fw (ix3 ⟨v.toNat, row_lt (k0_off20_inb v h)⟩ k o) :=
  row_read c v (k0_off20_inb v h) fw k o

/-- Copy 10's source, in the printed spelling: it reads row v of the weight array. -/
theorem row_10 (c : Dev nD) (v : BitVec 32) (h : k0_chk11 v)
    (fw : Buf (Elt F) ((Memref.whole main_arg2).view.loc (c : Thread nD τ))) (k : Fin 1152) (o : Fin 128) :
    ReadAs.same.apply ((((Memref.whole main_arg2).slice (Rect.unit (s := S1000x1152x128) (k0_off22 v) S1x1152x128.size (k0_off22_inb v h)) (fun _ => rfl)).squeeze S1152x128 Facts₀.squeezes_S1x1152x128_S1152x128).view.read (Elt F) fw) (ix2 k o)
      = fw (ix3 ⟨v.toNat, row_lt (k0_off22_inb v h)⟩ k o) :=
  row_read c v (k0_off22_inb v h) fw k o

/-- Copy 11's source, in the printed spelling: it reads row v of the weight array. -/
theorem row_11 (c : Dev nD) (v : BitVec 32) (h : k0_chk12 v)
    (fw : Buf (Elt F) ((Memref.whole main_arg2).view.loc (c : Thread nD τ))) (k : Fin 1152) (o : Fin 128) :
    ReadAs.same.apply ((((Memref.whole main_arg2).slice (Rect.unit (s := S1000x1152x128) (k0_off24 v) S1x1152x128.size (k0_off24_inb v h)) (fun _ => rfl)).squeeze S1152x128 Facts₀.squeezes_S1x1152x128_S1152x128).view.read (Elt F) fw) (ix2 k o)
      = fw (ix3 ⟨v.toNat, row_lt (k0_off24_inb v h)⟩ k o) :=
  row_read c v (k0_off24_inb v h) fw k o

/-- Copy 12's source, in the printed spelling: it reads row v of the weight array. -/
theorem row_12 (c : Dev nD) (v : BitVec 32) (h : k0_chk13 v)
    (fw : Buf (Elt F) ((Memref.whole main_arg2).view.loc (c : Thread nD τ))) (k : Fin 1152) (o : Fin 128) :
    ReadAs.same.apply ((((Memref.whole main_arg2).slice (Rect.unit (s := S1000x1152x128) (k0_off26 v) S1x1152x128.size (k0_off26_inb v h)) (fun _ => rfl)).squeeze S1152x128 Facts₀.squeezes_S1x1152x128_S1152x128).view.read (Elt F) fw) (ix2 k o)
      = fw (ix3 ⟨v.toNat, row_lt (k0_off26_inb v h)⟩ k o) :=
  row_read c v (k0_off26_inb v h) fw k o

/-- Copy 13's source, in the printed spelling: it reads row v of the weight array. -/
theorem row_13 (c : Dev nD) (v : BitVec 32) (h : k0_chk14 v)
    (fw : Buf (Elt F) ((Memref.whole main_arg2).view.loc (c : Thread nD τ))) (k : Fin 1152) (o : Fin 128) :
    ReadAs.same.apply ((((Memref.whole main_arg2).slice (Rect.unit (s := S1000x1152x128) (k0_off28 v) S1x1152x128.size (k0_off28_inb v h)) (fun _ => rfl)).squeeze S1152x128 Facts₀.squeezes_S1x1152x128_S1152x128).view.read (Elt F) fw) (ix2 k o)
      = fw (ix3 ⟨v.toNat, row_lt (k0_off28_inb v h)⟩ k o) :=
  row_read c v (k0_off28_inb v h) fw k o

/-- Copy 14's source, in the printed spelling: it reads row v of the weight array. -/
theorem row_14 (c : Dev nD) (v : BitVec 32) (h : k0_chk15 v)
    (fw : Buf (Elt F) ((Memref.whole main_arg2).view.loc (c : Thread nD τ))) (k : Fin 1152) (o : Fin 128) :
    ReadAs.same.apply ((((Memref.whole main_arg2).slice (Rect.unit (s := S1000x1152x128) (k0_off30 v) S1x1152x128.size (k0_off30_inb v h)) (fun _ => rfl)).squeeze S1152x128 Facts₀.squeezes_S1x1152x128_S1152x128).view.read (Elt F) fw) (ix2 k o)
      = fw (ix3 ⟨v.toNat, row_lt (k0_off30_inb v h)⟩ k o) :=
  row_read c v (k0_off30_inb v h) fw k o

/-- Copy 15's source, in the printed spelling: it reads row v of the weight array. -/
theorem row_15 (c : Dev nD) (v : BitVec 32) (h : k0_chk16 v)
    (fw : Buf (Elt F) ((Memref.whole main_arg2).view.loc (c : Thread nD τ))) (k : Fin 1152) (o : Fin 128) :
    ReadAs.same.apply ((((Memref.whole main_arg2).slice (Rect.unit (s := S1000x1152x128) (k0_off32 v) S1x1152x128.size (k0_off32_inb v h)) (fun _ => rfl)).squeeze S1152x128 Facts₀.squeezes_S1x1152x128_S1152x128).view.read (Elt F) fw) (ix2 k o)
      = fw (ix3 ⟨v.toNat, row_lt (k0_off32_inb v h)⟩ k o) :=
  row_read c v (k0_off32_inb v h) fw k o

/-- Every even-numbered offset function is the first one. -/
theorem k0_off4_same (v : BitVec 32) : k0_off4 v = k0_off2 v := rfl
theorem k0_off6_same (v : BitVec 32) : k0_off6 v = k0_off2 v := rfl
theorem k0_off8_same (v : BitVec 32) : k0_off8 v = k0_off2 v := rfl
theorem k0_off10_same (v : BitVec 32) : k0_off10 v = k0_off2 v := rfl
theorem k0_off12_same (v : BitVec 32) : k0_off12 v = k0_off2 v := rfl
theorem k0_off14_same (v : BitVec 32) : k0_off14 v = k0_off2 v := rfl
theorem k0_off16_same (v : BitVec 32) : k0_off16 v = k0_off2 v := rfl
theorem k0_off18_same (v : BitVec 32) : k0_off18 v = k0_off2 v := rfl
theorem k0_off20_same (v : BitVec 32) : k0_off20 v = k0_off2 v := rfl
theorem k0_off22_same (v : BitVec 32) : k0_off22 v = k0_off2 v := rfl
theorem k0_off24_same (v : BitVec 32) : k0_off24 v = k0_off2 v := rfl
theorem k0_off26_same (v : BitVec 32) : k0_off26 v = k0_off2 v := rfl
theorem k0_off28_same (v : BitVec 32) : k0_off28 v = k0_off2 v := rfl
theorem k0_off30_same (v : BitVec 32) : k0_off30 v = k0_off2 v := rfl
theorem k0_off32_same (v : BitVec 32) : k0_off32 v = k0_off2 v := rfl

end Cert.Proof.KernelIdealWords

end
-- ==== Proof.KernelIdealPay.lean ====
import proofs.«417661_j25847113187694_2_alg».proof.Proof.Gen.KernelIdeal.Skeleton
import Idealize.ShloMosaic.Lib.ValueIdx
import Idealize.ShloMosaic.PureOps.Ideal.Laws

noncomputable section

namespace Cert.Proof.KernelIdealPay

open Cert.KernelIdeal Cert.KernelIdeal.Gen Idealize.ShloMosaic Idealize.ShloMosaic.ValueIdx Idealize.SL.Sem

/-! ## The operand indices of the batched product, axis by axis

The product has batch axis 0 on both operands, contracts the left operand's axis 2 with the right
operand's axis 1, and keeps the left operand's axis 1 and the right operand's axis 2. -/

/-- The left operand's batch coordinate is the output's. -/
theorem lhs_pay_0 (i : S16x64x128.Idx) (q : dot_S16x64x1152_S16x1152x128_S16x64x128_2_1_1_2_0_0.contr.Idx) :
    (dot_S16x64x1152_S16x1152x128_S16x64x128_2_1_1_2_0_0.lhsIdx i q 0).val = (i 0).val := by
  unfold DotDims.lhsIdx
  rw [dif_pos (show (0 : Fin S16x64x1152.rank) ∈ dot_S16x64x1152_S16x1152x128_S16x64x128_2_1_1_2_0_0.lhsBatch by decide)]
  rfl

/-- The left operand's row coordinate is the output's row. -/
theorem lhs_pay_1 (i : S16x64x128.Idx) (q : dot_S16x64x1152_S16x1152x128_S16x64x128_2_1_1_2_0_0.contr.Idx) :
    (dot_S16x64x1152_S16x1152x128_S16x64x128_2_1_1_2_0_0.lhsIdx i q 1).val = (i 1).val := by
  unfold DotDims.lhsIdx
  rw [dif_neg (show ¬(1 : Fin S16x64x1152.rank) ∈ dot_S16x64x1152_S16x1152x128_S16x64x128_2_1_1_2_0_0.lhsBatch by decide), dif_pos (show (1 : Fin S16x64x1152.rank) ∈ dot_S16x64x1152_S16x1152x128_S16x64x128_2_1_1_2_0_0.lhsNonContracting by decide)]
  rfl

/-- The left operand's last coordinate is the contraction index. -/
theorem lhs_pay_2 (i : S16x64x128.Idx) (q : dot_S16x64x1152_S16x1152x128_S16x64x128_2_1_1_2_0_0.contr.Idx) :
    (dot_S16x64x1152_S16x1152x128_S16x64x128_2_1_1_2_0_0.lhsIdx i q 2).val = (q ⟨0, by decide⟩).val :=
  dot_S16x64x1152_S16x1152x128_S16x64x128_2_1_1_2_0_0.lhsIdx_val_of_single rfl i q

/-- The right operand's batch coordinate is the output's. -/
theorem rhs_pay_0 (i : S16x64x128.Idx) (q : dot_S16x64x1152_S16x1152x128_S16x64x128_2_1_1_2_0_0.contr.Idx) :
    (dot_S16x64x1152_S16x1152x128_S16x64x128_2_1_1_2_0_0.rhsIdx i q 0).val = (i 0).val := by
  unfold DotDims.rhsIdx
  rw [dif_pos (show (0 : Fin S16x1152x128.rank) ∈ dot_S16x64x1152_S16x1152x128_S16x64x128_2_1_1_2_0_0.rhsBatch by decide)]
  rfl

/-- The right operand's middle coordinate is the contraction index. -/
theorem rhs_pay_1 (i : S16x64x128.Idx) (q : dot_S16x64x1152_S16x1152x128_S16x64x128_2_1_1_2_0_0.contr.Idx) :
    (dot_S16x64x1152_S16x1152x128_S16x64x128_2_1_1_2_0_0.rhsIdx i q 1).val = (q ⟨0, by decide⟩).val :=
  dot_S16x64x1152_S16x1152x128_S16x64x128_2_1_1_2_0_0.rhsIdx_val_of_single rfl i q

/-- The right operand's column coordinate is the output's column. -/
theorem rhs_pay_2 (i : S16x64x128.Idx) (q : dot_S16x64x1152_S16x1152x128_S16x64x128_2_1_1_2_0_0.contr.Idx) :
    (dot_S16x64x1152_S16x1152x128_S16x64x128_2_1_1_2_0_0.rhsIdx i q 2).val = (i 2).val := by
  unfold DotDims.rhsIdx
  rw [dif_neg (show ¬(2 : Fin S16x1152x128.rank) ∈ dot_S16x64x1152_S16x1152x128_S16x64x128_2_1_1_2_0_0.rhsBatch by decide), dif_pos (show (2 : Fin S16x1152x128.rank) ∈ dot_S16x64x1152_S16x1152x128_S16x64x128_2_1_1_2_0_0.rhsNonContracting by decide)]
  rfl

/-! ## The product block at an index -/

/-- At Ideal the body's product block is, entry by entry, the sum over the contracted axis. -/
theorem pay_apply (xb : Vec Ideal S16x64x1152 .f32) (wb : Vec Ideal S16x1152x128 .f32) (b : Fin 16) (n : Fin 64) (o : Fin 128) :
    k0_pay1 (F := Ideal) (k0_pay2 xb) (k0_pay3 wb) (constant S16x64x128 .f32 0x00000000#32) (ix3 b n o)
      = ∑ k : Fin 1152, xb (ix3 b n k) * wb (ix3 b k o) := by
  unfold k0_pay1 k0_pay2 k0_pay3
  simp only [matmul, truncf]
  rw [Ideal.matmul_constant_zero_apply, ← Equiv.sum_comp (ValueIdx.contrEquiv1 dot_S16x64x1152_S16x1152x128_S16x64x128_2_1_1_2_0_0 1152 rfl rfl).symm]
  refine Finset.sum_congr rfl fun k _ => ?_
  have hk := ValueIdx.contrEquiv1_symm_val dot_S16x64x1152_S16x1152x128_S16x64x128_2_1_1_2_0_0 1152 rfl rfl k
  have el : dot_S16x64x1152_S16x1152x128_S16x64x128_2_1_1_2_0_0.lhsIdx (ix3 b n o) ((ValueIdx.contrEquiv1 dot_S16x64x1152_S16x1152x128_S16x64x128_2_1_1_2_0_0 1152 rfl rfl).symm k) = (ix3 b n k : S16x64x1152.Idx) := funext fun a => Fin.ext (by
    match a with
    | ⟨0, _⟩ => exact lhs_pay_0 _ _
    | ⟨1, _⟩ => exact lhs_pay_1 _ _
    | ⟨2, _⟩ => exact (lhs_pay_2 _ _).trans hk)
  have er : dot_S16x64x1152_S16x1152x128_S16x64x128_2_1_1_2_0_0.rhsIdx (ix3 b n o) ((ValueIdx.contrEquiv1 dot_S16x64x1152_S16x1152x128_S16x64x128_2_1_1_2_0_0 1152 rfl rfl).symm k) = (ix3 b k o : S16x1152x128.Idx) := funext fun a => Fin.ext (by
    match a with
    | ⟨0, _⟩ => exact rhs_pay_0 _ _
    | ⟨1, _⟩ => exact (rhs_pay_1 _ _).trans hk
    | ⟨2, _⟩ => exact rhs_pay_2 _ _)
  rw [el, er]
  rfl

end Cert.Proof.KernelIdealPay
-- ==== Proof.KernelIdealOut.lean ====
import proofs.«417661_j25847113187694_2_alg».proof.Proof.KernelIdealBodyOut
import proofs.«417661_j25847113187694_2_alg».proof.Proof.KernelIdealWords
import proofs.«417661_j25847113187694_2_alg».proof.Proof.KernelIdealPay
import Idealize.ShloMosaic.Lib.ValueIdx
import Idealize.ShloMosaic.Lib.Pipeline.Value

set_option maxRecDepth 16384

noncomputable section

namespace Cert.Proof.KernelIdealOut

open Cert.KernelIdeal Cert.KernelIdeal.Gen
open Cert.Proof.KernelIdealBody Cert.Proof.KernelIdealRows Cert.Proof.KernelIdealWords
open Idealize.ShloMosaic Idealize.ShloMosaic.TcCoe Idealize.ShloMosaic.ValueIdx Idealize.SL.Sem

variable {F : FTy → Type} [FloatOps F]

/-- The zero offsets of a whole-block access, as the constant function. -/
theorem hz3 : (![0, 0, 0] : Fin 3 → Nat) = fun _ => 0 := funext fun a => by fin_cases a <;> rfl

/-- What the body leaves in the output block: the batched product of the staged x block with the sixteen weight rows
    the copies brought, into the zero block. -/
theorem outOf_eq (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec F S16x64x1152 .f32) (fw : Bf (F := F) c (Memref.whole main_arg2)) (tbl : Bf (F := F) c (Memref.whole main_arg1))
    (hall : TblOK c tbl) :
    outOf c i arg2 harg2 arg4 harg4 x0 fw tbl hall
      = k0_pay1 (k0_pay2 x0)
          (k0_pay3 (rowsBuf c (kernelRun.sl.dma1 c i fw tbl hall) (kernelRun.sl.dma2 c i fw tbl hall)
            (kernelRun.sl.dma3 c i fw tbl hall) (kernelRun.sl.dma4 c i fw tbl hall) (kernelRun.sl.dma5 c i fw tbl hall)
            (kernelRun.sl.dma6 c i fw tbl hall) (kernelRun.sl.dma7 c i fw tbl hall) (kernelRun.sl.dma8 c i fw tbl hall)
            (kernelRun.sl.dma9 c i fw tbl hall) (kernelRun.sl.dma10 c i fw tbl hall) (kernelRun.sl.dma11 c i fw tbl hall)
            (kernelRun.sl.dma12 c i fw tbl hall) (kernelRun.sl.dma13 c i fw tbl hall) (kernelRun.sl.dma14 c i fw tbl hall)
            (kernelRun.sl.dma15 c i fw tbl hall) (kernelRun.sl.dma16 c i fw tbl hall)))
          (constant S16x64x128 .f32 0x00000000#32) := by
  unfold outOf
  rw [View.read_writes_eq_canon _ _ _ (cover c i arg2 harg2 arg4 harg4 x0 fw tbl hall)]
  unfold kernelRun
  dsimp only
  rw [View.canon_unit_zero hz3]
  unfold kernelRun.sl.r_16 kernelRun.sl.r_17 kernelRun.sl.cst kernelRun.sl.v243
  rw [View.readAt_eq_ld, harg2.read_unread, View.ld_unit_zero hz3]
  refine congrArg (fun (w : Vec F S16x1152x128 .f32) => k0_pay1 (k0_pay2 x0) (k0_pay3 w) (constant S16x64x128 .f32 0x00000000#32)) ?_
  exact Memref.readAt_unit_zero (Elt F) cc0_scratch0 hz3 _ _

/-- The weight array read at equal rows. -/
theorem row_congr {α : Type} (fw : S1000x1152x128.Idx → α) {v v' : BitVec 32} (h : v = v') (hv : v.toNat < 1000) (hv' : v'.toNat < 1000)
    (k : Fin 1152) (o : Fin 128) : fw (ix3 ⟨v.toNat, hv⟩ k o) = fw (ix3 ⟨v'.toNat, hv'⟩ k o) := by
  subst h; rfl

/-- At Ideal the output block's entry (b, n, o) is the product of row (b, n) of the x block with column o of the weight
    row that the table names at position 16 i + b. -/
theorem outOf_apply (c : Dev nD) (i : grid0.Coords)
    (arg2 : Memref sig .tc .vmem S16x64x1152 .f32) (harg2 : arg2.IsWhole)
    (arg4 : Memref sig .tc .vmem S16x64x128 .f32) (harg4 : arg4.IsWhole)
    (x0 : Vec Ideal S16x64x1152 .f32) (fw : Bf (F := Ideal) c (Memref.whole main_arg2)) (tbl : Bf (F := Ideal) c (Memref.whole main_arg1))
    (hall : TblOK c tbl) (b : Fin 16) (n : Fin 64) (o : Fin 128) :
    outOf (F := Ideal) c i arg2 harg2 arg4 harg4 x0 fw tbl hall (ix3 b n o)
      = ∑ k : Fin 1152, x0 (ix3 b n k) * fw (ix3 ⟨BitVec.toNat (tbl (ix1 ⟨16 * (i 0).val + b.val, pos_lt i b.val b.isLt⟩)), hall _⟩ k o) := by
  rw [outOf_eq]
  refine (Cert.Proof.KernelIdealPay.pay_apply x0 (rowsBuf c (kernelRun.sl.dma1 c i fw tbl hall) (kernelRun.sl.dma2 c i fw tbl hall)
    (kernelRun.sl.dma3 c i fw tbl hall) (kernelRun.sl.dma4 c i fw tbl hall) (kernelRun.sl.dma5 c i fw tbl hall)
    (kernelRun.sl.dma6 c i fw tbl hall) (kernelRun.sl.dma7 c i fw tbl hall) (kernelRun.sl.dma8 c i fw tbl hall)
    (kernelRun.sl.dma9 c i fw tbl hall) (kernelRun.sl.dma10 c i fw tbl hall) (kernelRun.sl.dma11 c i fw tbl hall)
    (kernelRun.sl.dma12 c i fw tbl hall) (kernelRun.sl.dma13 c i fw tbl hall) (kernelRun.sl.dma14 c i fw tbl hall)
    (kernelRun.sl.dma15 c i fw tbl hall) (kernelRun.sl.dma16 c i fw tbl hall)) b n o).trans ?_
  refine Finset.sum_congr rfl fun k _ => ?_
  refine congrArg (fun z => x0 (ix3 b n k) * z) ?_
  match b with
  | ⟨0, _⟩ =>
    refine (rowsBuf_apply0 c _ _ _ _ _ _ _ _ _ _ _ _ _ _ _ _ k o).trans ?_
    unfold kernelRun.sl.dma1
    refine (row_0 c (kernelRun.sl.r c i tbl) (chk_of _ (hall _)) fw k o).trans ?_
    refine row_congr fw ?_ _ _ k o
    unfold kernelRun.sl.r
    exact word_0 c i tbl _
  | ⟨1, _⟩ =>
    refine (rowsBuf_apply1 c _ _ _ _ _ _ _ _ _ _ _ _ _ _ _ _ k o).trans ?_
    unfold kernelRun.sl.dma2
    refine (row_1 c (kernelRun.sl.r_1 c i tbl) (chk_of _ (hall _)) fw k o).trans ?_
    refine row_congr fw ?_ _ _ k o
    unfold kernelRun.sl.r_1
    exact word_1 c i tbl _
  | ⟨2, _⟩ =>
    refine (rowsBuf_apply2 c _ _ _ _ _ _ _ _ _ _ _ _ _ _ _ _ k o).trans ?_
    unfold kernelRun.sl.dma3
    refine (row_2 c (kernelRun.sl.r_2 c i tbl) (chk_of _ (hall _)) fw k o).trans ?_
    refine row_congr fw ?_ _ _ k o
    unfold kernelRun.sl.r_2
    exact word_2 c i tbl _
  | ⟨3, _⟩ =>
    refine (rowsBuf_apply3 c _ _ _ _ _ _ _ _ _ _ _ _ _ _ _ _ k o).trans ?_
    unfold kernelRun.sl.dma4
    refine (row_3 c (kernelRun.sl.r_3 c i tbl) (chk_of _ (hall _)) fw k o).trans ?_
    refine row_congr fw ?_ _ _ k o
    unfold kernelRun.sl.r_3
    exact word_3 c i tbl _
  | ⟨4, _⟩ =>
    refine (rowsBuf_apply4 c _ _ _ _ _ _ _ _ _ _ _ _ _ _ _ _ k o).trans ?_
    unfold kernelRun.sl.dma5
    refine (row_4 c (kernelRun.sl.r_4 c i tbl) (chk_of _ (hall _)) fw k o).trans ?_
    refine row_congr fw ?_ _ _ k o
    unfold kernelRun.sl.r_4
    exact word_4 c i tbl _
  | ⟨5, _⟩ =>
    refine (rowsBuf_apply5 c _ _ _ _ _ _ _ _ _ _ _ _ _ _ _ _ k o).trans ?_
    unfold kernelRun.sl.dma6
    refine (row_5 c (kernelRun.sl.r_5 c i tbl) (chk_of _ (hall _)) fw k o).trans ?_
    refine row_congr fw ?_ _ _ k o
    unfold kernelRun.sl.r_5
    exact word_5 c i tbl _
  | ⟨6, _⟩ =>
    refine (rowsBuf_apply6 c _ _ _ _ _ _ _ _ _ _ _ _ _ _ _ _ k o).trans ?_
    unfold kernelRun.sl.dma7
    refine (row_6 c (kernelRun.sl.r_6 c i tbl) (chk_of _ (hall _)) fw k o).trans ?_
    refine row_congr fw ?_ _ _ k o
    unfold kernelRun.sl.r_6
    exact word_6 c i tbl _
  | ⟨7, _⟩ =>
    refine (rowsBuf_apply7 c _ _ _ _ _ _ _ _ _ _ _ _ _ _ _ _ k o).trans ?_
    unfold kernelRun.sl.dma8
    refine (row_7 c (kernelRun.sl.r_7 c i tbl) (chk_of _ (hall _)) fw k o).trans ?_
    refine row_congr fw ?_ _ _ k o
    unfold kernelRun.sl.r_7
    exact word_7 c i tbl _
  | ⟨8, _⟩ =>
    refine (rowsBuf_apply8 c _ _ _ _ _ _ _ _ _ _ _ _ _ _ _ _ k o).trans ?_
    unfold kernelRun.sl.dma9
    refine (row_8 c (kernelRun.sl.r_8 c i tbl) (chk_of _ (hall _)) fw k o).trans ?_
    refine row_congr fw ?_ _ _ k o
    unfold kernelRun.sl.r_8
    exact word_8 c i tbl _
  | ⟨9, _⟩ =>
    refine (rowsBuf_apply9 c _ _ _ _ _ _ _ _ _ _ _ _ _ _ _ _ k o).trans ?_
    unfold kernelRun.sl.dma10
    refine (row_9 c (kernelRun.sl.r_9 c i tbl) (chk_of _ (hall _)) fw k o).trans ?_
    refine row_congr fw ?_ _ _ k o
    unfold kernelRun.sl.r_9
    exact word_9 c i tbl _
  | ⟨10, _⟩ =>
    refine (rowsBuf_apply10 c _ _ _ _ _ _ _ _ _ _ _ _ _ _ _ _ k o).trans ?_
    unfold kernelRun.sl.dma11
    refine (row_10 c (kernelRun.sl.r_10 c i tbl) (chk_of _ (hall _)) fw k o).trans ?_
    refine row_congr fw ?_ _ _ k o
    unfold kernelRun.sl.r_10
    exact word_10 c i tbl _
  | ⟨11, _⟩ =>
    refine (rowsBuf_apply11 c _ _ _ _ _ _ _ _ _ _ _ _ _ _ _ _ k o).trans ?_
    unfold kernelRun.sl.dma12
    refine (row_11 c (kernelRun.sl.r_11 c i tbl) (chk_of _ (hall _)) fw k o).trans ?_
    refine row_congr fw ?_ _ _ k o
    unfold kernelRun.sl.r_11
    exact word_11 c i tbl _
  | ⟨12, _⟩ =>
    refine (rowsBuf_apply12 c _ _ _ _ _ _ _ _ _ _ _ _ _ _ _ _ k o).trans ?_
    unfold kernelRun.sl.dma13
    refine (row_12 c (kernelRun.sl.r_12 c i tbl) (chk_of _ (hall _)) fw k o).trans ?_
    refine row_congr fw ?_ _ _ k o
    unfold kernelRun.sl.r_12
    exact word_12 c i tbl _
  | ⟨13, _⟩ =>
    refine (rowsBuf_apply13 c _ _ _ _ _ _ _ _ _ _ _ _ _ _ _ _ k o).trans ?_
    unfold kernelRun.sl.dma14
    refine (row_13 c (kernelRun.sl.r_13 c i tbl) (chk_of _ (hall _)) fw k o).trans ?_
    refine row_congr fw ?_ _ _ k o
    unfold kernelRun.sl.r_13
    exact word_13 c i tbl _
  | ⟨14, _⟩ =>
    refine (rowsBuf_apply14 c _ _ _ _ _ _ _ _ _ _ _ _ _ _ _ _ k o).trans ?_
    unfold kernelRun.sl.dma15
    refine (row_14 c (kernelRun.sl.r_14 c i tbl) (chk_of _ (hall _)) fw k o).trans ?_
    refine row_congr fw ?_ _ _ k o
    unfold kernelRun.sl.r_14
    exact word_14 c i tbl _
  | ⟨15, _⟩ =>
    refine (rowsBuf_apply15 c _ _ _ _ _ _ _ _ _ _ _ _ _ _ _ _ k o).trans ?_
    unfold kernelRun.sl.dma16
    refine (row_15 c (kernelRun.sl.r_15 c i tbl) (chk_of _ (hall _)) fw k o).trans ?_
    refine row_congr fw ?_ _ _ k o
    unfold kernelRun.sl.r_15
    exact word_15 c i tbl _
  | ⟨_ + 16, h⟩ => exact absurd h (by omega)

end Cert.Proof.KernelIdealOut

end
-- ==== Proof.RefAt.lean ====
/-
  The reference program's result read at an index.

  The reference computes out[b, n, o] = Σ_k x[b, n, k] · weight[idx b, k, o] + bias[idx b, o], where idx b is the
  entry y[b] wrapped (y[b] + 1000 when negative as a signed word) and then clamped into [0, 999] by the gather.
  Under the range hypothesis 0 ≤ y[b] < 1000 (as an unsigned word) the wrap and the clamp both keep y[b], so the gathered weight
  row is row y[b] of the weight array, and the result is the contraction of x[b, n, ·] with that row plus the bias term.
  Last, the chain of host operations the kernel's program applies to (y, bias) is the reference's bias term, operation for operation.
-/
import proofs.«417661_j25847113187694_2_alg».proof.Proof.Gen.ReferenceIdeal.Read
import proofs.«417661_j25847113187694_2_alg».proof.Proof.Gen.KernelIdeal
import Idealize.ShloMosaic.Lib.ValueIdx
import Idealize.ShloMosaic.PureOps.Ideal.Laws

noncomputable section

open scoped BigOperators

namespace Cert.Proof.RefAt

open Cert.ReferenceIdeal Cert.ReferenceIdeal.Gen Idealize.ShloMosaic Idealize.ShloMosaic.ValueIdx

/-! ## The weight gather read at an index

Operand [1000, 1152, 128], start indices [1024, 1], result [1024, 1152, 128]: operand axis 0 is collapsed and is the one the
start index names; axes 1 and 2 are the offset axes. Result element (b, k, o) reads the operand at
(clamp (start b), k, o), the start index read signed and clamped into [0, 999]. -/

/-- The weight gather's dimension numbers. -/
abbrev G6 := gather_S1000x1152x128_S1024x1_S1024x1152x128_12_0_n_n_0_1_11152128

/-- Operand axis 0 of the index read at (b, k, o): the start index of row b, read signed, clamped into [0, 999]. -/
theorem g6_0 {w : Nat} (idx : IVec S1024x1 w) (b : Fin 1024) (k : Fin 1152) (o : Fin 128) :
    (gather_S1000x1152x128_S1024x1_S1024x1152x128_12_0_n_n_0_1_11152128.operandIdx (ix3 b k o) idx 0).val
      = min (idx (ix2 b 0)).toInt.toNat 999 := by
  show G6.start (ix3 b k o) idx 0 + G6.batchCoord (ix3 b k o) 0 + G6.offCoord (ix3 b k o) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ G6.startIndexMap from List.mem_singleton.mpr rfl)]
  have hsi : G6.siIdx (ix3 b k o) ⟨List.idxOf (0 : Fin 3) G6.startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

/-- Operand axis 1 of the index read at (b, k, o): the offset coordinate k (no start, no batching there). -/
theorem g6_1 {w : Nat} (idx : IVec S1024x1 w) (b : Fin 1024) (k : Fin 1152) (o : Fin 128) :
    (gather_S1000x1152x128_S1024x1_S1024x1152x128_12_0_n_n_0_1_11152128.operandIdx (ix3 b k o) idx 1).val
      = k.val := by
  show G6.start (ix3 b k o) idx 1 + G6.batchCoord (ix3 b k o) 1 + G6.offCoord (ix3 b k o) 1 = _
  rw [GatherDims.batchCoord_eq_zero _ _ _ List.not_mem_nil]
  unfold GatherDims.start
  rw [dif_neg (show ¬ (1 : Fin 3) ∈ G6.startIndexMap by decide)]
  unfold GatherDims.offCoord
  rw [dif_pos (show (1 : Fin 3) ∈ G6.sKept by decide), Nat.zero_add]
  rfl

/-- Operand axis 2 of the index read at (b, k, o): the offset coordinate o. -/
theorem g6_2 {w : Nat} (idx : IVec S1024x1 w) (b : Fin 1024) (k : Fin 1152) (o : Fin 128) :
    (gather_S1000x1152x128_S1024x1_S1024x1152x128_12_0_n_n_0_1_11152128.operandIdx (ix3 b k o) idx 2).val
      = o.val := by
  show G6.start (ix3 b k o) idx 2 + G6.batchCoord (ix3 b k o) 2 + G6.offCoord (ix3 b k o) 2 = _
  rw [GatherDims.batchCoord_eq_zero _ _ _ List.not_mem_nil]
  unfold GatherDims.start
  rw [dif_neg (show ¬ (2 : Fin 3) ∈ G6.startIndexMap by decide)]
  unfold GatherDims.offCoord
  rw [dif_pos (show (2 : Fin 3) ∈ G6.sKept by decide), Nat.zero_add]
  rfl

/-- THE WEIGHT GATHER READ AT (b, k, o): the operand at (clamp (start b), k, o). -/
theorem gather6_apply {α : Type} {w : Nat} (x2 : S1000x1152x128.Idx → α) (idx : IVec S1024x1 w)
    (b : Fin 1024) (k : Fin 1152) (o : Fin 128) :
    Host.gather gather_S1000x1152x128_S1024x1_S1024x1152x128_12_0_n_n_0_1_11152128 x2 idx (ix3 b k o)
      = x2 (ix3 ⟨min (idx (ix2 b 0)).toInt.toNat 999, by omega⟩ k o) := by
  unfold Host.gather
  congr 1
  funext a
  refine Fin.ext ?_
  match a with
  | ⟨0, _⟩ => exact g6_0 idx b k o
  | ⟨1, _⟩ => exact g6_1 idx b k o
  | ⟨2, _⟩ => exact g6_2 idx b k o

/-! ## The index arithmetic under the range hypothesis -/

/-- A 32-bit word below 1000 read unsigned is the same number read signed. -/
theorem toInt_toNat_of_lt (v : BitVec 32) (h : v.toNat < 1000) : v.toInt.toNat = v.toNat := by
  rw [BitVec.toInt_eq_toNat_of_lt (by omega)]
  rfl

/-- A 32-bit word below 1000 is not negative as a signed word. -/
theorem slt_zero_of_lt (v : BitVec 32) (h : v.toNat < 1000) : IntOp.cmpi .slt v 0#32 = 0#1 := by
  show BitVec.ofBool (v.slt 0#32) = 0#1
  have : v.slt 0#32 = false := by
    rw [BitVec.slt_eq_decide, BitVec.toInt_eq_toNat_of_lt (by omega)]
    simp
  rw [this]; rfl

/-- The start index the weight gather reads for batch entry b is the word y[b] itself: it is not negative, so the
    wrap-around select keeps it. -/
theorem v5_at {F : FTy → Type} [FloatOps F] (x1 : (⟨S1024, .i32⟩ : BufTy).Contents (Elt F))
    (h : ∀ j : S1024.Idx, BitVec.toNat (x1 j) < 1000) (b : Fin 1024) :
    Read.val_main_v5 (F := F) x1 (ix2 b 0) = x1 (ix1 b) := by
  rw [Read.val_main_v5_apply, Read.val_main_v4_apply, Read.val_main_v1_apply, Read.val_main_v0_apply, Read.val_main_c_apply]
  have e : Read.idx_main_v5 (ix2 b 0) = ix1 b := by
    funext a; match a with | ⟨0, _⟩ => rfl
  rw [e, slt_zero_of_lt _ (h _), select_zero]

/-- Under the range hypothesis the gathered weight row of batch entry b is row (y b) of the weight array. -/
theorem gathered_row {F : FTy → Type} [FloatOps F] (x1 : (⟨S1024, .i32⟩ : BufTy).Contents (Elt F)) (x2 : (⟨S1000x1152x128, .f32⟩ : BufTy).Contents (Elt F))
    (h : ∀ j : S1024.Idx, BitVec.toNat (x1 j) < 1000) (b : Fin 1024) (k : Fin 1152) (o : Fin 128) :
    Read.val_main_v6 (F := F) x1 x2 (ix3 b k o) = x2 (ix3 ⟨BitVec.toNat (x1 (ix1 b)), h _⟩ k o) := by
  unfold Read.val_main_v6
  rw [gather6_apply]
  congr 1
  have e : min (Read.val_main_v5 (F := F) x1 (ix2 b 0)).toInt.toNat 999 = BitVec.toNat (x1 (ix1 b)) := by
    rw [v5_at x1 h b, toInt_toNat_of_lt _ (h _)]
    have := h (ix1 b)
    omega
  funext a
  match a with
  | ⟨0, _⟩ => exact Fin.ext e
  | ⟨1, _⟩ => rfl
  | ⟨2, _⟩ => rfl

/-! ## The reference's result at an index -/

/-- The reference's result at an index, at Ideal. -/
theorem ref_apply (x0 : (⟨S1024x64x1152, .f32⟩ : BufTy).Contents (Elt Ideal)) (x1 : (⟨S1024, .i32⟩ : BufTy).Contents (Elt Ideal)) (x2 : (⟨S1000x1152x128, .f32⟩ : BufTy).Contents (Elt Ideal)) (x3 : (⟨S1000x128, .f32⟩ : BufTy).Contents (Elt Ideal))
    (h : ∀ j : S1024.Idx, BitVec.toNat (x1 j) < 1000) (b : Fin 1024) (n : Fin 64) (o : Fin 128) :
    Read.val_main_v17 (F := Ideal) x0 x1 x2 x3 (ix3 b n o)
      = (∑ k : Fin 1152, x0 (ix3 b n k) * x2 (ix3 ⟨BitVec.toNat (x1 (ix1 b)), h _⟩ k o)) + Read.val_main_v16 (F := Ideal) x1 x3 (ix3 b n o) := by
  rw [Read.val_main_v17_apply, Read.val_main_v15_apply]
  show (∑ k : Fin 1152, _) + _ = _
  congr 1
  refine Finset.sum_congr rfl fun k _ => ?_
  have el : Read.lidx_main_v15 (ix3 b n o) k = ix3 b n k := by
    funext a; match a with | ⟨0, _⟩ => rfl | ⟨1, _⟩ => rfl | ⟨2, _⟩ => rfl
  have er : Read.ridx_main_v15 (ix3 b n o) k = ix3 b k o := by
    funext a; match a with | ⟨0, _⟩ => rfl | ⟨1, _⟩ => rfl | ⟨2, _⟩ => rfl
  rw [el, er, gathered_row x1 x2 h b k o]

/-! ## The kernel program's bias chain is the reference's -/

/-- The host operations the kernel's program applies to (y, bias) after its call — wrap, start-index column, gather of the bias
    row, the two broadcasts — are the reference's bias term: the two programs name the same shapes and dimension numbers. -/
theorem bias_chain_eq {F : FTy → Type} [FloatOps F] (x1 : IVec Cert.KernelIdeal.S1024 32) (x3 : FVec F Cert.KernelIdeal.S1000x128 .f32) :
    broadcastInDim Cert.KernelIdeal.S1024x64x128 ![0, 1, 2] Cert.KernelIdeal.Facts₀.bcast_S1024x1x128_S1024x64x128_0_1_2 (broadcastInDim Cert.KernelIdeal.S1024x1x128 ![0, 2] Cert.KernelIdeal.Facts₀.bcast_S1024x128_S1024x1x128_0_2 (Host.gather Cert.KernelIdeal.gather_S1000x128_S1024x1_S1024x128_1_0_n_n_0_1_1128 x3 (broadcastInDim Cert.KernelIdeal.S1024x1 ![0] Cert.KernelIdeal.Facts₀.bcast_S1024_S1024x1_0 (select (cmpi .slt x1 (broadcastInDim Cert.KernelIdeal.S1024 ![] Cert.KernelIdeal.Facts₀.bcast_S_S1024 (constantI Cert.KernelIdeal.S_ 32 0#32))) (addi x1 (broadcastInDim Cert.KernelIdeal.S1024 ![] Cert.KernelIdeal.Facts₀.bcast_S_S1024 (constantI Cert.KernelIdeal.S_ 32 1000#32))) x1))))
      = Cert.ReferenceIdeal.Read.val_main_v16 (F := F) x1 x3 := rfl

end Cert.Proof.RefAt

end
-- ==== Proof.KernelIdealValue.lean ====
/-
  The idealized kernel's result is the reference's.

  After the region the result array holds, at row B = 16 t + b, what point t left in row b of its block: the sum, over
  the 1152 contracted entries, of row B of x against row y[B] of the weight array (the body's sixteen copies bring row
  y[16 t + b] of the weight array into row b of the scratch; at Ideal the rounding to bf16 is the identity and the
  batched matrix product into a zero accumulator is the plain sum). The twelve host lines then add the bias rows gathered
  by the same table — the very chain of operations the reference applies. The reference's result at the same index is
  the same sum (its gather of the weight array by y, clamped, is row y[B] when every word is below 1000) plus the same
  bias term. No law of the extended reals is used: the two sides are the same sum plus the same term.
-/
import proofs.«417661_j25847113187694_2_alg».proof.Proof.KernelIdealFrame
import proofs.«417661_j25847113187694_2_alg».proof.Proof.KernelIdealGeom
import proofs.«417661_j25847113187694_2_alg».proof.Proof.KernelIdealOut
import proofs.«417661_j25847113187694_2_alg».proof.Proof.RefAt

noncomputable section

namespace Cert.Proof.KernelIdealValue

open Cert.KernelIdeal Cert.KernelIdeal.Gen Cert.Proof.KernelIdealBody Cert.Proof.KernelIdealRun Cert.Proof.KernelIdealTail
open Cert.Proof.KernelIdealGeom Cert.Proof.KernelIdealOut
open Idealize.ShloMosaic Idealize.ShloMosaic.TcCoe Idealize.SL.Sem Idealize.ShloMosaic.ValueIdx

variable (m : (ℓ : Loc nD τ sig) → Buf (Elt Ideal) ℓ) (ρ : Dev nD → PrngReg) (hpre : ∀ c : Dev nD, TblOK c (V m c main_arg1))

/-- The four argument arrays and the region's result, each at its literal type. -/
abbrev xA (c : Dev nD) : FVec Ideal S1024x64x1152 .f32 := V m c main_arg0
abbrev yA (c : Dev nD) : IVec S1024 32 := V m c main_arg1
abbrev wA (c : Dev nD) : FVec Ideal S1000x1152x128 .f32 := V m c main_arg2
abbrev bA (c : Dev nD) : FVec Ideal S1000x128 .f32 := V m c main_arg3
abbrev rA (c : Dev nD) : FVec Ideal S1024x64x128 .f32 := finalA m hpre c 1

/-- On a grid of one axis the point's coordinate is its number. -/
theorem coord_eq : ∀ t : Fin grid0.N, ((grid0.coords t) 0).val = t.val := by decide +kernel

/-- Rows named by equal positions of the table are the same row. -/
theorem wrow_congr (c : Dev nD) (p q : Fin 1024) (hpq : p = q) (k : Fin 1152) (o : Fin 128) :
    wA m c (ix3 ⟨BitVec.toNat (yA m c (ix1 p)), hpre c _⟩ k o)
      = wA m c (ix3 ⟨BitVec.toNat (yA m c (ix1 q)), hpre c _⟩ k o) := by
  subst hpq; rfl

set_option maxHeartbeats 4000000 in
/-- The region's result at row B: the sum over the contracted axis of x's row B against row y[B] of the weight array. -/
theorem region_apply (c : Dev nD) (B : Fin 1024) (n : Fin 64) (o : Fin 128) :
    rA m hpre c (ix3 B n o)
      = ∑ k : Fin 1152, xA m c (ix3 B n k) * wA m c (ix3 ⟨BitVec.toNat (yA m c (ix1 B)), hpre c _⟩ k o) := by
  refine (out_array (dats m hpre 0 c) B n o).trans ?_
  rw [after_1]
  unfold outAt
  refine (outOf_apply c _ _ _ _ _ _ _ _ _ ⟨B.val % 16, mod_lt B⟩ n o).trans ?_
  refine Finset.sum_congr rfl fun k _ => ?_
  have hB : 16 * (B.val / 16) + B.val % 16 = B.val := Nat.div_add_mod B.val 16
  refine congrArg₂ (· * ·) ?_ ?_
  · refine (in_block (adm m 0) (xA m c) ⟨B.val / 16, div_lt (adm m 0) B⟩ ⟨B.val % 16, mod_lt B⟩ n k).trans ?_
    exact congrArg (fun p : Fin 1024 => xA m c (ix3 p n k)) (Fin.ext hB)
  · refine wrow_congr m hpre c _ B (Fin.ext ?_) k o
    show 16 * ((grid0.coords ⟨B.val / 16, _⟩) 0).val + B.val % 16 = B.val
    rw [coord_eq]; exact hB

set_option maxHeartbeats 4000000 in
/-- The program's result is the reference's stage of the four arguments. -/
theorem result_eq (c : Dev nD) :
    StableHlo.after (hostOps1 (F := Ideal)) (Vx m ρ hpre c) (Proc.devRef .tc main_v10)
      = Cert.ReferenceIdeal.Read.val_main_v17 (F := Ideal) (m ((c : Thread nD τ).loc main_arg0)) (m ((c : Thread nD τ).loc main_arg1))
          (m ((c : Thread nD τ).loc main_arg2)) (m ((c : Thread nD τ).loc main_arg3)) := by
  rw [tail_result, Vx_rest m ρ hpre c main_arg1 (by decide), Vx_rest m ρ hpre c main_arg3 (by decide),
    show Vx m ρ hpre c (Proc.devRef .tc main_v0) = finalA m hpre c 1 from Vx_arr m ρ hpre c 1]
  funext j
  obtain ⟨B, n, o, rfl⟩ : ∃ (B : Fin 1024) (n : Fin 64) (o : Fin 128), j = ix3 B n o := ⟨j 0, j 1, j 2, eq_ix3 j⟩
  rw [Cert.Proof.RefAt.ref_apply _ _ _ _ (hpre c) B n o]
  show rA m hpre c (ix3 B n o) + biasB (yA m c) (bA m c) (ix3 B n o) = _
  rw [region_apply]
  refine congrArg₂ (· + ·) rfl ?_
  unfold biasB
  exact congrFun (Cert.Proof.RefAt.bias_chain_eq _ _) _

end Cert.Proof.KernelIdealValue

end
-- ==== Proof.PreRange.lean ====
/-
  The printed precondition, decoded. The predicate is a conjunction of five "all" reductions into one
  boolean word; the last two say every index word is, read signed, at least 0 and below 1000. A 32-bit
  word in [0, 1000) signed is below 1000 unsigned.
-/
import proofs.«417661_j25847113187694_2_alg».proof.Proof.Gen.Pre_finite_inputs
import Idealize.ShloMosaic.Lib.ReduceAll
import Idealize.ShloMosaic.Lib.StableHlo.Predicate
import Idealize.ShloMosaic.Lib.ValueIdx

noncomputable section

namespace Cert.Proof.PreRange

open Idealize.ShloMosaic

/-- The rank-0 shape has one index. -/
instance : Subsingleton Cert.Pre_finite_inputs.S_.Idx := ⟨fun a b => funext fun d => d.elim0⟩

/-- A 32-bit word that is, read signed, at least 0 and below 1000 is below 1000 read unsigned. -/
theorem toNat_lt_of_signed (w : BitVec 32) (h0 : (0#32 : BitVec 32).toInt ≤ w.toInt)
    (h1 : w.toInt < (1000#32 : BitVec 32).toInt) : w.toNat < 1000 := by
  have e0 : (0#32 : BitVec 32).toInt = 0 := by decide
  have e1 : (1000#32 : BitVec 32).toInt = 1000 := by decide
  rw [e0] at h0
  rw [e1] at h1
  have hlt := w.isLt
  rw [BitVec.toInt_eq_toNat_cond] at h0 h1
  split at h0 <;> omega

open Cert.Pre_finite_inputs in
/-- The precondition bounds every index word: read unsigned it is below 1000. -/
theorem idx_lt {F : FTy → Type} [FloatOps F] (a0 : FVec F S1024x64x1152 .f32) (a1 : IVec S1024 32) (a2 : FVec F S1000x1152x128 .f32) (a3 : FVec F S1000x128 .f32)
    (h : Cert.Pre_finite_inputs.fn (F := F) a0 a1 a2 a3 = fun _ => 1#1) : ∀ j : S1024.Idx, BitVec.toNat (a1 j) < 1000 := by
  intro j
  have hw := congrFun h ValueIdx.ix0
  dsimp only [fn, fn_part1, andi] at hw
  -- the word is ((floats ∧ all (idx ≥ 0)) ∧ all (idx < 1000))
  obtain ⟨hl, hlt⟩ := IntOp.andi_eq_one.1 hw
  obtain ⟨_, hge⟩ := IntOp.andi_eq_one.1 hl
  have hgej := Host.reduce_andi_all _ _ _ _ _ hge j
  have hltj := Host.reduce_andi_all _ _ _ _ _ hlt j
  dsimp only [cmpi] at hgej hltj
  rw [StableHlo.Predicate.bcast_scalar _ Facts.h_S_] at hgej hltj
  dsimp only [constantI] at hgej hltj
  exact toNat_lt_of_signed (a1 j) (IntOp.cmpi_sge.1 hgej) (IntOp.cmpi_slt.1 hltj)

end Cert.Proof.PreRange

end
-- ==== Proof.lean ====
/-
  The certificate's five claims for the per-sample expert projection (x[b] · weight[y[b]] + bias[y[b]]), under the
  precondition that the float inputs are finite and every label y[b] lies in [0, 1000).

  The kernel keeps the weight array where it is and, at each of its 64 grid points, copies the sixteen rows its labels
  choose into a scratch before one batched product; the host then adds the gathered bias rows. The three frames: the
  two kernel programs run to the end without fault and leave their arguments unchanged because every copy's source row
  exists (the label range), the pipeline only reads x, and the host lines write none of the arguments; the reference is
  a line of host operations. The idealization changes nothing (no rewrite applied). Equality of results over the
  extended reals: both programs compute, at every index, the same sum over the contracted axis plus the same bias
  term; finiteness of the inputs is not needed.
-/
import proofs.«417661_j25847113187694_2_alg».proof.Defs
import proofs.«417661_j25847113187694_2_alg».proof.Proof.Gen.Kernel
import proofs.«417661_j25847113187694_2_alg».proof.Proof.Gen.KernelIdeal
import proofs.«417661_j25847113187694_2_alg».proof.Proof.Gen.ReferenceIdeal
import proofs.«417661_j25847113187694_2_alg».proof.Proof.Gen.Pre_finite_inputs
import proofs.«417661_j25847113187694_2_alg».proof.Proof.Gen.ReferenceIdeal.Run
import proofs.«417661_j25847113187694_2_alg».proof.Proof.Gen.ReferenceIdeal.Read
import proofs.«417661_j25847113187694_2_alg».proof.Proof.KernelFrame
import proofs.«417661_j25847113187694_2_alg».proof.Proof.KernelIdealFrame
import proofs.«417661_j25847113187694_2_alg».proof.Proof.KernelIdealValue
import proofs.«417661_j25847113187694_2_alg».proof.Proof.PreRange
import Idealize.ShloMosaic.Adequacy
import Idealize.ShloMosaic.Init

noncomputable section

namespace Cert.Proof

open Idealize.ShloMosaic Idealize.ShloMosaic.TcCoe Idealize.SL.Sem

/-- Under the precondition every label indexes a row of the weight array: the word-level program runs and keeps its arguments. -/
theorem frame_k : Cert.frame_Kernel := fun m ρ hp =>
  Cert.Proof.KernelFrame.frame m ρ (fun c => Cert.Proof.PreRange.idx_lt _ _ _ _ (hp c))

/-- The same for the idealized program. -/
theorem frame_ki : Cert.frame_KernelIdeal := fun m ρ hp =>
  Cert.Proof.KernelIdealFrame.frame m ρ (fun c => Cert.Proof.PreRange.idx_lt _ _ _ _ (hp c))

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's stage of the (agreeing) arguments. -/
theorem algebraic : Cert.algebraic_KernelIdeal_ReferenceIdeal := by
  intro m ρ m' ρ' hp hagree
  have hpre : ∀ c : Dev Cert.KernelIdeal.nD, Cert.Proof.KernelIdealBody.TblOK c (Cert.Proof.KernelIdealRun.V m c Cert.KernelIdeal.main_arg1) :=
    fun c => Cert.Proof.PreRange.idx_lt _ _ _ _ (hp c)
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.Proof.KernelIdealRun.run_main m ρ hpre)
    exact ⟨(h c Cert.KernelIdeal.main_v10 (Or.inl rfl)).trans (Cert.Proof.KernelIdealValue.result_eq m ρ hpre c),
      (h c Cert.KernelIdeal.main_arg0 (Or.inr (Or.inl rfl))).trans (Cert.Proof.KernelIdealFrame.arg_kept m ρ hpre c _ (Or.inl rfl)),
      (h c Cert.KernelIdeal.main_arg1 (Or.inr (Or.inr (Or.inl rfl)))).trans (Cert.Proof.KernelIdealFrame.arg_kept m ρ hpre c _ (Or.inr (Or.inl rfl))),
      (h c Cert.KernelIdeal.main_arg2 (Or.inr (Or.inr (Or.inr (Or.inl rfl))))).trans (Cert.Proof.KernelIdealFrame.arg_kept m ρ hpre c _ (Or.inr (Or.inr (Or.inl rfl)))),
      (h c Cert.KernelIdeal.main_arg3 (Or.inr (Or.inr (Or.inr (Or.inr rfl))))).trans (Cert.Proof.KernelIdealFrame.arg_kept m ρ hpre c _ (Or.inr (Or.inr (Or.inr rfl))))⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v17_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
